-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4x4096 : Shape := ⟨2, ![4, 4096]⟩
abbrev S4096 : Shape := ⟨1, ![4096]⟩
abbrev S8x4096 : Shape := ⟨2, ![8, 4096]⟩
abbrev S8 : Shape := ⟨1, ![8]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S8x4096 : S_.BroadcastsInDim S8x4096 (![] : Fin 0 → Fin S8x4096.rank)
  reducesTo_S8x4096_S_d0_1 : S8x4096.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg6 : FVec F S4096 .f32) (main_arg7 : FVec F S8x4096 .f32) (main_arg8 : FVec F S8 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg6
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S8x4096 .f32 := Host.absf main_arg7
  let main_cst_8 : FVec F S_ .f32 := constant S_ .f32 0x7F800000#32
  let main_v25 : FVec F S8x4096 .f32 := broadcastInDim S8x4096 ![] bcast_S_S8x4096 main_cst_8
  let main_v26 : IVec S8x4096 1 := cmpf .olt main_v24 main_v25
  let main_c_9 : IVec S_ 1 := constantI S_ 1 1#1
  let main_v27 : IVec S_ 1 := (fun x v => Host.reduce IntOp.andi x v reducesTo_S8x4096_S_d0_1 h_S_) main_v26 main_c_9
  let main_v28 : IVec S_ 1 := andi main_v23 main_v27
  let main_v29 : FVec F S8 .f32 := Host.absf main_arg8
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S4x4096x4096 .f32) (main_arg1 : IVec S4x4096 32) (main_arg2 : IVec S4x4096 32) (main_arg3 : FVec F S4096 .f32) (main_arg4 : FVec F S4096 .f32) (main_arg5 : FVec F S4096 .f32) (main_arg6 : FVec F S4096 .f32) (main_arg7 : FVec F S8x4096 .f32) (main_arg8 : FVec F S8 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096 .f32 := Host.absf main_arg3
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg5
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg6 main_arg7 main_arg8 main_v13 main_v16
-- ==== Kernel.lean ====
abbrev S4x4096x4096 : Shape := ⟨3, ![4, 4096, 4096]⟩
abbrev S4x4096 : Shape := ⟨2, ![4, 4096]⟩
abbrev S4096 : Shape := ⟨1, ![4096]⟩
abbrev S8x4096 : Shape := ⟨2, ![8, 4096]⟩
abbrev S8 : Shape := ⟨1, ![8]⟩
abbrev S4x128x4096 : Shape := ⟨3, ![4, 128, 4096]⟩
abbrev S4x128 : Shape := ⟨2, ![4, 128]⟩
abbrev S4x128x1 : Shape := ⟨3, ![4, 128, 1]⟩
abbrev S4x8 : Shape := ⟨2, ![4, 8]⟩
abbrev S4 : Shape := ⟨1, ![4]⟩
abbrev S4x1 : Shape := ⟨2, ![4, 1]⟩
abbrev S1x4096 : Shape := ⟨2, ![1, 4096]⟩
abbrev S8x1 : Shape := ⟨2, ![8, 1]⟩
abbrev S1x8 : Shape := ⟨2, ![1, 8]⟩
abbrev S4x1x8 : Shape := ⟨3, ![4, 1, 8]⟩
abbrev S_ : Shape := ⟨0, ![]⟩
abbrev S1 : Shape := ⟨1, ![1]⟩

abbrev nBuf : Space → Nat
  | .hbm => 17
  | .vmem => 17
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .i32⟩
  | .hbm, ⟨2, _⟩ => ⟨S4x4096, .i32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S8x4096, .f32⟩
  | .hbm, ⟨8, _⟩ => ⟨S8, .f32⟩
  | .hbm, ⟨9, _⟩ => ⟨S4x4096, .i32⟩
  | .hbm, ⟨10, _⟩ => ⟨S4x4096, .f32⟩
  | .hbm, ⟨11, _⟩ => ⟨S4x4096, .f32⟩
  | .hbm, ⟨12, _⟩ => ⟨S4x4096, .f32⟩
  | .hbm, ⟨13, _⟩ => ⟨S4x8, .f32⟩
  | .hbm, ⟨14, _⟩ => ⟨S4x1x8, .f32⟩
  | .hbm, ⟨15, _⟩ => ⟨S_, .f32⟩
  | .hbm, ⟨16, _⟩ => ⟨S1, .f32⟩
  | .local _ .vmem, ⟨0, _⟩ => ⟨S4x128x4096, .f32⟩
  | .local _ .vmem, ⟨1, _⟩ => ⟨S4x128x4096, .f32⟩
  | .local _ .vmem, ⟨2, _⟩ => ⟨S4x128, .f32⟩
  | .local _ .vmem, ⟨3, _⟩ => ⟨S4x128, .f32⟩
  | .local _ .vmem, ⟨4, _⟩ => ⟨S4x4096, .f32⟩
  | .local _ .vmem, ⟨5, _⟩ => ⟨S4x4096, .f32⟩
  | .local _ .vmem, ⟨6, _⟩ => ⟨S4x4096, .f32⟩
  | .local _ .vmem, ⟨7, _⟩ => ⟨S4x4096, .f32⟩
  | .local _ .vmem, ⟨8, _⟩ => ⟨S4x4096, .f32⟩
  | .local _ .vmem, ⟨9, _⟩ => ⟨S4x4096, .f32⟩
  | .local _ .vmem, ⟨10, _⟩ => ⟨S4096, .f32⟩
  | .local _ .vmem, ⟨11, _⟩ => ⟨S4096, .f32⟩
  | .local _ .vmem, ⟨12, _⟩ => ⟨S4096, .f32⟩
  | .local _ .vmem, ⟨13, _⟩ => ⟨S4096, .f32⟩
  | .local _ .vmem, ⟨14, _⟩ => ⟨S8x4096, .f32⟩
  | .local _ .vmem, ⟨15, _⟩ => ⟨S8, .f32⟩
  | .local _ .vmem, ⟨16, _⟩ => ⟨S4x8, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v25 : BitVec 1 := Scalar.cmpi .eq arg0 c31_i32
  let v26 : BitVec 32 := Scalar.extui v25
  let c0_i32_15 : BitVec 32 := 0#32
  let v27 : BitVec 1 := Scalar.cmpi .ne v26 c0_i32_15
  v27

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x4096 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4x8 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

class Facts₀ : Prop where
  inb_S4x4096_S4x4096_0_0 : ∀ a, (![0, 0] : Fin 2 → Nat) a + S4x4096.size a ≤ S4x4096.size a
  h_S4x4096 : 0 < S4x4096.numel
  shapeCasts_S4x4096_S4x4096 : S4x4096.ShapeCasts S4x4096
  inb_S4x128x4096_S4x128x4096_0_0_0 : ∀ a, (![0, 0, 0] : Fin 3 → Nat) a + S4x128x4096.size a ≤ S4x128x4096.size a
  h_S4x128x4096 : 0 < S4x128x4096.numel
  inb_S4x128_S4x128_0_0 : ∀ a, (![0, 0] : Fin 2 → Nat) a + S4x128.size a ≤ S4x128.size a
  h_S4x128 : 0 < S4x128.numel
  shapeCasts_S4x128_S4x128 : S4x128.ShapeCasts S4x128
  shapeCasts_S4x128_S4x128x1 : S4x128.ShapeCasts S4x128x1
  broadcasts_S4x128x1_S4x128x4096 : S4x128x1.Broadcasts S4x128x4096
  reduces_S4x128x4096_S4x4096 : S4x128x4096.Reduces [1] S4x4096
  natLt_1_32 : 1 < 32
  reduces_S4x4096_S4 : S4x4096.Reduces [1] S4
  shapeCasts_S4_S4x1 : S4.ShapeCasts S4x1
  broadcasts_S4x1_S4x4096 : S4x1.Broadcasts S4x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S4x4096 : S1x4096.Broadcasts S4x4096
  inb_S8x4096_S8x4096_0_0 : ∀ a, (![0, 0] : Fin 2 → Nat) a + S8x4096.size a ≤ S8x4096.size a
  h_S8x4096 : 0 < S8x4096.numel
  reduces_S8x4096_S8 : S8x4096.Reduces [1] S8
  shapeCasts_S8_S8x1 : S8.ShapeCasts S8x1
  broadcasts_S8x1_S8x4096 : S8x1.Broadcasts S8x4096
  broadcasts_S1x4096_S8x4096 : S1x4096.Broadcasts S8x4096
  inb_S8_S8_0 : ∀ a, (![0] : Fin 1 → Nat) a + S8.size a ≤ S8.size a
  h_S8 : 0 < S8.numel
  shapeCasts_S8_S1x8 : S8.ShapeCasts S1x8
  broadcasts_S1x8_S4x8 : S1x8.Broadcasts S4x8
  reduces_S4x8_S4 : S4x8.Reduces [1] S4
  broadcasts_S4x1_S4x8 : S4x1.Broadcasts S4x8
  inb_S4x8_S4x8_0_0 : ∀ a, (![0, 0] : Fin 2 → Nat) a + S4x8.size a ≤ S4x8.size a
  h_S4x8 : 0 < S4x8.numel
  bcast_S4x8_S4x1x8_0_2 : S4x8.BroadcastsInDim S4x1x8 (![0, 2] : Fin 2 → Fin S4x1x8.rank)
  bcast_S_S1 : S_.BroadcastsInDim S1 (![] : Fin 0 → Fin S1.rank)
  dot_S4x4096_S8x4096_S4x8_1_1_0_0_n_n_wf : DotDims.WF S4x4096 S8x4096 S4x8 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x4096.size a ≤ S4x4096x4096.size a
  hwx0_0 : ∀ i : grid0.Coords, EltTy.bits .f32 = 32 ∨ (Rect.block (s := S4x4096x4096) S4x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x4096.size a
  hwx0_1 : ∀ i : grid0.Coords, EltTy.bits .f32 = 32 ∨ (Rect.block (s := S4x4096) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x4096.size a ≤ S4x4096.size a
  hwx0_2 : ∀ i : grid0.Coords, EltTy.bits .f32 = 32 ∨ (Rect.block (s := S4x4096) S4x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x4096.size a ≤ S4x4096.size a
  hwx0_3 : ∀ i : grid0.Coords, EltTy.bits .f32 = 32 ∨ (Rect.block (s := S4x4096) S4x4096.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4x4096.size a ≤ S4x4096.size a
  hwx1_0 : ∀ i : grid1.Coords, EltTy.bits .f32 = 32 ∨ (Rect.block (s := S4x4096) S4x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x4096.size a ≤ S4x4096.size a
  hwx1_1 : ∀ i : grid1.Coords, EltTy.bits .f32 = 32 ∨ (Rect.block (s := S4x4096) S4x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096.size a ≤ S4096.size a
  hwx1_2 : ∀ i : grid1.Coords, EltTy.bits .f32 = 32 ∨ (Rect.block (s := S4096) S4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096.size a ≤ S4096.size a
  hwx1_3 : ∀ i : grid1.Coords, EltTy.bits .f32 = 32 ∨ (Rect.block (s := S4096) S4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096.size a ≤ S4096.size a
  hwx1_4 : ∀ i : grid1.Coords, EltTy.bits .f32 = 32 ∨ (Rect.block (s := S4096) S4096.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4096.size a ≤ S4096.size a
  hwx1_5 : ∀ i : grid1.Coords, EltTy.bits .f32 = 32 ∨ (Rect.block (s := S4096) S4096.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x4096.size a ≤ S8x4096.size a
  hwx1_6 : ∀ i : grid1.Coords, EltTy.bits .f32 = 32 ∨ (Rect.block (s := S8x4096) S8x4096.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S8.size a ≤ S8.size a
  hwx1_7 : ∀ i : grid1.Coords, EltTy.bits .f32 = 32 ∨ (Rect.block (s := S8) S8.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S4x8.size a ≤ S4x8.size a
  hwx1_8 : ∀ i : grid1.Coords, EltTy.bits .f32 = 32 ∨ (Rect.block (s := S4x8) S4x8.size (cc1_transform_8 i) (hinb1_8 i)).WholeWords (EltTy.packing .f32)

variable [Facts₀]

def dot_S4x4096_S8x4096_S4x8_1_1_0_0_n_n : DotDims S4x4096 S8x4096 S4x8 where
  lhsContracting := [1]
  rhsContracting := [1]
  lhsNonContracting := [0]
  rhsNonContracting := [0]
  lhsBatch := []
  rhsBatch := []
  wf := dot_S4x4096_S8x4096_S4x8_1_1_0_0_n_n_wf

abbrev win0_0 : Pipeline.Window sig grid0 :=
  Pipeline.Window.ofSpec (Memref.whole main_arg0) S4x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S4x4096.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S4x4096.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v2_0) S4x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S4x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S8x4096.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S8.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v3) S4x8.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S4x4096x4096 : Shape := ⟨3, ![4, 4096, 4096]⟩
abbrev S4x4096 : Shape := ⟨2, ![4, 4096]⟩
abbrev S4096 : Shape := ⟨1, ![4096]⟩
abbrev S8x4096 : Shape := ⟨2, ![8, 4096]⟩
abbrev S8 : Shape := ⟨1, ![8]⟩
abbrev S4x4096x1 : Shape := ⟨3, ![4, 4096, 1]⟩
abbrev S_ : Shape := ⟨0, ![]⟩
abbrev S4x1x4096 : Shape := ⟨3, ![4, 1, 4096]⟩
abbrev S4x1 : Shape := ⟨2, ![4, 1]⟩
abbrev S4x1x1 : Shape := ⟨3, ![4, 1, 1]⟩
abbrev S1x1x4096 : Shape := ⟨3, ![1, 1, 4096]⟩
abbrev S8x1 : Shape := ⟨2, ![8, 1]⟩
abbrev S1x4096 : Shape := ⟨2, ![1, 4096]⟩
abbrev S4x1x8 : Shape := ⟨3, ![4, 1, 8]⟩
abbrev S1x1x8 : Shape := ⟨3, ![1, 1, 8]⟩
abbrev S1 : Shape := ⟨1, ![1]⟩

abbrev nBuf : Space → Nat
  | .hbm => 105
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .i32⟩
  | .hbm, ⟨2, _⟩ => ⟨S4x4096, .i32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S8x4096, .f32⟩
  | .hbm, ⟨8, _⟩ => ⟨S8, .f32⟩
  | .hbm, ⟨9, _⟩ => ⟨S4x4096, .i32⟩
  | .hbm, ⟨10, _⟩ => ⟨S4x4096, .f32⟩
  | .hbm, ⟨11, _⟩ => ⟨S4x4096x1, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .i1⟩
  | .hbm, ⟨17, _⟩ => ⟨S4x4096x4096, .f32⟩
  | .hbm, ⟨18, _⟩ => ⟨S_, .f32⟩
  | .hbm, ⟨19, _⟩ => ⟨S4x4096, .f32⟩
  | .hbm, ⟨20, _⟩ => ⟨S_, .f32⟩
  | .hbm, ⟨21, _⟩ => ⟨S4x4096, .f32⟩
  | .hbm, ⟨22, _⟩ => ⟨S4x4096, .f32⟩
  | .hbm, ⟨23, _⟩ => ⟨S4x1x4096, .f32⟩
  | .hbm, ⟨24, _⟩ => ⟨S_, .f32⟩
  | .hbm, ⟨25, _⟩ => ⟨S4x1, .f32⟩
  | .hbm, ⟨26, _⟩ => ⟨S4x1x1, .f32⟩
  | .hbm, ⟨27, _⟩ => ⟨S_, .f32⟩
  | .hbm, ⟨28, _⟩ => ⟨S4x1x1, .f32⟩
  | .hbm, ⟨29, _⟩ => ⟨S4x1x1, .f32⟩
  | .hbm, ⟨30, _⟩ => ⟨S4x1x4096, .f32⟩
  | .hbm, ⟨31, _⟩ => ⟨S4x1x4096, .f32⟩
  | .hbm, ⟨32, _⟩ => ⟨S4x1x4096, .f32⟩
  | .hbm, ⟨33, _⟩ => ⟨S_, .f32⟩
  | .hbm, ⟨34, _⟩ => ⟨S4x1, .f32⟩
  | .hbm, ⟨35, _⟩ => ⟨S4x1x1, .f32⟩
  | .hbm, ⟨36, _⟩ => ⟨S_, .f32⟩
  | .hbm, ⟨37, _⟩ => ⟨S4x1x1, .f32⟩
  | .hbm, ⟨38, _⟩ => ⟨S4x1x1, .f32⟩
  | .hbm, ⟨39, _⟩ => ⟨S4x1x4096, .f32⟩
  | .hbm, ⟨40, _⟩ => ⟨S4x1x4096, .f32⟩
  | .hbm, ⟨41, _⟩ => ⟨S_, .f32⟩
  | .hbm, ⟨42, _⟩ => ⟨S4x1x1, .f32⟩
  | .hbm, ⟨43, _⟩ => ⟨S4x1x1, .f32⟩
  | .hbm, ⟨44, _⟩ => ⟨S4x1x1, .f32⟩
  | .hbm, ⟨45, _⟩ => ⟨S4x1x4096, .f32⟩
  | .hbm, ⟨46, _⟩ => ⟨S4x1x4096, .f32⟩
  | .hbm, ⟨47, _⟩ => ⟨S1x1x4096, .f32⟩
  | .hbm, ⟨48, _⟩ => ⟨S4x1x4096, .f32⟩
  | .hbm, ⟨49, _⟩ => ⟨S4x1x4096, .f32⟩
  | .hbm, ⟨50, _⟩ => ⟨S1x1x4096, .f32⟩
  | .hbm, ⟨51, _⟩ => ⟨S4x1x4096, .f32⟩
  | .hbm, ⟨52, _⟩ => ⟨S4x1x4096, .f32⟩
  | .hbm, ⟨53, _⟩ => ⟨S_, .f32⟩
  | .hbm, ⟨54, _⟩ => ⟨S8, .f32⟩
  | .hbm, ⟨55, _⟩ => ⟨S8x1, .f32⟩
  | .hbm, ⟨56, _⟩ => ⟨S_, .f32⟩
  | .hbm, ⟨57, _⟩ => ⟨S8x1, .f32⟩
  | .hbm, ⟨58, _⟩ => ⟨S8x1, .f32⟩
  | .hbm, ⟨59, _⟩ => ⟨S8x4096, .f32⟩
  | .hbm, ⟨60, _⟩ => ⟨S8x4096, .f32⟩
  | .hbm, ⟨61, _⟩ => ⟨S8x4096, .f32⟩
  | .hbm, ⟨62, _⟩ => ⟨S_, .f32⟩
  | .hbm, ⟨63, _⟩ => ⟨S8, .f32⟩
  | .hbm, ⟨64, _⟩ => ⟨S8x1, .f32⟩
  | .hbm, ⟨65, _⟩ => ⟨S_, .f32⟩
  | .hbm, ⟨66, _⟩ => ⟨S8x1, .f32⟩
  | .hbm, ⟨67, _⟩ => ⟨S8x1, .f32⟩
  | .hbm, ⟨68, _⟩ => ⟨S8x4096, .f32⟩
  | .hbm, ⟨69, _⟩ => ⟨S8x4096, .f32⟩
  | .hbm, ⟨70, _⟩ => ⟨S_, .f32⟩
  | .hbm, ⟨71, _⟩ => ⟨S8x1, .f32⟩
  | .hbm, ⟨72, _⟩ => ⟨S8x1, .f32⟩
  | .hbm, ⟨73, _⟩ => ⟨S8x1, .f32⟩
  | .hbm, ⟨74, _⟩ => ⟨S8x4096, .f32⟩
  | .hbm, ⟨75, _⟩ => ⟨S8x4096, .f32⟩
  | .hbm, ⟨76, _⟩ => ⟨S1x4096, .f32⟩
  | .hbm, ⟨77, _⟩ => ⟨S8x4096, .f32⟩
  | .hbm, ⟨78, _⟩ => ⟨S8x4096, .f32⟩
  | .hbm, ⟨79, _⟩ => ⟨S1x4096, .f32⟩
  | .hbm, ⟨80, _⟩ => ⟨S8x4096, .f32⟩
  | .hbm, ⟨81, _⟩ => ⟨S8x4096, .f32⟩
  | .hbm, ⟨82, _⟩ => ⟨S4x1x8, .f32⟩
  | .hbm, ⟨83, _⟩ => ⟨S1x1x8, .f32⟩
  | .hbm, ⟨84, _⟩ => ⟨S4x1x8, .f32⟩
  | .hbm, ⟨85, _⟩ => ⟨S4x1x8, .f32⟩
  | .hbm, ⟨86, _⟩ => ⟨S_, .f32⟩
  | .hbm, ⟨87, _⟩ => ⟨S4x1x8, .f32⟩
  | .hbm, ⟨88, _⟩ => ⟨S4x1x8, .f32⟩
  | .hbm, ⟨89, _⟩ => ⟨S_, .f32⟩
  | .hbm, ⟨90, _⟩ => ⟨S4x1, .f32⟩
  | .hbm, ⟨91, _⟩ => ⟨S_, .f32⟩
  | .hbm, ⟨92, _⟩ => ⟨S4x1, .f32⟩
  | .hbm, ⟨93, _⟩ => ⟨S4x1, .f32⟩
  | .hbm, ⟨94, _⟩ => ⟨S4x1x1, .f32⟩
  | .hbm, ⟨95, _⟩ => ⟨S4x1x8, .f32⟩
  | .hbm, ⟨96, _⟩ => ⟨S4x1x8, .f32⟩
  | .hbm, ⟨97, _⟩ => ⟨S4x1x8, .f32⟩
  | .hbm, ⟨98, _⟩ => ⟨S_, .f32⟩
  | .hbm, ⟨99, _⟩ => ⟨S4x1, .f32⟩
  | .hbm, ⟨100, _⟩ => ⟨S4x1x1, .f32⟩
  | .hbm, ⟨101, _⟩ => ⟨S4x1x8, .f32⟩
  | .hbm, ⟨102, _⟩ => ⟨S4x1x8, .f32⟩
  | .hbm, ⟨103, _⟩ => ⟨S_, .f32⟩
  | .hbm, ⟨104, _⟩ => ⟨S1, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_cst_13 : Ref sig .tc := ⟨.hbm, 89, rfl⟩
abbrev main_v66 : Ref sig .tc := ⟨.hbm, 90, rfl⟩
abbrev main_cst_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_15 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_16 : Ref sig .tc := ⟨.hbm, 103, rfl⟩
abbrev main_v77 : Ref sig .tc := ⟨.hbm, 104, rfl⟩

abbrev nD : Nat := 1
abbrev τ : Topo := Topo.v7x

variable {F : FTy → Type} [FloatOps F]

class Facts₀ : Prop where
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d1 : S4x4096x4096.ReducesTo [1] S4x4096
  h_S_ : 0 < S_.numel
  bcast_S4x4096_S4x1x4096_0_2 : S4x4096.BroadcastsInDim S4x1x4096 (![0, 2] : Fin 2 → Fin S4x1x4096.rank)
  reducesTo_S4x1x4096_S4x1_d2 : S4x1x4096.ReducesTo [2] S4x1
  bcast_S4x1_S4x1x1_0_1 : S4x1.BroadcastsInDim S4x1x1 (![0, 1] : Fin 2 → Fin S4x1x1.rank)
  bcast_S_S4x1x1 : S_.BroadcastsInDim S4x1x1 (![] : Fin 0 → Fin S4x1x1.rank)
  bcast_S4x1x1_S4x1x4096_0_1_2 : S4x1x1.BroadcastsInDim S4x1x4096 (![0, 1, 2] : Fin 3 → Fin S4x1x4096.rank)
  bcast_S4096_S1x1x4096_2 : S4096.BroadcastsInDim S1x1x4096 (![2] : Fin 1 → Fin S1x1x4096.rank)
  bcast_S1x1x4096_S4x1x4096_0_1_2 : S1x1x4096.BroadcastsInDim S4x1x4096 (![0, 1, 2] : Fin 3 → Fin S4x1x4096.rank)
  reducesTo_S8x4096_S8_d1 : S8x4096.ReducesTo [1] S8
  bcast_S8_S8x1_0 : S8.BroadcastsInDim S8x1 (![0] : Fin 1 → Fin S8x1.rank)
  bcast_S_S8x1 : S_.BroadcastsInDim S8x1 (![] : Fin 0 → Fin S8x1.rank)
  bcast_S8x1_S8x4096_0_1 : S8x1.BroadcastsInDim S8x4096 (![0, 1] : Fin 2 → Fin S8x4096.rank)
  bcast_S4096_S1x4096_1 : S4096.BroadcastsInDim S1x4096 (![1] : Fin 1 → Fin S1x4096.rank)
  bcast_S1x4096_S8x4096_0_1 : S1x4096.BroadcastsInDim S8x4096 (![0, 1] : Fin 2 → Fin S8x4096.rank)
  bcast_S8_S1x1x8_2 : S8.BroadcastsInDim S1x1x8 (![2] : Fin 1 → Fin S1x1x8.rank)
  bcast_S1x1x8_S4x1x8_0_1_2 : S1x1x8.BroadcastsInDim S4x1x8 (![0, 1, 2] : Fin 3 → Fin S4x1x8.rank)
  bcast_S_S4x1x8 : S_.BroadcastsInDim S4x1x8 (![] : Fin 0 → Fin S4x1x8.rank)
  reducesTo_S4x1x8_S4x1_d2 : S4x1x8.ReducesTo [2] S4x1
  bcast_S_S4x1 : S_.BroadcastsInDim S4x1 (![] : Fin 0 → Fin S4x1.rank)
  bcast_S4x1x1_S4x1x8_0_1_2 : S4x1x1.BroadcastsInDim S4x1x8 (![0, 1, 2] : Fin 3 → Fin S4x1x8.rank)
  bcast_S_S1 : S_.BroadcastsInDim S1 (![] : Fin 0 → Fin S1.rank)
  dot_S4x1x4096_S8x4096_S4x1x8_2_1_01_0_n_n_wf : DotDims.WF S4x1x4096 S8x4096 S4x1x8 [2] [1] [0, 1] [0] [] []

variable [Facts₀]

def dot_S4x1x4096_S8x4096_S4x1x8_2_1_01_0_n_n : DotDims S4x1x4096 S8x4096 S4x1x8 where
  lhsContracting := [2]
  rhsContracting := [1]
  lhsNonContracting := [0, 1]
  rhsNonContracting := [0]
  lhsBatch := []
  rhsBatch := []
  wf := dot_S4x1x4096_S8x4096_S4x1x8_2_1_01_0_n_n_wf

class Facts : Prop extends Facts₀ where

variable [Facts]
-- ==== Proof.Kernel.ReduceData.lean ====
/-
  The token reduction (the first kernel region), as data: what it reads, what it carries, what it leaves.

  The region walks the sequence axis in 32 steps of 128 tokens. At step t it is handed block t of the token array,
  x[·, 128t … 128t+127, ·], and block t of the token weights, and it keeps two running arrays of shape [4, 4096] in
  scratch memory: the sum of the weighted tokens seen so far and the count of their nonzero entries. Step 0 starts
  both from zero; every step adds its block's column sums; the last step copies the two arrays out.

  So after step n the scratch holds the step's own block sums added to what step n − 1 left (to zero, for n = 0):
  a recursion on the step, written here once for any float instance. Between steps the region's own invariant is the
  two scratch arrays at exactly those contents, beside the scoped buffers the region never touches; before the first
  step it is all of those buffers at contents nobody names.
-/
import proofs.«158634_j71889162600594_1_alg».proof.Proof.Gen.Kernel.Launch
import proofs.«158634_j71889162600594_1_alg».proof.Proof.Gen.Kernel.Skeleton
import proofs.«158634_j71889162600594_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reduce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents the region is entered from: a parameter, fixed by the run
variable (V : (c : Dev nD) → (b : Ref sig .tc) → Buf (Elt F) ((c : Thread nD τ).loc b))

/-- Window w's block at step t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 128 tokens of step t: block t of the token array. -/
abbrev tokens (c : Dev nD) (t : Fin cfg0.N) : Vec F S4x128x4096 .f32 := iblk V c 0 t
/-- Their weights: block t of the weight array. -/
abbrev weights (c : Dev nD) (t : Fin cfg0.N) : Vec F S4x128 .f32 := iblk V c 1 t

/-- The whole scratch array, read and written through one rectangle. -/
abbrev whole : Rect S4x4096 := Rect.unit (s := S4x4096) ![0, 0] S4x4096.size inb_S4x4096_S4x4096_0_0
/-- The running sum's scratch buffer, and the running count's. -/
abbrev sumRef : Memref sig .tc .vmem S4x4096 .f32 := Memref.whole cc0_scratch0
abbrev cntRef : Memref sig .tc .vmem S4x4096 .f32 := Memref.whole cc0_scratch1

/-- The running sum and the running count after step n: the step's block sums added to what the step before left,
    to the zero array at the first step. -/
def accAt (c : Dev nD) : (n : ℕ) → n < cfg0.N → Vec F S4x4096 .f32 × Vec F S4x4096 .f32
  | 0, h => (k0_pay4 (tokens V c ⟨0, h⟩) (weights V c ⟨0, h⟩) (k0_pay1 (F := F)),
             k0_pay5 (tokens V c ⟨0, h⟩) (weights V c ⟨0, h⟩) (k0_pay2 (F := F)))
  | n + 1, h => (k0_pay4 (tokens V c ⟨n + 1, h⟩) (weights V c ⟨n + 1, h⟩) (accAt c n (Nat.lt_of_succ_lt h)).1,
                 k0_pay5 (tokens V c ⟨n + 1, h⟩) (weights V c ⟨n + 1, h⟩) (accAt c n (Nat.lt_of_succ_lt h)).2)

theorem accAt_zero (c : Dev nD) (h : 0 < cfg0.N) :
    accAt V c 0 h = (k0_pay4 (tokens V c ⟨0, h⟩) (weights V c ⟨0, h⟩) (k0_pay1 (F := F)),
                     k0_pay5 (tokens V c ⟨0, h⟩) (weights V c ⟨0, h⟩) (k0_pay2 (F := F))) := rfl

theorem accAt_succ (c : Dev nD) (n : ℕ) (h : n + 1 < cfg0.N) :
    accAt V c (n + 1) h = (k0_pay4 (tokens V c ⟨n + 1, h⟩) (weights V c ⟨n + 1, h⟩) (accAt V c n (Nat.lt_of_succ_lt h)).1,
                           k0_pay5 (tokens V c ⟨n + 1, h⟩) (weights V c ⟨n + 1, h⟩) (accAt V c n (Nat.lt_of_succ_lt h)).2) := rfl

/-- The scoped buffers the region never touches (the second region's staging buffers), each whole at some contents. -/
def idleRest (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f))

/-- The region's invariant before step n (and after step n − 1): before the first step every scoped buffer that is no
    staging buffer of this region at contents nobody names; afterwards the two scratch arrays at the running sum and
    count the step before left, beside the buffers the region never touches. -/
def carried (c : Dev nD) : (n : ℕ) → n ≤ cfg0.N → sProp 𝕄
  | 0, _ => Pipeline.scopedRest spec0 c
  | n + 1, hn => iprop(owns (c : Thread nD τ) sumRef fullShare (accAt V c n hn).1
      ∗ owns (c : Thread nD τ) cntRef fullShare (accAt V c n hn).2 ∗ idleRest (F := F) c)

theorem carried_zero (c : Dev nD) (n : ℕ) (h : n ≤ cfg0.N) (hz : n = 0) : carried V c n h = Pipeline.scopedRest spec0 c := by
  subst hz; rfl

theorem carried_succ (c : Dev nD) (n : ℕ) (hn : n < cfg0.N) :
    carried V c (n + 1) hn = iprop(owns (c : Thread nD τ) sumRef fullShare (accAt V c n hn).1
      ∗ owns (c : Thread nD τ) cntRef fullShare (accAt V c n hn).2 ∗ idleRest (F := F) c) := rfl

theorem carried_pos (c : Dev nD) (n : ℕ) (h : n ≤ cfg0.N) (hz : n ≠ 0) :
    carried V c n h = iprop(owns (c : Thread nD τ) sumRef fullShare (accAt V c (n - 1) (by omega)).1
      ∗ owns (c : Thread nD τ) cntRef fullShare (accAt V c (n - 1) (by omega)).2 ∗ idleRest (F := F) c) := by
  obtain ⟨k, rfl⟩ := Nat.exists_eq_succ_of_ne_zero hz
  rfl

/-- The region's proof data on core c: the arrays as the region finds them; after step t each input's staging buffer at
    its block and each result's at the running sum (count) of that step — which is what the last step stores there, and
    what no earlier step is asked about, the result windows being idle until then; the invariant above; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (accAt V c t.val t.isLt).1
    | ⟨3, _⟩ => (accAt V c t.val t.isLt).2
  Φ t := carried V c t.val (Nat.le_of_lt_succ t.isLt)
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (accAt V c t.val t.isLt).1 := by dsimp only [dat]
theorem after_3 (c : Dev nD) (t : Fin cfg0.N) : (dat V c).after 3 t = (accAt V c t.val t.isLt).2 := by dsimp only [dat]

/-- Input window 0's current staging buffer holds its block at every step, fetched there or not. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

/-- Input window 1's current staging buffer holds its block at every step, fetched there or not. -/
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

theorem Phi_castSucc (c : Dev nD) (t : Fin cfg0.N) :
    (dat V c).Φ t.castSucc = carried V c t.val (Nat.le_of_lt t.isLt) := rfl
theorem Phi_succ (c : Dev nD) (t : Fin cfg0.N) :
    (dat V c).Φ t.succ = carried V c (t.val + 1) t.isLt := rfl

/-- What the region's entry hands over is the invariant before the first step. -/
theorem Phi_first (c : Dev nD) : (dat V c).Φ 0 = Pipeline.scopedRest spec0 c := rfl

/-- The scoped buffers that are no staging buffer of this region: the two scratch arrays, each at some contents, and the
    buffers the region never touches. -/
theorem scopedRest_eq (c : Dev nD) :
    (Pipeline.scopedRest spec0 c : sProp 𝕄)
      = iprop((∃ d, owns (c : Thread nD τ) sumRef fullShare d) ∗ (∃ d, owns (c : Thread nD τ) cntRef fullShare d) ∗ idleRest (F := F) c) := by
  rw [scopedRest0_eq]; unfold idleRest; simp only [sumRef, cntRef, owns_whole]; rfl

/-- After the last step the invariant gives the scoped buffers back, the scratch arrays' contents forgotten. -/
theorem Phi_last (c : Dev nD) : (dat V c).Φ (Fin.last cfg0.N) ⊢ (Pipeline.scopedRest spec0 c : sProp 𝕄) := by
  rw [show (dat V c).Φ (Fin.last cfg0.N) = carried V c cfg0.N (Nat.le_refl _) from rfl,
    carried_pos V c cfg0.N (Nat.le_refl _) (by decide), scopedRest_eq]
  iintro ⟨H0, H1, Hr⟩
  isplitl [H0]; · iexists _; iexact H0
  isplitl [H1]; · iexists _; iexact H1
  iexact Hr

end Cert.Kernel.Reduce

end
-- ==== Proof.Kernel.ReduceBody.lean ====
/-
  The token reduction's body, step by step.

  At every step the body, handed the step's token block and weight block, the two result buffers and the two scratch
  arrays, runs to the end without a fault and leaves the scratch arrays at the running sum and count of that step
  (ReduceData's recursion); the result buffers it leaves as it found them, except at the last step, where it stores
  the two scratch arrays into them.

  The body branches twice on the step's coordinate: at coordinate 0 it first zeroes both scratch arrays, at coordinate
  31 it finally copies them out. Over the 32 steps that makes three cases — first, middle, last — and the body's run
  is stated once per case, for any whole buffers in the six operand places, with every buffer's contents written out;
  the obligation at a step is then the case the step's number selects, between the invariant before and after it.
-/
import proofs.«158634_j71889162600594_1_alg».proof.Proof.Kernel.ReduceData
import Idealize.ShloMosaic.Lib.Pipeline.Value

set_option maxRecDepth 16384

noncomputable section

namespace Cert.Kernel.Reduce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions on the step -/

/-- "First step": the step's coordinate is 0 (the condition the body's first branch tests, as it computes it). -/
abbrev isFirst (i : grid0.Coords) : Prop :=
  (Scalar.cmpi .ne (Scalar.extui (Scalar.cmpi .eq (BitVec.ofNat 32 (i 0).val) 0#32)) 0#32) = 1#1
/-- "Last step": the step's coordinate is 31 (the condition of the body's closing branch). -/
abbrev isLast (i : grid0.Coords) : Prop := k0_cond2 i = 1#1

theorem isFirst_iff : ∀ t : Fin cfg0.N, isFirst (grid0.coords t) ↔ t.val = 0 :=
  (by decide +kernel : ∀ t : Fin grid0.N, isFirst (grid0.coords t) ↔ t.val = 0)
theorem isLast_iff : ∀ t : Fin cfg0.N, isLast (grid0.coords t) ↔ t.val = 31 :=
  (by decide +kernel : ∀ t : Fin grid0.N, isLast (grid0.coords t) ↔ t.val = 31)

/-! ## Whole-buffer loads and stores

Every load and store of the body goes through the rectangle that is the whole buffer, at offsets zero. -/

theorem hz2 : (![0, 0] : Fin 2 → Nat) = fun _ => 0 := funext fun a => by fin_cases a <;> rfl
theorem hz3 : (![0, 0, 0] : Fin 3 → Nat) = fun _ => 0 := funext fun a => by fin_cases a <;> rfl

/-- One store through the whole rectangle, made last, is what the buffer then reads, whatever was stored before. -/
theorem read_store (m : Memref sig .tc .vmem S4x4096 .f32) (f : m.view.ty.Contents (Elt F)) (p : Vec F S4x4096 .f32)
    (L : List (View.Piece (Elt F) S4x4096 .f32)) :
    m.view.read (Elt F) (m.view.writes (Elt F) f (⟨Rect.unit (s := S4x4096) ![0, 0] S4x4096.size inb_S4x4096_S4x4096_0_0, p⟩ :: L)) = p := by
  rw [View.read_writes_eq_canon _ _ _ (fun y => ⟨_, List.mem_cons_self, View.mem_set_unit_zero hz2 inb_S4x4096_S4x4096_0_0 y⟩),
    View.canon_cons_unit_zero hz2]

/-- A load of a whole buffer reads its contents: the running arrays, -/
theorem load_acc (m : Memref sig .tc .vmem S4x4096 .f32) (h : m.IsWhole) (X : Vec F S4x4096 .f32) :
    m.view.readAt (Elt F) (Rect.unit (s := S4x4096) ![0, 0] S4x4096.size inb_S4x4096_S4x4096_0_0).toLoadRect (h.unread X) = X := by
  rw [View.readAt_eq_ld, h.read_unread, View.ld_unit_zero hz2]
/-- the token block, -/
theorem load_tokens (m : Memref sig .tc .vmem S4x128x4096 .f32) (h : m.IsWhole) (X : Vec F S4x128x4096 .f32) :
    m.view.readAt (Elt F) (Rect.unit (s := S4x128x4096) ![0, 0, 0] S4x128x4096.size inb_S4x128x4096_S4x128x4096_0_0_0).toLoadRect (h.unread X) = X := by
  rw [View.readAt_eq_ld, h.read_unread, View.ld_unit_zero hz3]
/-- the weight block. -/
theorem load_weights (m : Memref sig .tc .vmem S4x128 .f32) (h : m.IsWhole) (X : Vec F S4x128 .f32) :
    m.view.readAt (Elt F) (Rect.unit (s := S4x128) ![0, 0] S4x128.size inb_S4x128_S4x128_0_0).toLoadRect (h.unread X) = X := by
  rw [View.readAt_eq_ld, h.read_unread, View.ld_unit_zero hz2]

/-- A load of the whole buffer right after one whole store into it reads what was stored. -/
theorem load_stored (m : Memref sig .tc .vmem S4x4096 .f32) (p : Vec F S4x4096 .f32) :
    m.view.readCov [(⟨Rect.unit (s := S4x4096) ![0, 0] S4x4096.size inb_S4x4096_S4x4096_0_0, p⟩ : View.Piece (Elt F) S4x4096 .f32)]
      (Rect.unit (s := S4x4096) ![0, 0] S4x4096.size inb_S4x4096_S4x4096_0_0).toLoadRect = p :=
  View.readCov_unit_zero m.view hz2 _ p

/-! ## The body's run, case by case -/

set_option maxHeartbeats 1000000 in
/-- The first step (coordinate 0, not the last). Both scratch arrays, whatever they held, are overwritten with zero; the
    step's token and weight blocks are loaded; the sum array, read back as the zero just stored, is replaced by the block's
    weighted column sums added to it, and the count array likewise by the block's nonzero counts. The two result buffers
    are not touched and come back as they were found. Stated for any six whole buffers. -/
theorem run_first (c : Dev nD) (i : grid0.Coords)
    (a1 : Memref sig .tc .vmem S4x128x4096 .f32) (h1 : a1.IsWhole) (a2 : Memref sig .tc .vmem S4x128 .f32) (h2 : a2.IsWhole)
    (a3 : Memref sig .tc .vmem S4x4096 .f32) (h3 : a3.IsWhole) (a4 : Memref sig .tc .vmem S4x4096 .f32) (h4 : a4.IsWhole)
    (a5 : Memref sig .tc .vmem S4x4096 .f32) (h5 : a5.IsWhole) (a6 : Memref sig .tc .vmem S4x4096 .f32) (h6 : a6.IsWhole)
    (hf : isFirst i) (hl : ¬isLast i)
    (x : Vec F S4x128x4096 .f32) (w : Vec F S4x128 .f32) (o2 o3 : Vec F S4x4096 .f32)
    (E : Set ℕ) (K : PUnit → sProp 𝕄) :
    iprop(owns (c : Thread nD τ) a1 fullShare x ∗ owns (c : Thread nD τ) a2 fullShare w
        ∗ owns (c : Thread nD τ) a3 fullShare (o2) ∗ owns (c : Thread nD τ) a4 fullShare (o3)
        ∗ (∃ d, owns (c : Thread nD τ) a5 fullShare d) ∗ (∃ d, owns (c : Thread nD τ) a6 fullShare d)
        ∗ (iprop(owns (c : Thread nD τ) a1 fullShare x ∗ owns (c : Thread nD τ) a2 fullShare w
            ∗ owns (c : Thread nD τ) a3 fullShare (o2) ∗ owns (c : Thread nD τ) a4 fullShare (o3)
            ∗ owns (c : Thread nD τ) a5 fullShare (k0_pay4 x w (k0_pay1 (F := F))) ∗ owns (c : Thread nD τ) a6 fullShare (k0_pay5 x w (k0_pay2 (F := F)))) -∗ K ⟨⟩))
      ⊢ wp frame (wpE (defs₀ (F := F)) Variants.none c none) E (cc0__reduce_kernel i a1 h1 a2 h2 a3 h3 a4 h4 a5 h5 a6 h6) K := by
  simp only [cc0__reduce_kernel_eq_skeleton]; unfold cc0__reduce_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := h1.eq_unread hf1; obtain rfl := h2.eq_unread hf2
  sl_exec (disch := first | exact hf | exact hl)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    swap; · iexact H5
    ipureintro; rw [read_store]; sl_unfold_words; rw [load_tokens, load_weights, load_stored]
  · iexists _; isplitr
    swap; · iexact H6
    ipureintro; rw [read_store]; sl_unfold_words; rw [load_tokens, load_weights, load_stored]

set_option maxHeartbeats 1000000 in
/-- A middle step (neither first nor last). The scratch arrays hold the running sum s and count n the step before left;
    the body replaces them by the step's block sums added to s and the step's counts added to n, and touches nothing
    else: the result buffers come back as they were found. -/
theorem run_mid (c : Dev nD) (i : grid0.Coords)
    (a1 : Memref sig .tc .vmem S4x128x4096 .f32) (h1 : a1.IsWhole) (a2 : Memref sig .tc .vmem S4x128 .f32) (h2 : a2.IsWhole)
    (a3 : Memref sig .tc .vmem S4x4096 .f32) (h3 : a3.IsWhole) (a4 : Memref sig .tc .vmem S4x4096 .f32) (h4 : a4.IsWhole)
    (a5 : Memref sig .tc .vmem S4x4096 .f32) (h5 : a5.IsWhole) (a6 : Memref sig .tc .vmem S4x4096 .f32) (h6 : a6.IsWhole)
    (hf : ¬isFirst i) (hl : ¬isLast i)
    (x : Vec F S4x128x4096 .f32) (w : Vec F S4x128 .f32) (o2 o3 s n : Vec F S4x4096 .f32)
    (E : Set ℕ) (K : PUnit → sProp 𝕄) :
    iprop(owns (c : Thread nD τ) a1 fullShare x ∗ owns (c : Thread nD τ) a2 fullShare w
        ∗ owns (c : Thread nD τ) a3 fullShare (o2) ∗ owns (c : Thread nD τ) a4 fullShare (o3)
        ∗ owns (c : Thread nD τ) a5 fullShare (s) ∗ owns (c : Thread nD τ) a6 fullShare (n)
        ∗ (iprop(owns (c : Thread nD τ) a1 fullShare x ∗ owns (c : Thread nD τ) a2 fullShare w
            ∗ owns (c : Thread nD τ) a3 fullShare (o2) ∗ owns (c : Thread nD τ) a4 fullShare (o3)
            ∗ owns (c : Thread nD τ) a5 fullShare (k0_pay4 x w s) ∗ owns (c : Thread nD τ) a6 fullShare (k0_pay5 x w n)) -∗ K ⟨⟩))
      ⊢ wp frame (wpE (defs₀ (F := F)) Variants.none c none) E (cc0__reduce_kernel i a1 h1 a2 h2 a3 h3 a4 h4 a5 h5 a6 h6) K := by
  simp only [cc0__reduce_kernel_eq_skeleton]; unfold cc0__reduce_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := h1.eq_unread hf1; obtain rfl := h2.eq_unread hf2
  obtain rfl := h5.eq_unread hf5; obtain rfl := h6.eq_unread hf6
  sl_exec (disch := first | exact hf | exact hl)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    swap; · iexact H5
    ipureintro; rw [read_store, load_tokens, load_weights, load_acc]
  · iexists _; isplitr
    swap; · iexact H6
    ipureintro; rw [read_store, load_tokens, load_weights, load_acc]

set_option maxHeartbeats 1000000 in
/-- The last step (coordinate 31, not the first). As at a middle step the scratch arrays go from s, n to the step's sums
    and counts added to them; then each is read back and stored whole into its result buffer, whatever that held. -/
theorem run_last (c : Dev nD) (i : grid0.Coords)
    (a1 : Memref sig .tc .vmem S4x128x4096 .f32) (h1 : a1.IsWhole) (a2 : Memref sig .tc .vmem S4x128 .f32) (h2 : a2.IsWhole)
    (a3 : Memref sig .tc .vmem S4x4096 .f32) (h3 : a3.IsWhole) (a4 : Memref sig .tc .vmem S4x4096 .f32) (h4 : a4.IsWhole)
    (a5 : Memref sig .tc .vmem S4x4096 .f32) (h5 : a5.IsWhole) (a6 : Memref sig .tc .vmem S4x4096 .f32) (h6 : a6.IsWhole)
    (hf : ¬isFirst i) (hl : isLast i)
    (x : Vec F S4x128x4096 .f32) (w : Vec F S4x128 .f32) (s n : Vec F S4x4096 .f32)
    (E : Set ℕ) (K : PUnit → sProp 𝕄) :
    iprop(owns (c : Thread nD τ) a1 fullShare x ∗ owns (c : Thread nD τ) a2 fullShare w
        ∗ (∃ d, owns (c : Thread nD τ) a3 fullShare d) ∗ (∃ d, owns (c : Thread nD τ) a4 fullShare d)
        ∗ owns (c : Thread nD τ) a5 fullShare (s) ∗ owns (c : Thread nD τ) a6 fullShare (n)
        ∗ (iprop(owns (c : Thread nD τ) a1 fullShare x ∗ owns (c : Thread nD τ) a2 fullShare w
            ∗ owns (c : Thread nD τ) a3 fullShare (k0_pay4 x w s) ∗ owns (c : Thread nD τ) a4 fullShare (k0_pay5 x w n)
            ∗ owns (c : Thread nD τ) a5 fullShare (k0_pay4 x w s) ∗ owns (c : Thread nD τ) a6 fullShare (k0_pay5 x w n)) -∗ K ⟨⟩))
      ⊢ wp frame (wpE (defs₀ (F := F)) Variants.none c none) E (cc0__reduce_kernel i a1 h1 a2 h2 a3 h3 a4 h4 a5 h5 a6 h6) K := by
  simp only [cc0__reduce_kernel_eq_skeleton]; unfold cc0__reduce_kernel_skel
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  obtain rfl := h1.eq_unread hf1; obtain rfl := h2.eq_unread hf2
  obtain rfl := h5.eq_unread hf5; obtain rfl := h6.eq_unread hf6
  sl_exec (disch := first | exact hf | exact hl)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    swap; · iexact H3
    ipureintro; rw [read_store]; sl_unfold_words; rw [load_stored, load_tokens, load_weights, load_acc]
  isplitl [H4]
  · iexists _; isplitr
    swap; · iexact H4
    ipureintro; rw [read_store]; sl_unfold_words; rw [load_stored, load_tokens, load_weights, load_acc]
  isplitl [H5]
  · iexists _; isplitr
    swap; · iexact H5
    ipureintro; sl_unfold_words; rw [read_store, load_tokens, load_weights, load_acc]
  · iexists _; isplitr
    swap; · iexact H6
    ipureintro; sl_unfold_words; rw [read_store, load_tokens, load_weights, load_acc]

/-! ## Where the windows are live, where idle -/

/-- The two input windows are never idle. -/
theorem live_0 : ∀ t : Fin cfg0.N, cfg0.idle 0 (grid0.coords t) = false := by decide +kernel
theorem live_1 : ∀ t : Fin cfg0.N, cfg0.idle 1 (grid0.coords t) = false := by decide +kernel
/-- Before the last step the body stores nothing into the two result windows, and the pipeline does not write them back; -/
theorem idle_2 : ∀ t : Fin cfg0.N, ¬isLast (grid0.coords t) → cfg0.idle 2 (grid0.coords t) = true := by decide +kernel
theorem idle_3 : ∀ t : Fin cfg0.N, ¬isLast (grid0.coords t) → cfg0.idle 3 (grid0.coords t) = true := by decide +kernel
theorem keep_2 : ∀ t : Fin cfg0.N, ¬isLast (grid0.coords t) → (cfg0.win 2).flush t = false := by decide +kernel
theorem keep_3 : ∀ t : Fin cfg0.N, ¬isLast (grid0.coords t) → (cfg0.win 3).flush t = false := by decide +kernel
/-- at the last step it stores into both. -/
theorem live_2 : ∀ t : Fin cfg0.N, isLast (grid0.coords t) → cfg0.idle 2 (grid0.coords t) = false := by decide +kernel
theorem live_3 : ∀ t : Fin cfg0.N, isLast (grid0.coords t) → cfg0.idle 3 (grid0.coords t) = false := by decide +kernel

/-! ## The recursion, read at a step -/

variable (V : (c : Dev nD) → (b : Ref sig .tc) → Buf (Elt F) ((c : Thread nD τ).loc b))

/-- At the first step the running arrays are the step's block sums added to zero; -/
theorem accAt_first (c : Dev nD) (t : Fin cfg0.N) (h : t.val = 0) :
    accAt V c t.val t.isLt = (k0_pay4 (tokens V c t) (weights V c t) (k0_pay1 (F := F)),
                              k0_pay5 (tokens V c t) (weights V c t) (k0_pay2 (F := F))) := by
  obtain ⟨n, hn⟩ := t
  cases n with
  | zero => rfl
  | succ n => exact absurd h (Nat.succ_ne_zero _)

/-- at a later step, added to what the step before left. -/
theorem accAt_next (c : Dev nD) (t : Fin cfg0.N) (h : t.val ≠ 0) :
    accAt V c t.val t.isLt
      = (k0_pay4 (tokens V c t) (weights V c t) (accAt V c (t.val - 1) (Nat.lt_of_le_of_lt (Nat.sub_le _ _) t.isLt)).1,
         k0_pay5 (tokens V c t) (weights V c t) (accAt V c (t.val - 1) (Nat.lt_of_le_of_lt (Nat.sub_le _ _) t.isLt)).2) := by
  obtain ⟨n, hn⟩ := t
  cases n with
  | zero => exact absurd rfl h
  | succ n => rfl

/-! ## The body at a step -/

/-- Each window's current staging buffer at step t, as the pipeline passes it to the body. -/
abbrev stg0 (t : Fin cfg0.N) : Memref sig .tc .vmem S4x128x4096 .f32 := win0_0.stage (cfg0.slots t 0)
abbrev stg1 (t : Fin cfg0.N) : Memref sig .tc .vmem S4x128 .f32 := win0_1.stage (cfg0.slots t 1)
abbrev stg2 (t : Fin cfg0.N) : Memref sig .tc .vmem S4x4096 .f32 := win0_2.stage (cfg0.slots t 2)
abbrev stg3 (t : Fin cfg0.N) : Memref sig .tc .vmem S4x4096 .f32 := win0_3.stage (cfg0.slots t 3)

/-- What the body is handed at step t: the invariant, nothing owed, and each window's current buffer at what it then holds; -/
def bodyPre (c : Dev nD) (t : Fin cfg0.N) : sProp 𝕄 :=
  iprop((dat V c).Φ t.castSucc ∗ (dat V c).owesAt () t.castSucc
    ∗ (∃ d, owns (c : Thread nD τ) (stg0 t) fullShare ((dat V c).before 0 t d))
    ∗ (∃ d, owns (c : Thread nD τ) (stg1 t) fullShare ((dat V c).before 1 t d))
    ∗ (∃ d, owns (c : Thread nD τ) (stg2 t) fullShare ((dat V c).before 2 t d))
    ∗ (∃ d, owns (c : Thread nD τ) (stg3 t) fullShare ((dat V c).before 3 t d)))

/-- and what it hands back. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in
/-- The body at any step. The input buffers hold the step's blocks. At the last step (31, hence not the first) the
    invariant hands over the scratch arrays at what step 30 left, the result buffers are taken at anything and returned
    at this step's sum and count; before it the result windows are idle and their buffers go through unchanged, the
    scratch arrays coming from anything at step 0 and from what the step before left afterwards. In each case the scratch
    arrays are returned at this step's sum and count, which is the invariant before the next step. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [Phi_succ, carried_succ, Phi_castSucc]
  rw [show (dat V c).leavesExact 0 t = owns (c : Thread nD τ) (stg0 t) fullShare ((dat V c).after 0 t) from by
    unfold Dat.leavesExact; rw [live_0 t], after_0]
  rw [show (dat V c).leavesExact 1 t = owns (c : Thread nD τ) (stg1 t) fullShare ((dat V c).after 1 t) from by
    unfold Dat.leavesExact; rw [live_1 t], after_1]
  have hN : t.val < 32 := lt_of_lt_of_eq t.isLt (show cfg0.N = 32 from N_0)
  by_cases hl : t.val = 31
  · have hz : t.val ≠ 0 := by omega
    rw [show (dat V c).leavesExact 2 t = owns (c : Thread nD τ) (stg2 t) fullShare ((dat V c).after 2 t) from by
      unfold Dat.leavesExact; rw [live_2 t ((isLast_iff t).mpr hl)], after_2]
    rw [show (dat V c).leavesExact 3 t = owns (c : Thread nD τ) (stg3 t) fullShare ((dat V c).after 3 t) from by
      unfold Dat.leavesExact; rw [live_3 t ((isLast_iff t).mpr hl)], after_3]
    rw [accAt_next V c t hz, carried_pos V c _ _ hz]; dsimp only
    iintro ⟨⟨HS, HC, Hr⟩, Ho, ⟨%d0, H0⟩, ⟨%d1, H1⟩, ⟨%d2, H2⟩, ⟨%d3, H3⟩⟩
    iapply (run_last c (grid0.coords t) _ _ _ _ _ _ _ _ _ _ _ _ (fun h => hz ((isFirst_iff t).mp h)) ((isLast_iff t).mpr hl)
      (tokens V c t) (weights V c t) _ _ Set.univ _)
    isplitl [H0]; · iexact H0
    isplitl [H1]; · iexact H1
    isplitl [H2]; · iexists _; iexact H2
    isplitl [H3]; · iexists _; iexact H3
    isplitl [HS]; · iexact HS
    isplitl [HC]; · iexact HC
    iintro ⟨H0, H1, H2, H3, HS, HC⟩
    isplitl [HS HC Hr]
    · isplitl [HS]; · iexact HS
      isplitl [HC]; · iexact HC
      iexact Hr
    isplitl [Ho]; · iexact Ho
    isplitl [H0]; · iexact H0
    isplitl [H1]; · iexact H1
    isplitl [H2]; · iexact H2
    iexact H3
  · have hnl : ¬isLast (grid0.coords t) := fun h => hl ((isLast_iff t).mp h)
    rw [Dat.leavesExact_idle (dat V c) 2 t (idle_2 t hnl) (keep_2 t hnl),
      Dat.leavesExact_idle (dat V c) 3 t (idle_3 t hnl) (keep_3 t hnl)]
    by_cases hz : t.val = 0
    · rw [accAt_first V c t hz, carried_zero V c _ _ hz, scopedRest_eq]; dsimp only
      iintro ⟨⟨HS, HC, Hr⟩, Ho, ⟨%d0, H0⟩, ⟨%d1, H1⟩, ⟨%d2, H2⟩, ⟨%d3, H3⟩⟩
      iapply (run_first c (grid0.coords t) _ _ _ _ _ _ _ _ _ _ _ _ ((isFirst_iff t).mpr hz) hnl
        (tokens V c t) (weights V c t) _ _ Set.univ _)
      isplitl [H0]; · iexact H0
      isplitl [H1]; · iexact H1
      isplitl [H2]; · iexact H2
      isplitl [H3]; · iexact H3
      isplitl [HS]; · iexact HS
      isplitl [HC]; · iexact HC
      iintro ⟨H0, H1, H2, H3, HS, HC⟩
      isplitl [HS HC Hr]
      · isplitl [HS]; · iexact HS
        isplitl [HC]; · iexact HC
        iexact Hr
      isplitl [Ho]; · iexact Ho
      isplitl [H0]; · iexact H0
      isplitl [H1]; · iexact H1
      isplitl [H2]; · iexists _; iexact H2
      iexists _; iexact H3
    · rw [accAt_next V c t hz, carried_pos V c _ _ hz]; dsimp only
      iintro ⟨⟨HS, HC, Hr⟩, Ho, ⟨%d0, H0⟩, ⟨%d1, H1⟩, ⟨%d2, H2⟩, ⟨%d3, H3⟩⟩
      iapply (run_mid c (grid0.coords t) _ _ _ _ _ _ _ _ _ _ _ _ (fun h => hz ((isFirst_iff t).mp h)) hnl
        (tokens V c t) (weights V c t) _ _ _ _ Set.univ _)
      isplitl [H0]; · iexact H0
      isplitl [H1]; · iexact H1
      isplitl [H2]; · iexact H2
      isplitl [H3]; · iexact H3
      isplitl [HS]; · iexact HS
      isplitl [HC]; · iexact HC
      iintro ⟨H0, H1, H2, H3, HS, HC⟩
      isplitl [HS HC Hr]
      · isplitl [HS]; · iexact HS
        isplitl [HC]; · iexact HC
        iexact Hr
      isplitl [Ho]; · iexact Ho
      isplitl [H0]; · iexact H0
      isplitl [H1]; · iexact H1
      isplitl [H2]; · iexists _; iexact H2
      iexists _; iexact H3

/-- The body obligation of the first region, at every step. -/
theorem body_obligation (c : Dev nD) : BodyObligation (dat (F := F) V c) (defs₀ (F := F)) Variants.none () Set.univ := fun t => by
  rw [bigSep_W0, bigSep_W0]
  exact sound_body V c t

end Cert.Kernel.Reduce

end
-- ==== Proof.Kernel.FinalizeData.lean ====
/-
  The router tail (the second kernel region), as data.

  The region has one step. It is handed eight whole arrays — the token sum and the nonzero count the first region
  left, the two affine maps of the input normalisation, the two of the weight normalisation, the 8 router weight rows
  and the 8 biases — and writes one, the 4 × 8 routing distribution: the body's one store, of one pure expression of
  what it loaded. Nothing is carried, so the region's invariant is the scoped buffers it does not stage, untouched.
-/
import proofs.«158634_j71889162600594_1_alg».proof.Proof.Gen.Kernel.Launch
import proofs.«158634_j71889162600594_1_alg».proof.Proof.Gen.Kernel.Skeleton
import proofs.«158634_j71889162600594_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Finalize

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents the region is entered from: a parameter, fixed by the run
variable (V : (c : Dev nD) → (b : Ref sig .tc) → Buf (Elt F) ((c : Thread nD τ).loc b))

/-- Window w's block at the region's one step, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body loads and stores through: each a whole buffer. -/
abbrev rMat : Rect S4x4096 := Rect.unit (s := S4x4096) ![0, 0] S4x4096.size inb_S4x4096_S4x4096_0_0
abbrev rVec : Rect S4096 := Rect.unit (s := S4096) ![0] S4096.size inb_S4096_S4096_0
abbrev rRows : Rect S8x4096 := Rect.unit (s := S8x4096) ![0, 0] S8x4096.size inb_S8x4096_S8x4096_0_0
abbrev rBias : Rect S8 := Rect.unit (s := S8) ![0] S8.size inb_S8_S8_0
abbrev rOut : Rect S4x8 := Rect.unit (s := S4x8) ![0, 0] S4x8.size inb_S4x8_S4x8_0_0

/-- What the body leaves in the output's staging buffer, from the eight input blocks: its one store, of the body's
    arithmetic on what it loaded (the token sum x0, the count x1, the input map x2 x3, the weight map x4 x5, the
    weight rows x6, the biases x7). -/
def routed (x0 x1 : Vec F S4x4096 .f32) (x2 x3 x4 x5 : Vec F S4096 .f32) (x6 : Vec F S8x4096 .f32) (x7 : Vec F S8 .f32) : Vec F S4x8 .f32 :=
  View.canon [⟨rOut, k1_pay1 (k1_pay2 (View.ld x0 rMat) (View.ld x1 rMat) (View.ld x2 rVec) (View.ld x3 rVec)) (View.ld x6 rRows)
    (k1_pay3 (View.ld x6 rRows)) (k1_pay4 (View.ld x6 rRows)) (k1_pay5 (F := F)) (View.ld x4 rVec) (View.ld x5 rVec) (View.ld x7 rBias)⟩]

/-- The one store tiles the output buffer, so it covers it. -/
theorem routed_cover (p0 : Vec F S4x8 .f32) (y : S4x8.Idx) :
    ∃ pc ∈ ([⟨rOut, p0⟩] : List (View.Piece (Elt F) S4x8 .f32)), y ∈ pc.1.set :=
  View.cover_of_tiled [⟨rOut, p0⟩] S4x8.size (by rfl) y

/-- The region's proof data on core c: the arrays as the region finds them; after the step each input's staging buffer
    at its block and the output's at the routing distribution of the input blocks; the invariant the scoped buffers the
    region does not stage; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => routed (iblk V c 0 t) (iblk V c 1 t) (iblk V c 2 t) (iblk V c 3 t) (iblk V c 4 t) (iblk V c 5 t) (iblk V c 6 t) (iblk V c 7 t)
  Φ _ := Pipeline.scopedRest spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) :
    (dat V c).after 8 t = routed (iblk V c 0 t) (iblk V c 1 t) (iblk V c 2 t) (iblk V c 3 t) (iblk V c 4 t) (iblk V c 5 t) (iblk V c 6 t) (iblk V c 7 t) := by
  dsimp only [dat]

/-- Input window 0's staging buffer holds its block at the step: fetched there, the window uncut and never idle. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

/-- Input window 1's staging buffer holds its block at the step: fetched there, the window uncut and never idle. -/
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- Input window 2's staging buffer holds its block at the step: fetched there, the window uncut and never idle. -/
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- Input window 3's staging buffer holds its block at the step: fetched there, the window uncut and never idle. -/
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- Input window 4's staging buffer holds its block at the step: fetched there, the window uncut and never idle. -/
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-- Input window 5's staging buffer holds its block at the step: fetched there, the window uncut and never idle. -/
theorem before_5 (c : Dev nD) (t : Fin cfg1.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-- Input window 6's staging buffer holds its block at the step: fetched there, the window uncut and never idle. -/
theorem before_6 (c : Dev nD) (t : Fin cfg1.N) (d) : (dat V c).before 6 t d = iblk V c 6 t :=
  ((dat V c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)

/-- Input window 7's staging buffer holds its block at the step: fetched there, the window uncut and never idle. -/
theorem before_7 (c : Dev nD) (t : Fin cfg1.N) (d) : (dat V c).before 7 t d = iblk V c 7 t :=
  ((dat V c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)

theorem Phi_eq (c : Dev nD) (t : Fin (cfg1.N + 1)) : (dat V c).Φ t = Pipeline.scopedRest spec1 c := rfl

/-- After the step the invariant is still the scoped buffers the region does not stage. -/
theorem Phi_last (c : Dev nD) : (dat V c).Φ (Fin.last cfg1.N) ⊢ (Pipeline.scopedRest spec1 c : sProp 𝕄) := .rfl

end Cert.Kernel.Finalize

end
-- ==== Proof.Kernel.FinalizeBody.lean ====
/-
  The router tail's body.

  Handed the eight input blocks and the output buffer, the body runs to the end without a fault, leaves the inputs as
  they were and the output buffer at the routing distribution of the inputs (FinalizeData's `routed`).
-/
import proofs.«158634_j71889162600594_1_alg».proof.Proof.Kernel.FinalizeData

set_option maxRecDepth 16384

noncomputable section

namespace Cert.Kernel.Finalize

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple. On whole staging memrefs, the eight inputs' at contents x0 … x7 and the output's at anything, the
    body runs to a continuation that holds the inputs' as they were and the output's at `routed` of the inputs: the
    part loads five of them, the body the other three and the output buffer, and the one store, which covers the
    output buffer, is of the payload `routed` names. -/
theorem sound_kernel (c : Dev nD) (E : Set ℕ) (i : grid1.Coords)
    (arg1 : Memref sig .tc .vmem S4x4096 .f32) (harg1 : arg1.IsWhole)
    (arg2 : Memref sig .tc .vmem S4x4096 .f32) (harg2 : arg2.IsWhole)
    (arg3 : Memref sig .tc .vmem S4096 .f32) (harg3 : arg3.IsWhole)
    (arg4 : Memref sig .tc .vmem S4096 .f32) (harg4 : arg4.IsWhole)
    (arg5 : Memref sig .tc .vmem S4096 .f32) (harg5 : arg5.IsWhole)
    (arg6 : Memref sig .tc .vmem S4096 .f32) (harg6 : arg6.IsWhole)
    (arg7 : Memref sig .tc .vmem S8x4096 .f32) (harg7 : arg7.IsWhole)
    (arg8 : Memref sig .tc .vmem S8 .f32) (harg8 : arg8.IsWhole)
    (arg9 : Memref sig .tc .vmem S4x8 .f32) (harg9 : arg9.IsWhole)
    (x0 x1 : Vec F S4x4096 .f32) (x2 x3 x4 x5 : Vec F S4096 .f32) (x6 : Vec F S8x4096 .f32) (x7 : Vec F S8 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (routed x0 x1 x2 x3 x4 x5 x6 x7)) -∗ K ⟨⟩))
      ⊢ wp frame (wpE (defs₀ (F := F)) Variants.none c none) E
          (cc1__finalize_kernel i arg1 harg1 arg2 harg2 arg3 harg3 arg4 harg4 arg5 harg5 arg6 harg6 arg7 harg7 arg8 harg8 arg9 harg9) K := by
  simp only [cc1__finalize_kernel_eq_skeleton]; unfold cc1__finalize_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (routed_cover _)

-- the buffer contents the region is entered from: a parameter, fixed by the run
variable (V : (c : Dev nD) → (b : Ref sig .tc) → Buf (Elt F) ((c : Thread nD τ).loc b))

/-- What the body is handed at the step: the invariant, what the core owes, and each window's staging buffer at what
    it then holds. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- What the body hands back: the same invariant and the same debt, each staging buffer at what the proof data say
    the body leaves there. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t))

/-- The body at the step. Each input's staging buffer holds its block, so the body's triple applies at the eight
    blocks; it returns the inputs as they were and the output at `routed` of the blocks, which is what the proof data
    name. The invariant and the debt do not depend on the step and pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _
    (iblk V c 0 t) (iblk V c 1 t) (iblk V c 2 t) (iblk V c 3 t) (iblk V c 4 t) (iblk V c 5 t) (iblk V c 6 t) (iblk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the second region, at its one step. -/
theorem body_obligation (c : Dev nD) : BodyObligation (dat (F := F) V c) (defs₀ (F := F)) Variants.none () Set.univ := fun t => by
  rw [bigSep_W1, bigSep_W1]
  exact sound_body V c t

end Cert.Kernel.Finalize

end
-- ==== Proof.Kernel.Run.lean ====
/-
  The whole program, from the launch to the return.

  @main is four things in a row: two host operations (the product of the two integer token masks and its reading as a
  number: the token weights), the token reduction, the router tail, and three host operations (the 4 × 8 distribution
  laid out as [4, 1, 8], and a zero of shape [1]). Between them the core's unscoped buffers hold, in turn: what the
  launch put there; that with the two host results written; that with the reduction's two result arrays at what its
  write-backs leave; that with the tail's result array at what its write-back leaves; that with the last three host
  results written. Every weakly fair execution ends, faulting nowhere, with every unscoped buffer at the last of these
  contents — which for each argument is what the launch put there, and for the two results is named.
-/
import proofs.«158634_j71889162600594_1_alg».proof.Proof.Kernel.ReduceData
import proofs.«158634_j71889162600594_1_alg».proof.Proof.Kernel.FinalizeData
import proofs.«158634_j71889162600594_1_alg».proof.Proof.Gen.Kernel.Regions

set_option maxRecDepth 16384

noncomputable section

namespace Cert.Kernel.Program

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the two regions' body obligations, at whatever contents a region is entered with: proved in modules of their own
variable (hb0 : ∀ (V : (c : Dev nD) → (b : Ref sig .tc) → Buf (Elt F) ((c : Thread nD τ).loc b)) (c : Dev nD),
    BodyObligation (Reduce.dat (F := F) V c) (defs₀ (F := F)) Variants.none () Set.univ)
  (hb1 : ∀ (V : (c : Dev nD) → (b : Ref sig .tc) → Buf (Elt F) ((c : Thread nD τ).loc b)) (c : Dev nD),
    BodyObligation (Finalize.dat (F := F) V c) (defs₀ (F := F)) Variants.none () Set.univ)

/-! ## The buffer contents at each boundary -/

/-- Core c's buffers at launch. -/
abbrev W0 : Dev nD → Valuation τ sig (Elt F) := fun c b => (s₀ m ρ).mem ((c : Dev nD), b)
/-- After the first two host operations: what the token reduction is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the token reduction: its arrays at what its write-backs leave, every other buffer as it was. -/
def W2 (c : Dev nD) : Valuation τ sig (Elt F) :=
  Pipeline.withArrays spec0 c (W1 m ρ c) fun w => (Reduce.dat (V1 m ρ) c).arrAt w cfg0.N
theorem W2_arr (c : Dev nD) (w : Fin cfg0.W) :
    W2 m ρ c (Proc.devRef .tc (Pipeline.arrRef spec0 w)) = (Reduce.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Reduce.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the router tail (entered with the contents just above): its arrays at what its write-back leaves. -/
def W3 (c : Dev nD) : Valuation τ sig (Elt F) :=
  Pipeline.withArrays spec1 c (W2 m ρ c) fun w => (Finalize.dat (V2 m ρ) c).arrAt w cfg1.N
theorem W3_arr (c : Dev nD) (w : Fin cfg1.W) :
    W3 m ρ c (Proc.devRef .tc (Pipeline.arrRef spec1 w)) = (Finalize.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Finalize.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last three host operations: the contents at the return. -/
abbrev W4 : Dev nD → Valuation τ sig (Elt F) := fun c => StableHlo.after hostOps2 (W3 m ρ c)

/-! ## The arguments end as launched -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h

/-- Argument 0 ends as launched: no host operation writes it and no region may change it. -/
theorem W4_main_arg0 (c : Dev nD) : W4 m ρ c (Proc.devRef .tc main_arg0) = m ((c : Thread nD τ).loc main_arg0) :=
  (W4_of m ρ c main_arg0 (by decide)).trans <| (W3_of_ne m ρ c main_arg0 (by decide)).trans <| ((W2_arr m ρ c 0).trans (((Reduce.dat (V1 m ρ) c).arrAt_in 0 rfl _).trans (Reduce.A_eq (V1 m ρ) c 0))).trans <| (W1_of m ρ c main_arg0 (by decide)).trans rfl

/-- Argument 1 ends as launched: no host operation writes it and no region may change it. -/
theorem W4_main_arg1 (c : Dev nD) : W4 m ρ c (Proc.devRef .tc main_arg1) = m ((c : Thread nD τ).loc main_arg1) :=
  (W4_of m ρ c main_arg1 (by decide)).trans <| (W3_of_ne m ρ c main_arg1 (by decide)).trans <| (W2_of_ne m ρ c main_arg1 (by decide)).trans <| (W1_of m ρ c main_arg1 (by decide)).trans rfl

/-- Argument 2 ends as launched: no host operation writes it and no region may change it. -/
theorem W4_main_arg2 (c : Dev nD) : W4 m ρ c (Proc.devRef .tc main_arg2) = m ((c : Thread nD τ).loc main_arg2) :=
  (W4_of m ρ c main_arg2 (by decide)).trans <| (W3_of_ne m ρ c main_arg2 (by decide)).trans <| (W2_of_ne m ρ c main_arg2 (by decide)).trans <| (W1_of m ρ c main_arg2 (by decide)).trans rfl

/-- Argument 3 ends as launched: no host operation writes it and no region may change it. -/
theorem W4_main_arg3 (c : Dev nD) : W4 m ρ c (Proc.devRef .tc main_arg3) = m ((c : Thread nD τ).loc main_arg3) :=
  (W4_of m ρ c main_arg3 (by decide)).trans <| ((W3_arr m ρ c 2).trans (((Finalize.dat (V2 m ρ) c).arrAt_in 2 rfl _).trans (Finalize.A_eq (V2 m ρ) c 2))).trans <| (W2_of_ne m ρ c main_arg3 (by decide)).trans <| (W1_of m ρ c main_arg3 (by decide)).trans rfl

/-- Argument 4 ends as launched: no host operation writes it and no region may change it. -/
theorem W4_main_arg4 (c : Dev nD) : W4 m ρ c (Proc.devRef .tc main_arg4) = m ((c : Thread nD τ).loc main_arg4) :=
  (W4_of m ρ c main_arg4 (by decide)).trans <| ((W3_arr m ρ c 3).trans (((Finalize.dat (V2 m ρ) c).arrAt_in 3 rfl _).trans (Finalize.A_eq (V2 m ρ) c 3))).trans <| (W2_of_ne m ρ c main_arg4 (by decide)).trans <| (W1_of m ρ c main_arg4 (by decide)).trans rfl

/-- Argument 5 ends as launched: no host operation writes it and no region may change it. -/
theorem W4_main_arg5 (c : Dev nD) : W4 m ρ c (Proc.devRef .tc main_arg5) = m ((c : Thread nD τ).loc main_arg5) :=
  (W4_of m ρ c main_arg5 (by decide)).trans <| ((W3_arr m ρ c 4).trans (((Finalize.dat (V2 m ρ) c).arrAt_in 4 rfl _).trans (Finalize.A_eq (V2 m ρ) c 4))).trans <| (W2_of_ne m ρ c main_arg5 (by decide)).trans <| (W1_of m ρ c main_arg5 (by decide)).trans rfl

/-- Argument 6 ends as launched: no host operation writes it and no region may change it. -/
theorem W4_main_arg6 (c : Dev nD) : W4 m ρ c (Proc.devRef .tc main_arg6) = m ((c : Thread nD τ).loc main_arg6) :=
  (W4_of m ρ c main_arg6 (by decide)).trans <| ((W3_arr m ρ c 5).trans (((Finalize.dat (V2 m ρ) c).arrAt_in 5 rfl _).trans (Finalize.A_eq (V2 m ρ) c 5))).trans <| (W2_of_ne m ρ c main_arg6 (by decide)).trans <| (W1_of m ρ c main_arg6 (by decide)).trans rfl

/-- Argument 7 ends as launched: no host operation writes it and no region may change it. -/
theorem W4_main_arg7 (c : Dev nD) : W4 m ρ c (Proc.devRef .tc main_arg7) = m ((c : Thread nD τ).loc main_arg7) :=
  (W4_of m ρ c main_arg7 (by decide)).trans <| ((W3_arr m ρ c 6).trans (((Finalize.dat (V2 m ρ) c).arrAt_in 6 rfl _).trans (Finalize.A_eq (V2 m ρ) c 6))).trans <| (W2_of_ne m ρ c main_arg7 (by decide)).trans <| (W1_of m ρ c main_arg7 (by decide)).trans rfl

/-- Argument 8 ends as launched: no host operation writes it and no region may change it. -/
theorem W4_main_arg8 (c : Dev nD) : W4 m ρ c (Proc.devRef .tc main_arg8) = m ((c : Thread nD τ).loc main_arg8) :=
  (W4_of m ρ c main_arg8 (by decide)).trans <| ((W3_arr m ρ c 7).trans (((Finalize.dat (V2 m ρ) c).arrAt_in 7 rfl _).trans (Finalize.A_eq (V2 m ρ) c 7))).trans <| (W2_of_ne m ρ c main_arg8 (by decide)).trans <| (W1_of m ρ c main_arg8 (by decide)).trans rfl

/-! ## The proof data family and the thread state -/

/-- No pallas_call has a prefetched table. -/
abbrev adm : (p : Fin 2) → (pcfgs (F := F) p).Adm := fun p => (cfgs p).toPCfg_adm
/-- Every region's proof data, each at the contents its region is entered with. -/
def pdats : (p : Fin 2) → (c : Dev nD) → Dat τ (Elt F) Unit ℕ (UR sig nD τ) ℕ (Pipeline.pin (pcfgs (F := F)) adm p) c
  | ⟨0, _⟩ => fun c => Reduce.dat (V1 m ρ) c
  | ⟨1, _⟩ => fun c => Finalize.dat (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core's debt, empty. -/
abbrev R (c : Dev nD) : sProp 𝕄 := iprop((∃ r, prngReg c r) ∗ ∃ W, owes (c : Thread nD τ) (0 : CellTallies nD τ sig Unit) W)
/-- A stretch of host operations as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the return's contents, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over the pinned configuration unifies with the printed one only when unification may
-- unfold plain definitions in a metavariable's type
set_option backward.isDefEq.respectTransparency.types false in
/-- Region 0 over the thread state: entered with every unscoped buffer at the contents before it, left with them at the
    contents after it. Its arrays are split out of the unscoped buffers and put back at what the region leaves; the
    generator register and the core's empty debt pass by the region; the region has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(emp)
  Y c := iprop(emp)
  Z c := iprop(Pipeline.unscopedRest (Ix := Unit) (Name := ℕ) (U := UR sig nD τ) (Lvl := ℕ) spec0 c (V1 m ρ c) ∗ ∃ r, prngReg c r)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 0 c).Φ 0 = Pipeline.scopedRest spec0 c from rfl]
    iintro ⟨-, -, Hr⟩
    iexact Hr
  hout c := by
    rw [Pipeline.ownSems0_none, show (pdats m ρ 0 c).Φ (Fin.last _) = (Reduce.dat (V1 m ρ) c).Φ (Fin.last cfg0.N) from rfl]
    refine (Reduce.Phi_last (V1 m ρ) c).trans ?_
    iintro H
    isplitr; · iempintro
    isplitr; · iempintro
    iexact H
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

-- `iapply` of a library lemma stated over the pinned configuration unifies with the printed one only when unification may
-- unfold plain definitions in a metavariable's type
set_option backward.isDefEq.respectTransparency.types false in
/-- Region 1 over the thread state: entered with every unscoped buffer at the contents before it, left with them at the
    contents after it. Its arrays are split out of the unscoped buffers and put back at what the region leaves; the
    generator register and the core's empty debt pass by the region; the region has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(emp)
  Y c := iprop(emp)
  Z c := iprop(Pipeline.unscopedRest (Ix := Unit) (Name := ℕ) (U := UR sig nD τ) (Lvl := ℕ) spec1 c (V2 m ρ c) ∗ ∃ r, prngReg c r)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 1 c).Φ 0 = Pipeline.scopedRest spec1 c from rfl]
    iintro ⟨-, -, Hr⟩
    iexact Hr
  hout c := by
    rw [Pipeline.ownSems0_none, show (pdats m ρ 1 c).Φ (Fin.last _) = (Finalize.dat (V2 m ρ) c).Φ (Fin.last cfg1.N) from rfl]
    refine (Finalize.Phi_last (V2 m ρ) c).trans ?_
    iintro H
    isplitr; · iempintro
    isplitr; · iempintro
    iexact H
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ hb0),
    .region (reg1 m ρ hb1),
    .host (hseg hostOps2 hostOps2_sub hostOps2_fresh (W3 m ρ)) ]
/-- @main is the run of the segments. -/
theorem main_run (c : Dev nD) : main (F := F) c = Pipeline.Seg.run (segs m ρ hb0 hb1) := (main_chain c).trans (by chain_rfl)

-- the launch theorem's implicit arguments are found by unifying its conclusion with this one, which takes unfolding
-- plain definitions in a metavariable's type
include hb0 hb1 in
set_option backward.isDefEq.respectTransparency.types false in
/-- From any memory with zero counters every weakly fair execution of @main terminates, nothing faulting, and in every
    final state each unscoped buffer holds the return's contents. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ hb0 hb1)
    (fun c Q => by rw [main_run m ρ hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

include hb0 hb1 in
/-- THE FRAME, at any float instance: every weakly fair execution of @main terminates, nothing faulting, and every
    final state has each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_named m ρ hb0 hb1)

end Cert.Kernel.Program

end
-- ==== Proof.KernelIdeal.ReduceData.lean ====
/-
  The token reduction (the first kernel region), as data: what it reads, what it carries, what it leaves.

  The region walks the sequence axis in 32 steps of 128 tokens. At step t it is handed block t of the token array,
  x[·, 128t … 128t+127, ·], and block t of the token weights, and it keeps two running arrays of shape [4, 4096] in
  scratch memory: the sum of the weighted tokens seen so far and the count of their nonzero entries. Step 0 starts
  both from zero; every step adds its block's column sums; the last step copies the two arrays out.

  So after step n the scratch holds the step's own block sums added to what step n − 1 left (to zero, for n = 0):
  a recursion on the step, written here once for any float instance. Between steps the region's own invariant is the
  two scratch arrays at exactly those contents, beside the scoped buffers the region never touches; before the first
  step it is all of those buffers at contents nobody names.
-/
import proofs.«158634_j71889162600594_1_alg».proof.Proof.Gen.KernelIdeal.Launch
import proofs.«158634_j71889162600594_1_alg».proof.Proof.Gen.KernelIdeal.Skeleton
import proofs.«158634_j71889162600594_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reduce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents the region is entered from: a parameter, fixed by the run
variable (V : (c : Dev nD) → (b : Ref sig .tc) → Buf (Elt F) ((c : Thread nD τ).loc b))

/-- Window w's block at step t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 128 tokens of step t: block t of the token array. -/
abbrev tokens (c : Dev nD) (t : Fin cfg0.N) : Vec F S4x128x4096 .f32 := iblk V c 0 t
/-- Their weights: block t of the weight array. -/
abbrev weights (c : Dev nD) (t : Fin cfg0.N) : Vec F S4x128 .f32 := iblk V c 1 t

/-- The whole scratch array, read and written through one rectangle. -/
abbrev whole : Rect S4x4096 := Rect.unit (s := S4x4096) ![0, 0] S4x4096.size inb_S4x4096_S4x4096_0_0
/-- The running sum's scratch buffer, and the running count's. -/
abbrev sumRef : Memref sig .tc .vmem S4x4096 .f32 := Memref.whole cc0_scratch0
abbrev cntRef : Memref sig .tc .vmem S4x4096 .f32 := Memref.whole cc0_scratch1

/-- The running sum and the running count after step n: the step's block sums added to what the step before left,
    to the zero array at the first step. -/
def accAt (c : Dev nD) : (n : ℕ) → n < cfg0.N → Vec F S4x4096 .f32 × Vec F S4x4096 .f32
  | 0, h => (k0_pay4 (tokens V c ⟨0, h⟩) (weights V c ⟨0, h⟩) (k0_pay1 (F := F)),
             k0_pay5 (tokens V c ⟨0, h⟩) (weights V c ⟨0, h⟩) (k0_pay2 (F := F)))
  | n + 1, h => (k0_pay4 (tokens V c ⟨n + 1, h⟩) (weights V c ⟨n + 1, h⟩) (accAt c n (Nat.lt_of_succ_lt h)).1,
                 k0_pay5 (tokens V c ⟨n + 1, h⟩) (weights V c ⟨n + 1, h⟩) (accAt c n (Nat.lt_of_succ_lt h)).2)

theorem accAt_zero (c : Dev nD) (h : 0 < cfg0.N) :
    accAt V c 0 h = (k0_pay4 (tokens V c ⟨0, h⟩) (weights V c ⟨0, h⟩) (k0_pay1 (F := F)),
                     k0_pay5 (tokens V c ⟨0, h⟩) (weights V c ⟨0, h⟩) (k0_pay2 (F := F))) := rfl

theorem accAt_succ (c : Dev nD) (n : ℕ) (h : n + 1 < cfg0.N) :
    accAt V c (n + 1) h = (k0_pay4 (tokens V c ⟨n + 1, h⟩) (weights V c ⟨n + 1, h⟩) (accAt V c n (Nat.lt_of_succ_lt h)).1,
                           k0_pay5 (tokens V c ⟨n + 1, h⟩) (weights V c ⟨n + 1, h⟩) (accAt V c n (Nat.lt_of_succ_lt h)).2) := rfl

/-- The scoped buffers the region never touches (the second region's staging buffers), each whole at some contents. -/
def idleRest (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f))

/-- The region's invariant before step n (and after step n − 1): before the first step every scoped buffer that is no
    staging buffer of this region at contents nobody names; afterwards the two scratch arrays at the running sum and
    count the step before left, beside the buffers the region never touches. -/
def carried (c : Dev nD) : (n : ℕ) → n ≤ cfg0.N → sProp 𝕄
  | 0, _ => Pipeline.scopedRest spec0 c
  | n + 1, hn => iprop(owns (c : Thread nD τ) sumRef fullShare (accAt V c n hn).1
      ∗ owns (c : Thread nD τ) cntRef fullShare (accAt V c n hn).2 ∗ idleRest (F := F) c)

theorem carried_zero (c : Dev nD) (n : ℕ) (h : n ≤ cfg0.N) (hz : n = 0) : carried V c n h = Pipeline.scopedRest spec0 c := by
  subst hz; rfl

theorem carried_succ (c : Dev nD) (n : ℕ) (hn : n < cfg0.N) :
    carried V c (n + 1) hn = iprop(owns (c : Thread nD τ) sumRef fullShare (accAt V c n hn).1
      ∗ owns (c : Thread nD τ) cntRef fullShare (accAt V c n hn).2 ∗ idleRest (F := F) c) := rfl

theorem carried_pos (c : Dev nD) (n : ℕ) (h : n ≤ cfg0.N) (hz : n ≠ 0) :
    carried V c n h = iprop(owns (c : Thread nD τ) sumRef fullShare (accAt V c (n - 1) (by omega)).1
      ∗ owns (c : Thread nD τ) cntRef fullShare (accAt V c (n - 1) (by omega)).2 ∗ idleRest (F := F) c) := by
  obtain ⟨k, rfl⟩ := Nat.exists_eq_succ_of_ne_zero hz
  rfl

/-- The region's proof data on core c: the arrays as the region finds them; after step t each input's staging buffer at
    its block and each result's at the running sum (count) of that step — which is what the last step stores there, and
    what no earlier step is asked about, the result windows being idle until then; the invariant above; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (accAt V c t.val t.isLt).1
    | ⟨3, _⟩ => (accAt V c t.val t.isLt).2
  Φ t := carried V c t.val (Nat.le_of_lt_succ t.isLt)
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (accAt V c t.val t.isLt).1 := by dsimp only [dat]
theorem after_3 (c : Dev nD) (t : Fin cfg0.N) : (dat V c).after 3 t = (accAt V c t.val t.isLt).2 := by dsimp only [dat]

/-- Input window 0's current staging buffer holds its block at every step, fetched there or not. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

/-- Input window 1's current staging buffer holds its block at every step, fetched there or not. -/
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

theorem Phi_castSucc (c : Dev nD) (t : Fin cfg0.N) :
    (dat V c).Φ t.castSucc = carried V c t.val (Nat.le_of_lt t.isLt) := rfl
theorem Phi_succ (c : Dev nD) (t : Fin cfg0.N) :
    (dat V c).Φ t.succ = carried V c (t.val + 1) t.isLt := rfl

/-- What the region's entry hands over is the invariant before the first step. -/
theorem Phi_first (c : Dev nD) : (dat V c).Φ 0 = Pipeline.scopedRest spec0 c := rfl

/-- The scoped buffers that are no staging buffer of this region: the two scratch arrays, each at some contents, and the
    buffers the region never touches. -/
theorem scopedRest_eq (c : Dev nD) :
    (Pipeline.scopedRest spec0 c : sProp 𝕄)
      = iprop((∃ d, owns (c : Thread nD τ) sumRef fullShare d) ∗ (∃ d, owns (c : Thread nD τ) cntRef fullShare d) ∗ idleRest (F := F) c) := by
  rw [scopedRest0_eq]; unfold idleRest; simp only [sumRef, cntRef, owns_whole]; rfl

/-- After the last step the invariant gives the scoped buffers back, the scratch arrays' contents forgotten. -/
theorem Phi_last (c : Dev nD) : (dat V c).Φ (Fin.last cfg0.N) ⊢ (Pipeline.scopedRest spec0 c : sProp 𝕄) := by
  rw [show (dat V c).Φ (Fin.last cfg0.N) = carried V c cfg0.N (Nat.le_refl _) from rfl,
    carried_pos V c cfg0.N (Nat.le_refl _) (by decide), scopedRest_eq]
  iintro ⟨H0, H1, Hr⟩
  isplitl [H0]; · iexists _; iexact H0
  isplitl [H1]; · iexists _; iexact H1
  iexact Hr

end Cert.KernelIdeal.Reduce

end
-- ==== Proof.KernelIdeal.ReduceBody.lean ====
/-
  The token reduction's body, step by step.

  At every step the body, handed the step's token block and weight block, the two result buffers and the two scratch
  arrays, runs to the end without a fault and leaves the scratch arrays at the running sum and count of that step
  (ReduceData's recursion); the result buffers it leaves as it found them, except at the last step, where it stores
  the two scratch arrays into them.

  The body branches twice on the step's coordinate: at coordinate 0 it first zeroes both scratch arrays, at coordinate
  31 it finally copies them out. Over the 32 steps that makes three cases — first, middle, last — and the body's run
  is stated once per case, for any whole buffers in the six operand places, with every buffer's contents written out;
  the obligation at a step is then the case the step's number selects, between the invariant before and after it.
-/
import proofs.«158634_j71889162600594_1_alg».proof.Proof.KernelIdeal.ReduceData
import Idealize.ShloMosaic.Lib.Pipeline.Value

set_option maxRecDepth 16384

noncomputable section

namespace Cert.KernelIdeal.Reduce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions on the step -/

/-- "First step": the step's coordinate is 0 (the condition the body's first branch tests, as it computes it). -/
abbrev isFirst (i : grid0.Coords) : Prop :=
  (Scalar.cmpi .ne (Scalar.extui (Scalar.cmpi .eq (BitVec.ofNat 32 (i 0).val) 0#32)) 0#32) = 1#1
/-- "Last step": the step's coordinate is 31 (the condition of the body's closing branch). -/
abbrev isLast (i : grid0.Coords) : Prop := k0_cond2 i = 1#1

theorem isFirst_iff : ∀ t : Fin cfg0.N, isFirst (grid0.coords t) ↔ t.val = 0 :=
  (by decide +kernel : ∀ t : Fin grid0.N, isFirst (grid0.coords t) ↔ t.val = 0)
theorem isLast_iff : ∀ t : Fin cfg0.N, isLast (grid0.coords t) ↔ t.val = 31 :=
  (by decide +kernel : ∀ t : Fin grid0.N, isLast (grid0.coords t) ↔ t.val = 31)

/-! ## Whole-buffer loads and stores

Every load and store of the body goes through the rectangle that is the whole buffer, at offsets zero. -/

theorem hz2 : (![0, 0] : Fin 2 → Nat) = fun _ => 0 := funext fun a => by fin_cases a <;> rfl
theorem hz3 : (![0, 0, 0] : Fin 3 → Nat) = fun _ => 0 := funext fun a => by fin_cases a <;> rfl

/-- One store through the whole rectangle, made last, is what the buffer then reads, whatever was stored before. -/
theorem read_store (m : Memref sig .tc .vmem S4x4096 .f32) (f : m.view.ty.Contents (Elt F)) (p : Vec F S4x4096 .f32)
    (L : List (View.Piece (Elt F) S4x4096 .f32)) :
    m.view.read (Elt F) (m.view.writes (Elt F) f (⟨Rect.unit (s := S4x4096) ![0, 0] S4x4096.size inb_S4x4096_S4x4096_0_0, p⟩ :: L)) = p := by
  rw [View.read_writes_eq_canon _ _ _ (fun y => ⟨_, List.mem_cons_self, View.mem_set_unit_zero hz2 inb_S4x4096_S4x4096_0_0 y⟩),
    View.canon_cons_unit_zero hz2]

/-- A load of a whole buffer reads its contents: the running arrays, -/
theorem load_acc (m : Memref sig .tc .vmem S4x4096 .f32) (h : m.IsWhole) (X : Vec F S4x4096 .f32) :
    m.view.readAt (Elt F) (Rect.unit (s := S4x4096) ![0, 0] S4x4096.size inb_S4x4096_S4x4096_0_0).toLoadRect (h.unread X) = X := by
  rw [View.readAt_eq_ld, h.read_unread, View.ld_unit_zero hz2]
/-- the token block, -/
theorem load_tokens (m : Memref sig .tc .vmem S4x128x4096 .f32) (h : m.IsWhole) (X : Vec F S4x128x4096 .f32) :
    m.view.readAt (Elt F) (Rect.unit (s := S4x128x4096) ![0, 0, 0] S4x128x4096.size inb_S4x128x4096_S4x128x4096_0_0_0).toLoadRect (h.unread X) = X := by
  rw [View.readAt_eq_ld, h.read_unread, View.ld_unit_zero hz3]
/-- the weight block. -/
theorem load_weights (m : Memref sig .tc .vmem S4x128 .f32) (h : m.IsWhole) (X : Vec F S4x128 .f32) :
    m.view.readAt (Elt F) (Rect.unit (s := S4x128) ![0, 0] S4x128.size inb_S4x128_S4x128_0_0).toLoadRect (h.unread X) = X := by
  rw [View.readAt_eq_ld, h.read_unread, View.ld_unit_zero hz2]

/-- A load of the whole buffer right after one whole store into it reads what was stored. -/
theorem load_stored (m : Memref sig .tc .vmem S4x4096 .f32) (p : Vec F S4x4096 .f32) :
    m.view.readCov [(⟨Rect.unit (s := S4x4096) ![0, 0] S4x4096.size inb_S4x4096_S4x4096_0_0, p⟩ : View.Piece (Elt F) S4x4096 .f32)]
      (Rect.unit (s := S4x4096) ![0, 0] S4x4096.size inb_S4x4096_S4x4096_0_0).toLoadRect = p :=
  View.readCov_unit_zero m.view hz2 _ p

/-! ## The body's run, case by case -/

set_option maxHeartbeats 1000000 in
/-- The first step (coordinate 0, not the last). Both scratch arrays, whatever they held, are overwritten with zero; the
    step's token and weight blocks are loaded; the sum array, read back as the zero just stored, is replaced by the block's
    weighted column sums added to it, and the count array likewise by the block's nonzero counts. The two result buffers
    are not touched and come back as they were found. Stated for any six whole buffers. -/
theorem run_first (c : Dev nD) (i : grid0.Coords)
    (a1 : Memref sig .tc .vmem S4x128x4096 .f32) (h1 : a1.IsWhole) (a2 : Memref sig .tc .vmem S4x128 .f32) (h2 : a2.IsWhole)
    (a3 : Memref sig .tc .vmem S4x4096 .f32) (h3 : a3.IsWhole) (a4 : Memref sig .tc .vmem S4x4096 .f32) (h4 : a4.IsWhole)
    (a5 : Memref sig .tc .vmem S4x4096 .f32) (h5 : a5.IsWhole) (a6 : Memref sig .tc .vmem S4x4096 .f32) (h6 : a6.IsWhole)
    (hf : isFirst i) (hl : ¬isLast i)
    (x : Vec F S4x128x4096 .f32) (w : Vec F S4x128 .f32) (o2 o3 : Vec F S4x4096 .f32)
    (E : Set ℕ) (K : PUnit → sProp 𝕄) :
    iprop(owns (c : Thread nD τ) a1 fullShare x ∗ owns (c : Thread nD τ) a2 fullShare w
        ∗ owns (c : Thread nD τ) a3 fullShare (o2) ∗ owns (c : Thread nD τ) a4 fullShare (o3)
        ∗ (∃ d, owns (c : Thread nD τ) a5 fullShare d) ∗ (∃ d, owns (c : Thread nD τ) a6 fullShare d)
        ∗ (iprop(owns (c : Thread nD τ) a1 fullShare x ∗ owns (c : Thread nD τ) a2 fullShare w
            ∗ owns (c : Thread nD τ) a3 fullShare (o2) ∗ owns (c : Thread nD τ) a4 fullShare (o3)
            ∗ owns (c : Thread nD τ) a5 fullShare (k0_pay4 x w (k0_pay1 (F := F))) ∗ owns (c : Thread nD τ) a6 fullShare (k0_pay5 x w (k0_pay2 (F := F)))) -∗ K ⟨⟩))
      ⊢ wp frame (wpE (defs₀ (F := F)) Variants.none c none) E (cc0__reduce_kernel i a1 h1 a2 h2 a3 h3 a4 h4 a5 h5 a6 h6) K := by
  simp only [cc0__reduce_kernel_eq_skeleton]; unfold cc0__reduce_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := h1.eq_unread hf1; obtain rfl := h2.eq_unread hf2
  sl_exec (disch := first | exact hf | exact hl)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    swap; · iexact H5
    ipureintro; rw [read_store]; sl_unfold_words; rw [load_tokens, load_weights, load_stored]
  · iexists _; isplitr
    swap; · iexact H6
    ipureintro; rw [read_store]; sl_unfold_words; rw [load_tokens, load_weights, load_stored]

set_option maxHeartbeats 1000000 in
/-- A middle step (neither first nor last). The scratch arrays hold the running sum s and count n the step before left;
    the body replaces them by the step's block sums added to s and the step's counts added to n, and touches nothing
    else: the result buffers come back as they were found. -/
theorem run_mid (c : Dev nD) (i : grid0.Coords)
    (a1 : Memref sig .tc .vmem S4x128x4096 .f32) (h1 : a1.IsWhole) (a2 : Memref sig .tc .vmem S4x128 .f32) (h2 : a2.IsWhole)
    (a3 : Memref sig .tc .vmem S4x4096 .f32) (h3 : a3.IsWhole) (a4 : Memref sig .tc .vmem S4x4096 .f32) (h4 : a4.IsWhole)
    (a5 : Memref sig .tc .vmem S4x4096 .f32) (h5 : a5.IsWhole) (a6 : Memref sig .tc .vmem S4x4096 .f32) (h6 : a6.IsWhole)
    (hf : ¬isFirst i) (hl : ¬isLast i)
    (x : Vec F S4x128x4096 .f32) (w : Vec F S4x128 .f32) (o2 o3 s n : Vec F S4x4096 .f32)
    (E : Set ℕ) (K : PUnit → sProp 𝕄) :
    iprop(owns (c : Thread nD τ) a1 fullShare x ∗ owns (c : Thread nD τ) a2 fullShare w
        ∗ owns (c : Thread nD τ) a3 fullShare (o2) ∗ owns (c : Thread nD τ) a4 fullShare (o3)
        ∗ owns (c : Thread nD τ) a5 fullShare (s) ∗ owns (c : Thread nD τ) a6 fullShare (n)
        ∗ (iprop(owns (c : Thread nD τ) a1 fullShare x ∗ owns (c : Thread nD τ) a2 fullShare w
            ∗ owns (c : Thread nD τ) a3 fullShare (o2) ∗ owns (c : Thread nD τ) a4 fullShare (o3)
            ∗ owns (c : Thread nD τ) a5 fullShare (k0_pay4 x w s) ∗ owns (c : Thread nD τ) a6 fullShare (k0_pay5 x w n)) -∗ K ⟨⟩))
      ⊢ wp frame (wpE (defs₀ (F := F)) Variants.none c none) E (cc0__reduce_kernel i a1 h1 a2 h2 a3 h3 a4 h4 a5 h5 a6 h6) K := by
  simp only [cc0__reduce_kernel_eq_skeleton]; unfold cc0__reduce_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := h1.eq_unread hf1; obtain rfl := h2.eq_unread hf2
  obtain rfl := h5.eq_unread hf5; obtain rfl := h6.eq_unread hf6
  sl_exec (disch := first | exact hf | exact hl)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    swap; · iexact H5
    ipureintro; rw [read_store, load_tokens, load_weights, load_acc]
  · iexists _; isplitr
    swap; · iexact H6
    ipureintro; rw [read_store, load_tokens, load_weights, load_acc]

set_option maxHeartbeats 1000000 in
/-- The last step (coordinate 31, not the first). As at a middle step the scratch arrays go from s, n to the step's sums
    and counts added to them; then each is read back and stored whole into its result buffer, whatever that held. -/
theorem run_last (c : Dev nD) (i : grid0.Coords)
    (a1 : Memref sig .tc .vmem S4x128x4096 .f32) (h1 : a1.IsWhole) (a2 : Memref sig .tc .vmem S4x128 .f32) (h2 : a2.IsWhole)
    (a3 : Memref sig .tc .vmem S4x4096 .f32) (h3 : a3.IsWhole) (a4 : Memref sig .tc .vmem S4x4096 .f32) (h4 : a4.IsWhole)
    (a5 : Memref sig .tc .vmem S4x4096 .f32) (h5 : a5.IsWhole) (a6 : Memref sig .tc .vmem S4x4096 .f32) (h6 : a6.IsWhole)
    (hf : ¬isFirst i) (hl : isLast i)
    (x : Vec F S4x128x4096 .f32) (w : Vec F S4x128 .f32) (s n : Vec F S4x4096 .f32)
    (E : Set ℕ) (K : PUnit → sProp 𝕄) :
    iprop(owns (c : Thread nD τ) a1 fullShare x ∗ owns (c : Thread nD τ) a2 fullShare w
        ∗ (∃ d, owns (c : Thread nD τ) a3 fullShare d) ∗ (∃ d, owns (c : Thread nD τ) a4 fullShare d)
        ∗ owns (c : Thread nD τ) a5 fullShare (s) ∗ owns (c : Thread nD τ) a6 fullShare (n)
        ∗ (iprop(owns (c : Thread nD τ) a1 fullShare x ∗ owns (c : Thread nD τ) a2 fullShare w
            ∗ owns (c : Thread nD τ) a3 fullShare (k0_pay4 x w s) ∗ owns (c : Thread nD τ) a4 fullShare (k0_pay5 x w n)
            ∗ owns (c : Thread nD τ) a5 fullShare (k0_pay4 x w s) ∗ owns (c : Thread nD τ) a6 fullShare (k0_pay5 x w n)) -∗ K ⟨⟩))
      ⊢ wp frame (wpE (defs₀ (F := F)) Variants.none c none) E (cc0__reduce_kernel i a1 h1 a2 h2 a3 h3 a4 h4 a5 h5 a6 h6) K := by
  simp only [cc0__reduce_kernel_eq_skeleton]; unfold cc0__reduce_kernel_skel
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  obtain rfl := h1.eq_unread hf1; obtain rfl := h2.eq_unread hf2
  obtain rfl := h5.eq_unread hf5; obtain rfl := h6.eq_unread hf6
  sl_exec (disch := first | exact hf | exact hl)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    swap; · iexact H3
    ipureintro; rw [read_store]; sl_unfold_words; rw [load_stored, load_tokens, load_weights, load_acc]
  isplitl [H4]
  · iexists _; isplitr
    swap; · iexact H4
    ipureintro; rw [read_store]; sl_unfold_words; rw [load_stored, load_tokens, load_weights, load_acc]
  isplitl [H5]
  · iexists _; isplitr
    swap; · iexact H5
    ipureintro; sl_unfold_words; rw [read_store, load_tokens, load_weights, load_acc]
  · iexists _; isplitr
    swap; · iexact H6
    ipureintro; sl_unfold_words; rw [read_store, load_tokens, load_weights, load_acc]

/-! ## Where the windows are live, where idle -/

/-- The two input windows are never idle. -/
theorem live_0 : ∀ t : Fin cfg0.N, cfg0.idle 0 (grid0.coords t) = false := by decide +kernel
theorem live_1 : ∀ t : Fin cfg0.N, cfg0.idle 1 (grid0.coords t) = false := by decide +kernel
/-- Before the last step the body stores nothing into the two result windows, and the pipeline does not write them back; -/
theorem idle_2 : ∀ t : Fin cfg0.N, ¬isLast (grid0.coords t) → cfg0.idle 2 (grid0.coords t) = true := by decide +kernel
theorem idle_3 : ∀ t : Fin cfg0.N, ¬isLast (grid0.coords t) → cfg0.idle 3 (grid0.coords t) = true := by decide +kernel
theorem keep_2 : ∀ t : Fin cfg0.N, ¬isLast (grid0.coords t) → (cfg0.win 2).flush t = false := by decide +kernel
theorem keep_3 : ∀ t : Fin cfg0.N, ¬isLast (grid0.coords t) → (cfg0.win 3).flush t = false := by decide +kernel
/-- at the last step it stores into both. -/
theorem live_2 : ∀ t : Fin cfg0.N, isLast (grid0.coords t) → cfg0.idle 2 (grid0.coords t) = false := by decide +kernel
theorem live_3 : ∀ t : Fin cfg0.N, isLast (grid0.coords t) → cfg0.idle 3 (grid0.coords t) = false := by decide +kernel

/-! ## The recursion, read at a step -/

variable (V : (c : Dev nD) → (b : Ref sig .tc) → Buf (Elt F) ((c : Thread nD τ).loc b))

/-- At the first step the running arrays are the step's block sums added to zero; -/
theorem accAt_first (c : Dev nD) (t : Fin cfg0.N) (h : t.val = 0) :
    accAt V c t.val t.isLt = (k0_pay4 (tokens V c t) (weights V c t) (k0_pay1 (F := F)),
                              k0_pay5 (tokens V c t) (weights V c t) (k0_pay2 (F := F))) := by
  obtain ⟨n, hn⟩ := t
  cases n with
  | zero => rfl
  | succ n => exact absurd h (Nat.succ_ne_zero _)

/-- at a later step, added to what the step before left. -/
theorem accAt_next (c : Dev nD) (t : Fin cfg0.N) (h : t.val ≠ 0) :
    accAt V c t.val t.isLt
      = (k0_pay4 (tokens V c t) (weights V c t) (accAt V c (t.val - 1) (Nat.lt_of_le_of_lt (Nat.sub_le _ _) t.isLt)).1,
         k0_pay5 (tokens V c t) (weights V c t) (accAt V c (t.val - 1) (Nat.lt_of_le_of_lt (Nat.sub_le _ _) t.isLt)).2) := by
  obtain ⟨n, hn⟩ := t
  cases n with
  | zero => exact absurd rfl h
  | succ n => rfl

/-! ## The body at a step -/

/-- Each window's current staging buffer at step t, as the pipeline passes it to the body. -/
abbrev stg0 (t : Fin cfg0.N) : Memref sig .tc .vmem S4x128x4096 .f32 := win0_0.stage (cfg0.slots t 0)
abbrev stg1 (t : Fin cfg0.N) : Memref sig .tc .vmem S4x128 .f32 := win0_1.stage (cfg0.slots t 1)
abbrev stg2 (t : Fin cfg0.N) : Memref sig .tc .vmem S4x4096 .f32 := win0_2.stage (cfg0.slots t 2)
abbrev stg3 (t : Fin cfg0.N) : Memref sig .tc .vmem S4x4096 .f32 := win0_3.stage (cfg0.slots t 3)

/-- What the body is handed at step t: the invariant, nothing owed, and each window's current buffer at what it then holds; -/
def bodyPre (c : Dev nD) (t : Fin cfg0.N) : sProp 𝕄 :=
  iprop((dat V c).Φ t.castSucc ∗ (dat V c).owesAt () t.castSucc
    ∗ (∃ d, owns (c : Thread nD τ) (stg0 t) fullShare ((dat V c).before 0 t d))
    ∗ (∃ d, owns (c : Thread nD τ) (stg1 t) fullShare ((dat V c).before 1 t d))
    ∗ (∃ d, owns (c : Thread nD τ) (stg2 t) fullShare ((dat V c).before 2 t d))
    ∗ (∃ d, owns (c : Thread nD τ) (stg3 t) fullShare ((dat V c).before 3 t d)))

/-- and what it hands back. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in
/-- The body at any step. The input buffers hold the step's blocks. At the last step (31, hence not the first) the
    invariant hands over the scratch arrays at what step 30 left, the result buffers are taken at anything and returned
    at this step's sum and count; before it the result windows are idle and their buffers go through unchanged, the
    scratch arrays coming from anything at step 0 and from what the step before left afterwards. In each case the scratch
    arrays are returned at this step's sum and count, which is the invariant before the next step. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [Phi_succ, carried_succ, Phi_castSucc]
  rw [show (dat V c).leavesExact 0 t = owns (c : Thread nD τ) (stg0 t) fullShare ((dat V c).after 0 t) from by
    unfold Dat.leavesExact; rw [live_0 t], after_0]
  rw [show (dat V c).leavesExact 1 t = owns (c : Thread nD τ) (stg1 t) fullShare ((dat V c).after 1 t) from by
    unfold Dat.leavesExact; rw [live_1 t], after_1]
  have hN : t.val < 32 := lt_of_lt_of_eq t.isLt (show cfg0.N = 32 from N_0)
  by_cases hl : t.val = 31
  · have hz : t.val ≠ 0 := by omega
    rw [show (dat V c).leavesExact 2 t = owns (c : Thread nD τ) (stg2 t) fullShare ((dat V c).after 2 t) from by
      unfold Dat.leavesExact; rw [live_2 t ((isLast_iff t).mpr hl)], after_2]
    rw [show (dat V c).leavesExact 3 t = owns (c : Thread nD τ) (stg3 t) fullShare ((dat V c).after 3 t) from by
      unfold Dat.leavesExact; rw [live_3 t ((isLast_iff t).mpr hl)], after_3]
    rw [accAt_next V c t hz, carried_pos V c _ _ hz]; dsimp only
    iintro ⟨⟨HS, HC, Hr⟩, Ho, ⟨%d0, H0⟩, ⟨%d1, H1⟩, ⟨%d2, H2⟩, ⟨%d3, H3⟩⟩
    iapply (run_last c (grid0.coords t) _ _ _ _ _ _ _ _ _ _ _ _ (fun h => hz ((isFirst_iff t).mp h)) ((isLast_iff t).mpr hl)
      (tokens V c t) (weights V c t) _ _ Set.univ _)
    isplitl [H0]; · iexact H0
    isplitl [H1]; · iexact H1
    isplitl [H2]; · iexists _; iexact H2
    isplitl [H3]; · iexists _; iexact H3
    isplitl [HS]; · iexact HS
    isplitl [HC]; · iexact HC
    iintro ⟨H0, H1, H2, H3, HS, HC⟩
    isplitl [HS HC Hr]
    · isplitl [HS]; · iexact HS
      isplitl [HC]; · iexact HC
      iexact Hr
    isplitl [Ho]; · iexact Ho
    isplitl [H0]; · iexact H0
    isplitl [H1]; · iexact H1
    isplitl [H2]; · iexact H2
    iexact H3
  · have hnl : ¬isLast (grid0.coords t) := fun h => hl ((isLast_iff t).mp h)
    rw [Dat.leavesExact_idle (dat V c) 2 t (idle_2 t hnl) (keep_2 t hnl),
      Dat.leavesExact_idle (dat V c) 3 t (idle_3 t hnl) (keep_3 t hnl)]
    by_cases hz : t.val = 0
    · rw [accAt_first V c t hz, carried_zero V c _ _ hz, scopedRest_eq]; dsimp only
      iintro ⟨⟨HS, HC, Hr⟩, Ho, ⟨%d0, H0⟩, ⟨%d1, H1⟩, ⟨%d2, H2⟩, ⟨%d3, H3⟩⟩
      iapply (run_first c (grid0.coords t) _ _ _ _ _ _ _ _ _ _ _ _ ((isFirst_iff t).mpr hz) hnl
        (tokens V c t) (weights V c t) _ _ Set.univ _)
      isplitl [H0]; · iexact H0
      isplitl [H1]; · iexact H1
      isplitl [H2]; · iexact H2
      isplitl [H3]; · iexact H3
      isplitl [HS]; · iexact HS
      isplitl [HC]; · iexact HC
      iintro ⟨H0, H1, H2, H3, HS, HC⟩
      isplitl [HS HC Hr]
      · isplitl [HS]; · iexact HS
        isplitl [HC]; · iexact HC
        iexact Hr
      isplitl [Ho]; · iexact Ho
      isplitl [H0]; · iexact H0
      isplitl [H1]; · iexact H1
      isplitl [H2]; · iexists _; iexact H2
      iexists _; iexact H3
    · rw [accAt_next V c t hz, carried_pos V c _ _ hz]; dsimp only
      iintro ⟨⟨HS, HC, Hr⟩, Ho, ⟨%d0, H0⟩, ⟨%d1, H1⟩, ⟨%d2, H2⟩, ⟨%d3, H3⟩⟩
      iapply (run_mid c (grid0.coords t) _ _ _ _ _ _ _ _ _ _ _ _ (fun h => hz ((isFirst_iff t).mp h)) hnl
        (tokens V c t) (weights V c t) _ _ _ _ Set.univ _)
      isplitl [H0]; · iexact H0
      isplitl [H1]; · iexact H1
      isplitl [H2]; · iexact H2
      isplitl [H3]; · iexact H3
      isplitl [HS]; · iexact HS
      isplitl [HC]; · iexact HC
      iintro ⟨H0, H1, H2, H3, HS, HC⟩
      isplitl [HS HC Hr]
      · isplitl [HS]; · iexact HS
        isplitl [HC]; · iexact HC
        iexact Hr
      isplitl [Ho]; · iexact Ho
      isplitl [H0]; · iexact H0
      isplitl [H1]; · iexact H1
      isplitl [H2]; · iexists _; iexact H2
      iexists _; iexact H3

/-- The body obligation of the first region, at every step. -/
theorem body_obligation (c : Dev nD) : BodyObligation (dat (F := F) V c) (defs₀ (F := F)) Variants.none () Set.univ := fun t => by
  rw [bigSep_W0, bigSep_W0]
  exact sound_body V c t

end Cert.KernelIdeal.Reduce

end
-- ==== Proof.KernelIdeal.FinalizeData.lean ====
/-
  The router tail (the second kernel region), as data.

  The region has one step. It is handed eight whole arrays — the token sum and the nonzero count the first region
  left, the two affine maps of the input normalisation, the two of the weight normalisation, the 8 router weight rows
  and the 8 biases — and writes one, the 4 × 8 routing distribution: the body's one store, of one pure expression of
  what it loaded. Nothing is carried, so the region's invariant is the scoped buffers it does not stage, untouched.
-/
import proofs.«158634_j71889162600594_1_alg».proof.Proof.Gen.KernelIdeal.Launch
import proofs.«158634_j71889162600594_1_alg».proof.Proof.Gen.KernelIdeal.Skeleton
import proofs.«158634_j71889162600594_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Finalize

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents the region is entered from: a parameter, fixed by the run
variable (V : (c : Dev nD) → (b : Ref sig .tc) → Buf (Elt F) ((c : Thread nD τ).loc b))

/-- Window w's block at the region's one step, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body loads and stores through: each a whole buffer. -/
abbrev rMat : Rect S4x4096 := Rect.unit (s := S4x4096) ![0, 0] S4x4096.size inb_S4x4096_S4x4096_0_0
abbrev rVec : Rect S4096 := Rect.unit (s := S4096) ![0] S4096.size inb_S4096_S4096_0
abbrev rRows : Rect S8x4096 := Rect.unit (s := S8x4096) ![0, 0] S8x4096.size inb_S8x4096_S8x4096_0_0
abbrev rBias : Rect S8 := Rect.unit (s := S8) ![0] S8.size inb_S8_S8_0
abbrev rOut : Rect S4x8 := Rect.unit (s := S4x8) ![0, 0] S4x8.size inb_S4x8_S4x8_0_0

/-- What the body leaves in the output's staging buffer, from the eight input blocks: its one store, of the body's
    arithmetic on what it loaded (the token sum x0, the count x1, the input map x2 x3, the weight map x4 x5, the
    weight rows x6, the biases x7). -/
def routed (x0 x1 : Vec F S4x4096 .f32) (x2 x3 x4 x5 : Vec F S4096 .f32) (x6 : Vec F S8x4096 .f32) (x7 : Vec F S8 .f32) : Vec F S4x8 .f32 :=
  View.canon [⟨rOut, k1_pay1 (k1_pay2 (View.ld x0 rMat) (View.ld x1 rMat) (View.ld x2 rVec) (View.ld x3 rVec)) (View.ld x6 rRows)
    (k1_pay3 (View.ld x6 rRows)) (k1_pay4 (View.ld x6 rRows)) (k1_pay5 (F := F)) (View.ld x4 rVec) (View.ld x5 rVec) (View.ld x7 rBias)⟩]

/-- The one store tiles the output buffer, so it covers it. -/
theorem routed_cover (p0 : Vec F S4x8 .f32) (y : S4x8.Idx) :
    ∃ pc ∈ ([⟨rOut, p0⟩] : List (View.Piece (Elt F) S4x8 .f32)), y ∈ pc.1.set :=
  View.cover_of_tiled [⟨rOut, p0⟩] S4x8.size (by rfl) y

/-- The region's proof data on core c: the arrays as the region finds them; after the step each input's staging buffer
    at its block and the output's at the routing distribution of the input blocks; the invariant the scoped buffers the
    region does not stage; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => routed (iblk V c 0 t) (iblk V c 1 t) (iblk V c 2 t) (iblk V c 3 t) (iblk V c 4 t) (iblk V c 5 t) (iblk V c 6 t) (iblk V c 7 t)
  Φ _ := Pipeline.scopedRest spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) :
    (dat V c).after 8 t = routed (iblk V c 0 t) (iblk V c 1 t) (iblk V c 2 t) (iblk V c 3 t) (iblk V c 4 t) (iblk V c 5 t) (iblk V c 6 t) (iblk V c 7 t) := by
  dsimp only [dat]

/-- Input window 0's staging buffer holds its block at the step: fetched there, the window uncut and never idle. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

/-- Input window 1's staging buffer holds its block at the step: fetched there, the window uncut and never idle. -/
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- Input window 2's staging buffer holds its block at the step: fetched there, the window uncut and never idle. -/
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- Input window 3's staging buffer holds its block at the step: fetched there, the window uncut and never idle. -/
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- Input window 4's staging buffer holds its block at the step: fetched there, the window uncut and never idle. -/
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-- Input window 5's staging buffer holds its block at the step: fetched there, the window uncut and never idle. -/
theorem before_5 (c : Dev nD) (t : Fin cfg1.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-- Input window 6's staging buffer holds its block at the step: fetched there, the window uncut and never idle. -/
theorem before_6 (c : Dev nD) (t : Fin cfg1.N) (d) : (dat V c).before 6 t d = iblk V c 6 t :=
  ((dat V c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)

/-- Input window 7's staging buffer holds its block at the step: fetched there, the window uncut and never idle. -/
theorem before_7 (c : Dev nD) (t : Fin cfg1.N) (d) : (dat V c).before 7 t d = iblk V c 7 t :=
  ((dat V c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)

theorem Phi_eq (c : Dev nD) (t : Fin (cfg1.N + 1)) : (dat V c).Φ t = Pipeline.scopedRest spec1 c := rfl

/-- After the step the invariant is still the scoped buffers the region does not stage. -/
theorem Phi_last (c : Dev nD) : (dat V c).Φ (Fin.last cfg1.N) ⊢ (Pipeline.scopedRest spec1 c : sProp 𝕄) := .rfl

end Cert.KernelIdeal.Finalize

end
-- ==== Proof.KernelIdeal.FinalizeBody.lean ====
/-
  The router tail's body.

  Handed the eight input blocks and the output buffer, the body runs to the end without a fault, leaves the inputs as
  they were and the output buffer at the routing distribution of the inputs (FinalizeData's `routed`).
-/
import proofs.«158634_j71889162600594_1_alg».proof.Proof.KernelIdeal.FinalizeData

set_option maxRecDepth 16384

noncomputable section

namespace Cert.KernelIdeal.Finalize

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple. On whole staging memrefs, the eight inputs' at contents x0 … x7 and the output's at anything, the
    body runs to a continuation that holds the inputs' as they were and the output's at `routed` of the inputs: the
    part loads five of them, the body the other three and the output buffer, and the one store, which covers the
    output buffer, is of the payload `routed` names. -/
theorem sound_kernel (c : Dev nD) (E : Set ℕ) (i : grid1.Coords)
    (arg1 : Memref sig .tc .vmem S4x4096 .f32) (harg1 : arg1.IsWhole)
    (arg2 : Memref sig .tc .vmem S4x4096 .f32) (harg2 : arg2.IsWhole)
    (arg3 : Memref sig .tc .vmem S4096 .f32) (harg3 : arg3.IsWhole)
    (arg4 : Memref sig .tc .vmem S4096 .f32) (harg4 : arg4.IsWhole)
    (arg5 : Memref sig .tc .vmem S4096 .f32) (harg5 : arg5.IsWhole)
    (arg6 : Memref sig .tc .vmem S4096 .f32) (harg6 : arg6.IsWhole)
    (arg7 : Memref sig .tc .vmem S8x4096 .f32) (harg7 : arg7.IsWhole)
    (arg8 : Memref sig .tc .vmem S8 .f32) (harg8 : arg8.IsWhole)
    (arg9 : Memref sig .tc .vmem S4x8 .f32) (harg9 : arg9.IsWhole)
    (x0 x1 : Vec F S4x4096 .f32) (x2 x3 x4 x5 : Vec F S4096 .f32) (x6 : Vec F S8x4096 .f32) (x7 : Vec F S8 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (routed x0 x1 x2 x3 x4 x5 x6 x7)) -∗ K ⟨⟩))
      ⊢ wp frame (wpE (defs₀ (F := F)) Variants.none c none) E
          (cc1__finalize_kernel i arg1 harg1 arg2 harg2 arg3 harg3 arg4 harg4 arg5 harg5 arg6 harg6 arg7 harg7 arg8 harg8 arg9 harg9) K := by
  simp only [cc1__finalize_kernel_eq_skeleton]; unfold cc1__finalize_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (routed_cover _)

-- the buffer contents the region is entered from: a parameter, fixed by the run
variable (V : (c : Dev nD) → (b : Ref sig .tc) → Buf (Elt F) ((c : Thread nD τ).loc b))

/-- What the body is handed at the step: the invariant, what the core owes, and each window's staging buffer at what
    it then holds. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- What the body hands back: the same invariant and the same debt, each staging buffer at what the proof data say
    the body leaves there. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t))

/-- The body at the step. Each input's staging buffer holds its block, so the body's triple applies at the eight
    blocks; it returns the inputs as they were and the output at `routed` of the blocks, which is what the proof data
    name. The invariant and the debt do not depend on the step and pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _
    (iblk V c 0 t) (iblk V c 1 t) (iblk V c 2 t) (iblk V c 3 t) (iblk V c 4 t) (iblk V c 5 t) (iblk V c 6 t) (iblk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the second region, at its one step. -/
theorem body_obligation (c : Dev nD) : BodyObligation (dat (F := F) V c) (defs₀ (F := F)) Variants.none () Set.univ := fun t => by
  rw [bigSep_W1, bigSep_W1]
  exact sound_body V c t

end Cert.KernelIdeal.Finalize

end
-- ==== Proof.KernelIdeal.Run.lean ====
/-
  The whole program, from the launch to the return.

  @main is four things in a row: two host operations (the product of the two integer token masks and its reading as a
  number: the token weights), the token reduction, the router tail, and three host operations (the 4 × 8 distribution
  laid out as [4, 1, 8], and a zero of shape [1]). Between them the core's unscoped buffers hold, in turn: what the
  launch put there; that with the two host results written; that with the reduction's two result arrays at what its
  write-backs leave; that with the tail's result array at what its write-back leaves; that with the last three host
  results written. Every weakly fair execution ends, faulting nowhere, with every unscoped buffer at the last of these
  contents — which for each argument is what the launch put there, and for the two results is named.
-/
import proofs.«158634_j71889162600594_1_alg».proof.Proof.KernelIdeal.ReduceData
import proofs.«158634_j71889162600594_1_alg».proof.Proof.KernelIdeal.FinalizeData
import proofs.«158634_j71889162600594_1_alg».proof.Proof.Gen.KernelIdeal.Regions

set_option maxRecDepth 16384

noncomputable section

namespace Cert.KernelIdeal.Program

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the two regions' body obligations, at whatever contents a region is entered with: proved in modules of their own
variable (hb0 : ∀ (V : (c : Dev nD) → (b : Ref sig .tc) → Buf (Elt F) ((c : Thread nD τ).loc b)) (c : Dev nD),
    BodyObligation (Reduce.dat (F := F) V c) (defs₀ (F := F)) Variants.none () Set.univ)
  (hb1 : ∀ (V : (c : Dev nD) → (b : Ref sig .tc) → Buf (Elt F) ((c : Thread nD τ).loc b)) (c : Dev nD),
    BodyObligation (Finalize.dat (F := F) V c) (defs₀ (F := F)) Variants.none () Set.univ)

/-! ## The buffer contents at each boundary -/

/-- Core c's buffers at launch. -/
abbrev W0 : Dev nD → Valuation τ sig (Elt F) := fun c b => (s₀ m ρ).mem ((c : Dev nD), b)
/-- After the first two host operations: what the token reduction is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the token reduction: its arrays at what its write-backs leave, every other buffer as it was. -/
def W2 (c : Dev nD) : Valuation τ sig (Elt F) :=
  Pipeline.withArrays spec0 c (W1 m ρ c) fun w => (Reduce.dat (V1 m ρ) c).arrAt w cfg0.N
theorem W2_arr (c : Dev nD) (w : Fin cfg0.W) :
    W2 m ρ c (Proc.devRef .tc (Pipeline.arrRef spec0 w)) = (Reduce.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Reduce.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the router tail (entered with the contents just above): its arrays at what its write-back leaves. -/
def W3 (c : Dev nD) : Valuation τ sig (Elt F) :=
  Pipeline.withArrays spec1 c (W2 m ρ c) fun w => (Finalize.dat (V2 m ρ) c).arrAt w cfg1.N
theorem W3_arr (c : Dev nD) (w : Fin cfg1.W) :
    W3 m ρ c (Proc.devRef .tc (Pipeline.arrRef spec1 w)) = (Finalize.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Finalize.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last three host operations: the contents at the return. -/
abbrev W4 : Dev nD → Valuation τ sig (Elt F) := fun c => StableHlo.after hostOps2 (W3 m ρ c)

/-! ## The arguments end as launched -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h

/-- Argument 0 ends as launched: no host operation writes it and no region may change it. -/
theorem W4_main_arg0 (c : Dev nD) : W4 m ρ c (Proc.devRef .tc main_arg0) = m ((c : Thread nD τ).loc main_arg0) :=
  (W4_of m ρ c main_arg0 (by decide)).trans <| (W3_of_ne m ρ c main_arg0 (by decide)).trans <| ((W2_arr m ρ c 0).trans (((Reduce.dat (V1 m ρ) c).arrAt_in 0 rfl _).trans (Reduce.A_eq (V1 m ρ) c 0))).trans <| (W1_of m ρ c main_arg0 (by decide)).trans rfl

/-- Argument 1 ends as launched: no host operation writes it and no region may change it. -/
theorem W4_main_arg1 (c : Dev nD) : W4 m ρ c (Proc.devRef .tc main_arg1) = m ((c : Thread nD τ).loc main_arg1) :=
  (W4_of m ρ c main_arg1 (by decide)).trans <| (W3_of_ne m ρ c main_arg1 (by decide)).trans <| (W2_of_ne m ρ c main_arg1 (by decide)).trans <| (W1_of m ρ c main_arg1 (by decide)).trans rfl

/-- Argument 2 ends as launched: no host operation writes it and no region may change it. -/
theorem W4_main_arg2 (c : Dev nD) : W4 m ρ c (Proc.devRef .tc main_arg2) = m ((c : Thread nD τ).loc main_arg2) :=
  (W4_of m ρ c main_arg2 (by decide)).trans <| (W3_of_ne m ρ c main_arg2 (by decide)).trans <| (W2_of_ne m ρ c main_arg2 (by decide)).trans <| (W1_of m ρ c main_arg2 (by decide)).trans rfl

/-- Argument 3 ends as launched: no host operation writes it and no region may change it. -/
theorem W4_main_arg3 (c : Dev nD) : W4 m ρ c (Proc.devRef .tc main_arg3) = m ((c : Thread nD τ).loc main_arg3) :=
  (W4_of m ρ c main_arg3 (by decide)).trans <| ((W3_arr m ρ c 2).trans (((Finalize.dat (V2 m ρ) c).arrAt_in 2 rfl _).trans (Finalize.A_eq (V2 m ρ) c 2))).trans <| (W2_of_ne m ρ c main_arg3 (by decide)).trans <| (W1_of m ρ c main_arg3 (by decide)).trans rfl

/-- Argument 4 ends as launched: no host operation writes it and no region may change it. -/
theorem W4_main_arg4 (c : Dev nD) : W4 m ρ c (Proc.devRef .tc main_arg4) = m ((c : Thread nD τ).loc main_arg4) :=
  (W4_of m ρ c main_arg4 (by decide)).trans <| ((W3_arr m ρ c 3).trans (((Finalize.dat (V2 m ρ) c).arrAt_in 3 rfl _).trans (Finalize.A_eq (V2 m ρ) c 3))).trans <| (W2_of_ne m ρ c main_arg4 (by decide)).trans <| (W1_of m ρ c main_arg4 (by decide)).trans rfl

/-- Argument 5 ends as launched: no host operation writes it and no region may change it. -/
theorem W4_main_arg5 (c : Dev nD) : W4 m ρ c (Proc.devRef .tc main_arg5) = m ((c : Thread nD τ).loc main_arg5) :=
  (W4_of m ρ c main_arg5 (by decide)).trans <| ((W3_arr m ρ c 4).trans (((Finalize.dat (V2 m ρ) c).arrAt_in 4 rfl _).trans (Finalize.A_eq (V2 m ρ) c 4))).trans <| (W2_of_ne m ρ c main_arg5 (by decide)).trans <| (W1_of m ρ c main_arg5 (by decide)).trans rfl

/-- Argument 6 ends as launched: no host operation writes it and no region may change it. -/
theorem W4_main_arg6 (c : Dev nD) : W4 m ρ c (Proc.devRef .tc main_arg6) = m ((c : Thread nD τ).loc main_arg6) :=
  (W4_of m ρ c main_arg6 (by decide)).trans <| ((W3_arr m ρ c 5).trans (((Finalize.dat (V2 m ρ) c).arrAt_in 5 rfl _).trans (Finalize.A_eq (V2 m ρ) c 5))).trans <| (W2_of_ne m ρ c main_arg6 (by decide)).trans <| (W1_of m ρ c main_arg6 (by decide)).trans rfl

/-- Argument 7 ends as launched: no host operation writes it and no region may change it. -/
theorem W4_main_arg7 (c : Dev nD) : W4 m ρ c (Proc.devRef .tc main_arg7) = m ((c : Thread nD τ).loc main_arg7) :=
  (W4_of m ρ c main_arg7 (by decide)).trans <| ((W3_arr m ρ c 6).trans (((Finalize.dat (V2 m ρ) c).arrAt_in 6 rfl _).trans (Finalize.A_eq (V2 m ρ) c 6))).trans <| (W2_of_ne m ρ c main_arg7 (by decide)).trans <| (W1_of m ρ c main_arg7 (by decide)).trans rfl

/-- Argument 8 ends as launched: no host operation writes it and no region may change it. -/
theorem W4_main_arg8 (c : Dev nD) : W4 m ρ c (Proc.devRef .tc main_arg8) = m ((c : Thread nD τ).loc main_arg8) :=
  (W4_of m ρ c main_arg8 (by decide)).trans <| ((W3_arr m ρ c 7).trans (((Finalize.dat (V2 m ρ) c).arrAt_in 7 rfl _).trans (Finalize.A_eq (V2 m ρ) c 7))).trans <| (W2_of_ne m ρ c main_arg8 (by decide)).trans <| (W1_of m ρ c main_arg8 (by decide)).trans rfl

/-! ## The proof data family and the thread state -/

/-- No pallas_call has a prefetched table. -/
abbrev adm : (p : Fin 2) → (pcfgs (F := F) p).Adm := fun p => (cfgs p).toPCfg_adm
/-- Every region's proof data, each at the contents its region is entered with. -/
def pdats : (p : Fin 2) → (c : Dev nD) → Dat τ (Elt F) Unit ℕ (UR sig nD τ) ℕ (Pipeline.pin (pcfgs (F := F)) adm p) c
  | ⟨0, _⟩ => fun c => Reduce.dat (V1 m ρ) c
  | ⟨1, _⟩ => fun c => Finalize.dat (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core's debt, empty. -/
abbrev R (c : Dev nD) : sProp 𝕄 := iprop((∃ r, prngReg c r) ∗ ∃ W, owes (c : Thread nD τ) (0 : CellTallies nD τ sig Unit) W)
/-- A stretch of host operations as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the return's contents, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over the pinned configuration unifies with the printed one only when unification may
-- unfold plain definitions in a metavariable's type
set_option backward.isDefEq.respectTransparency.types false in
/-- Region 0 over the thread state: entered with every unscoped buffer at the contents before it, left with them at the
    contents after it. Its arrays are split out of the unscoped buffers and put back at what the region leaves; the
    generator register and the core's empty debt pass by the region; the region has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(emp)
  Y c := iprop(emp)
  Z c := iprop(Pipeline.unscopedRest (Ix := Unit) (Name := ℕ) (U := UR sig nD τ) (Lvl := ℕ) spec0 c (V1 m ρ c) ∗ ∃ r, prngReg c r)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 0 c).Φ 0 = Pipeline.scopedRest spec0 c from rfl]
    iintro ⟨-, -, Hr⟩
    iexact Hr
  hout c := by
    rw [Pipeline.ownSems0_none, show (pdats m ρ 0 c).Φ (Fin.last _) = (Reduce.dat (V1 m ρ) c).Φ (Fin.last cfg0.N) from rfl]
    refine (Reduce.Phi_last (V1 m ρ) c).trans ?_
    iintro H
    isplitr; · iempintro
    isplitr; · iempintro
    iexact H
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

-- `iapply` of a library lemma stated over the pinned configuration unifies with the printed one only when unification may
-- unfold plain definitions in a metavariable's type
set_option backward.isDefEq.respectTransparency.types false in
/-- Region 1 over the thread state: entered with every unscoped buffer at the contents before it, left with them at the
    contents after it. Its arrays are split out of the unscoped buffers and put back at what the region leaves; the
    generator register and the core's empty debt pass by the region; the region has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(emp)
  Y c := iprop(emp)
  Z c := iprop(Pipeline.unscopedRest (Ix := Unit) (Name := ℕ) (U := UR sig nD τ) (Lvl := ℕ) spec1 c (V2 m ρ c) ∗ ∃ r, prngReg c r)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 1 c).Φ 0 = Pipeline.scopedRest spec1 c from rfl]
    iintro ⟨-, -, Hr⟩
    iexact Hr
  hout c := by
    rw [Pipeline.ownSems0_none, show (pdats m ρ 1 c).Φ (Fin.last _) = (Finalize.dat (V2 m ρ) c).Φ (Fin.last cfg1.N) from rfl]
    refine (Finalize.Phi_last (V2 m ρ) c).trans ?_
    iintro H
    isplitr; · iempintro
    isplitr; · iempintro
    iexact H
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ hb0),
    .region (reg1 m ρ hb1),
    .host (hseg hostOps2 hostOps2_sub hostOps2_fresh (W3 m ρ)) ]
/-- @main is the run of the segments. -/
theorem main_run (c : Dev nD) : main (F := F) c = Pipeline.Seg.run (segs m ρ hb0 hb1) := (main_chain c).trans (by chain_rfl)

-- the launch theorem's implicit arguments are found by unifying its conclusion with this one, which takes unfolding
-- plain definitions in a metavariable's type
include hb0 hb1 in
set_option backward.isDefEq.respectTransparency.types false in
/-- From any memory with zero counters every weakly fair execution of @main terminates, nothing faulting, and in every
    final state each unscoped buffer holds the return's contents. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ hb0 hb1)
    (fun c Q => by rw [main_run m ρ hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

include hb0 hb1 in
/-- THE FRAME, at any float instance: every weakly fair execution of @main terminates, nothing faulting, and every
    final state has each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_named m ρ hb0 hb1)

end Cert.KernelIdeal.Program

end
-- ==== Proof.Spec.lean ====
/-
  What the router computes, as plain mathematics on the extended reals.

  A batch row b has 4096 tokens s, each a vector x[b,s,·] of 4096 features, and a token weight mk[b,s] (the product of
  the two integer token masks, read as a number). Feature by feature the weighted tokens are summed over s, and the
  weighted entries that are not zero are counted; the quotient of the two is the row's averaged input. That average
  and each of the 8 router weight rows are normalised along the feature axis (subtract the mean, scale by the inverse
  root of the variance plus a small constant, then an affine map per feature); the 4 × 8 products of normalised input
  and normalised weight rows, plus a bias per skill and divided by the temperature 1, are the logits, and a softmax
  over the 8 skills (shifted by the row maximum) is the result.

  The constants are the float words both programs print, kept as words: the same word denotes the same extended
  real on both sides and is never evaluated.
-/
import Idealize.ShloMosaic.PureOps.Ideal
import Idealize.ShloMosaic.Lib.ValueIdx

noncomputable section

open scoped BigOperators

namespace Cert.Routing

open Idealize.ShloMosaic Idealize.ShloMosaic.ValueIdx

/-- The number of features, 4096, as the f32 word both programs divide a feature sum by. -/
def featureCount : EReal := Ideal.ofBits .f32 0x45800000#32
/-- The small constant added to a variance before the inverse root. -/
def varEps : EReal := Ideal.ofBits .f32 0x3727C5AC#32
/-- The softmax temperature, 1. -/
def temperature : EReal := Ideal.ofBits .f32 0x3F800000#32
/-- Minus infinity, the value a row maximum starts from. -/
def negInf : EReal := Ideal.ofBits .f32 0xFF800000#32

/-- One for an entry that is not zero, zero for one that is. -/
def nonzero (v : EReal) : EReal := if v ≠ 0 then 1 else 0

/-- The weighted tokens of row b summed over the sequence, at feature d. -/
def tokenSum (x : Fin 4 → Fin 4096 → Fin 4096 → EReal) (mk : Fin 4 → Fin 4096 → EReal) (b : Fin 4) (d : Fin 4096) : EReal :=
  ∑ s : Fin 4096, x b s d * mk b s

/-- How many weighted entries of row b are not zero, at feature d. -/
def nonzeroCount (x : Fin 4 → Fin 4096 → Fin 4096 → EReal) (mk : Fin 4 → Fin 4096 → EReal) (b : Fin 4) (d : Fin 4096) : EReal :=
  ∑ s : Fin 4096, nonzero (x b s d * mk b s)

/-- The averaged input of row b at feature d: the sum over the count. -/
def average (S C : Fin 4 → Fin 4096 → EReal) (b : Fin 4) (d : Fin 4096) : EReal := Ideal.div (S b d) (C b d)

/-- The mean of a row over its 4096 features. -/
def rowMean {n : ℕ} (A : Fin n → Fin 4096 → EReal) (r : Fin n) : EReal :=
  Ideal.div (∑ d : Fin 4096, A r d) featureCount

/-- A row with its mean taken off. -/
def centred {n : ℕ} (A : Fin n → Fin 4096 → EReal) (r : Fin n) (d : Fin 4096) : EReal := A r d - rowMean A r

/-- A row's variance: the mean of the squares of the centred row. -/
def rowVar {n : ℕ} (A : Fin n → Fin 4096 → EReal) (r : Fin n) : EReal :=
  rowMean (fun r d => centred A r d * centred A r d) r

/-- The normalisation along the feature axis, with its affine map (w, β) per feature. -/
def layerNorm {n : ℕ} (A : Fin n → Fin 4096 → EReal) (w β : Fin 4096 → EReal) (r : Fin n) (d : Fin 4096) : EReal :=
  centred A r d * Ideal.rsqrt (rowVar A r + varEps) * w d + β d

/-- The logit of row b for skill k: the product of the normalised input row and the normalised weight row, plus the
    skill's bias, over the temperature. -/
def logit (H : Fin 4 → Fin 4096 → EReal) (W : Fin 8 → Fin 4096 → EReal) (fb : Fin 8 → EReal) (b : Fin 4) (k : Fin 8) : EReal :=
  Ideal.div ((∑ d : Fin 4096, H b d * W k d) + fb k) temperature

/-- The largest logit of row b (the maximum started from minus infinity, and taken against it once more). -/
def rowMax (L : Fin 4 → Fin 8 → EReal) (b : Fin 4) : EReal :=
  max negInf ((Finset.univ : Finset (Fin 8)).fold max negInf (fun k => L b k))

/-- The softmax of row b over the 8 skills, shifted by the row's maximum. -/
def softmax (L : Fin 4 → Fin 8 → EReal) (b : Fin 4) (k : Fin 8) : EReal :=
  Ideal.div (Ideal.exp (L b k - rowMax L b)) (∑ k' : Fin 8, Ideal.exp (L b k' - rowMax L b))

/-- From the token sum and the nonzero count (S, C) to the routing distribution: average, normalise both sides,
    multiply, softmax. -/
def routeOf (S C : Fin 4 → Fin 4096 → EReal) (w₁ β₁ w₂ β₂ : Fin 4096 → EReal) (ff : Fin 8 → Fin 4096 → EReal)
    (fb : Fin 8 → EReal) : Fin 4 → Fin 8 → EReal :=
  softmax (logit (layerNorm (average S C) w₁ β₁) (layerNorm ff w₂ β₂) fb)

/-- The whole router, from the inputs. -/
def route (x : Fin 4 → Fin 4096 → Fin 4096 → EReal) (mk : Fin 4 → Fin 4096 → EReal) (w₁ β₁ w₂ β₂ : Fin 4096 → EReal)
    (ff : Fin 8 → Fin 4096 → EReal) (fb : Fin 8 → EReal) : Fin 4 → Fin 8 → EReal :=
  routeOf (tokenSum x mk) (nonzeroCount x mk) w₁ β₁ w₂ β₂ ff fb

/-! ## Arrays as functions of their coordinates -/

/-- A rank-3 array read at its three coordinates. -/
def at3 {n0 n1 n2 : ℕ} (X : (⟨3, ![n0, n1, n2]⟩ : Shape).Idx → EReal) (a : Fin n0) (b : Fin n1) (c : Fin n2) : EReal := X (ix3 a b c)
/-- A rank-2 array read at its two coordinates. -/
def at2 {n0 n1 : ℕ} (X : (⟨2, ![n0, n1]⟩ : Shape).Idx → EReal) (a : Fin n0) (b : Fin n1) : EReal := X (ix2 a b)
/-- A rank-1 array read at its coordinate. -/
def at1 {n0 : ℕ} (X : (⟨1, ![n0]⟩ : Shape).Idx → EReal) (a : Fin n0) : EReal := X (ix1 a)

end Cert.Routing

end
-- ==== Proof.LibBlockSum.lean ====
/-
  A sum over the positions below n·b, taken block by block.

  Position b·s + r (r < b) is offset r of block s. Every position below n·b is such a pair exactly once, so in a
  commutative additive monoid the sum of the n block sums is the sum over all positions: no term is compared,
  cancelled or distributed, only regrouped, so this holds on the extended reals as on any such monoid.
-/
import Mathlib.Algebra.BigOperators.Fin
import Mathlib.Logic.Equiv.Fin.Basic

namespace Cert.BlockSum

/-- The n block sums of b consecutive terms add up to the one sum over the n·b positions. -/
theorem sum_blocks {β : Type*} [AddCommMonoid β] (n b : ℕ) (f : ℕ → β) :
    ∑ s ∈ Finset.range n, ∑ r : Fin b, f (b * s + r.val) = ∑ κ : Fin (n * b), f κ.val := by
  rw [Finset.sum_range, ← Equiv.sum_comp (finProdFinEquiv (m := n) (n := b)) (fun κ => f κ.val),
    Fintype.sum_prod_type]
  refine Finset.sum_congr rfl fun s _ => Finset.sum_congr rfl fun r _ => ?_
  show f (b * s.val + r.val) = f (r.val + b * s.val)
  rw [Nat.add_comm]

/-- Sixteen blocks of 256 make up the 4096 positions of the contracted axis. -/
theorem sum_16_blocks_of_256 {β : Type*} [AddCommMonoid β] (f : ℕ → β) :
    ∑ s ∈ Finset.range 16, ∑ r : Fin 256, f (256 * s + r.val) = ∑ κ : Fin 4096, f κ.val :=
  sum_blocks 16 256 f

end Cert.BlockSum
-- ==== Proof.KernelIdeal.ReduceValue.lean ====
/-
  What the token reduction leaves, read as mathematics (on the extended reals).

  The running sum after step n is, entry by entry, the sum of the weighted tokens of steps 0 … n, and the running count
  the number of their nonzero entries: by induction on the step, each step adding its own 128 tokens' column sums to what
  the step before left, the first to zero. Step 31 has then seen all 32 · 128 = 4096 tokens, in order, so its sum is the
  whole token sum and its count the whole nonzero count: a sum regrouped block by block, nothing else (no term is
  compared or distributed, so this holds on the extended reals as it does on any commutative monoid). The last step is
  the only one that writes the two result arrays back, and it writes them whole.
-/
import proofs.«158634_j71889162600594_1_alg».proof.Proof.KernelIdeal.ReduceData
import proofs.«158634_j71889162600594_1_alg».proof.Proof.Spec
import proofs.«158634_j71889162600594_1_alg».proof.Proof.LibBlockSum
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Reduce

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Routing

variable (V : (c : Dev nD) → (b : Ref sig .tc) → Buf (Elt Ideal) ((c : Thread nD τ).loc b))

/-- The token array and the weight array as the region finds them, at their literal types. -/
abbrev tokenArr (c : Dev nD) : Vec Ideal S4x4096x4096 .f32 := V c main_arg0
abbrev weightArr (c : Dev nD) : Vec Ideal S4x4096 .f32 := V c main_v1

/-! ## One step's arithmetic, entry by entry

The step multiplies each token by its weight (the weight copied along the feature axis), sums the 128 products of a
feature, and adds that to the running sum; for the count it first replaces each product by one or zero according to
whether it differs from zero. -/

/-- The weighted tokens of one step at an entry: the token's feature times the token's weight. -/
theorem pay3_apply (v3 : Vec Ideal S4x128x4096 .f32) (v4 : Vec Ideal S4x128 .f32) (b : Fin 4) (r : Fin 128) (d : Fin 4096) :
    k0_pay3 v3 v4 (ix3 b r d) = v3 (ix3 b r d) * v4 (ix2 b r) := by
  unfold k0_pay3
  show v3 (ix3 b r d) * _ = _
  congr 1
  refine (broadcastTo_apply _ _ (ix3 b r d) (ix3 b r (0 : Fin 1)) (fun a => ?_)).trans ?_
  · match a with
    | ⟨0, _⟩ => rfl
    | ⟨1, _⟩ => rfl
    | ⟨2, _⟩ => rfl
  · refine (shapeCast_apply _ _ (ix3 b r (0 : Fin 1)) (ix2 b r) ?_).trans ?_
    · rw [Shape.rowMajor_val_two, Shape.rowMajor_val_three]
      show b.val * 128 + r.val = (b.val * 128 + r.val) * 1 + 0
      omega
    · rw [shapeCast_self]

/-- The running sum after a step: what it held plus the step's 128 weighted tokens, feature by feature. -/
theorem pay4_apply (v3 : Vec Ideal S4x128x4096 .f32) (v4 : Vec Ideal S4x128 .f32) (v9 : Vec Ideal S4x4096 .f32)
    (b : Fin 4) (d : Fin 4096) :
    k0_pay4 v3 v4 v9 (ix2 b d) = v9 (ix2 b d) + ∑ r : Fin 128, v3 (ix3 b r d) * v4 (ix2 b r) := by
  unfold k0_pay4
  rw [shapeCast_self]
  show v9 (ix2 b d) + _ = _
  congr 1
  refine (Ideal.multiReduction_add_single (k0_pay3 v3 v4) 0x00000000#32 reduces_S4x128x4096_S4x4096 (.inl rfl) rfl (ix2 b d)).trans ?_
  refine Finset.sum_congr rfl fun r _ => ?_
  have e : reduces_S4x128x4096_S4x4096.lift (ix2 b d) r = ix3 b r d := by
    funext a
    match a with
    | ⟨0, _⟩ => rfl
    | ⟨1, _⟩ => rfl
    | ⟨2, _⟩ => rfl
  rw [e]
  exact pay3_apply v3 v4 b r d

/-- One entry of the nonzero test: the comparison with zero, widened and converted, is one for a nonzero entry and zero
    for a zero one. -/
theorem nonzero_entry (x : EReal) :
    (FloatOps.sitofp (F := Ideal) .f32 ((FloatOps.cmpf (F := Ideal) (φ := .f32) .one x (Scalar.ofBits (F := Ideal) .f32 0x00000000#32)).setWidth 32) : EReal)
      = nonzero x := by
  show (((BitVec.setWidth 32 (Ideal.cmp .one x (Ideal.ofBits .f32 0x00000000#32))).toInt : ℝ) : EReal) = nonzero x
  rw [Ideal.ofBits_zero_f32]
  unfold Ideal.cmp nonzero
  by_cases h : x = 0
  · subst h; simp
  · simp [h]

/-- The running count after a step: what it held plus the number of the step's weighted tokens that are not zero. -/
theorem pay5_apply (v3 : Vec Ideal S4x128x4096 .f32) (v4 : Vec Ideal S4x128 .f32) (v15 : Vec Ideal S4x4096 .f32)
    (b : Fin 4) (d : Fin 4096) :
    k0_pay5 v3 v4 v15 (ix2 b d) = v15 (ix2 b d) + ∑ r : Fin 128, nonzero (v3 (ix3 b r d) * v4 (ix2 b r)) := by
  unfold k0_pay5
  rw [shapeCast_self]
  show v15 (ix2 b d) + _ = _
  congr 1
  refine (Ideal.multiReduction_add_single _ 0x00000000#32 reduces_S4x128x4096_S4x4096 (.inl rfl) rfl (ix2 b d)).trans ?_
  refine Finset.sum_congr rfl fun r _ => ?_
  have e : reduces_S4x128x4096_S4x4096.lift (ix2 b d) r = ix3 b r d := by
    funext a
    match a with
    | ⟨0, _⟩ => rfl
    | ⟨1, _⟩ => rfl
    | ⟨2, _⟩ => rfl
  rw [e]
  exact (nonzero_entry (k0_pay3 v3 v4 (ix3 b r d))).trans (congrArg nonzero (pay3_apply v3 v4 b r d))

/-- Both running arrays start from the zero array. -/
theorem pay1_apply (b : Fin 4) (d : Fin 4096) : (k0_pay1 (F := Ideal)) (ix2 b d) = 0 := by
  unfold k0_pay1
  rw [shapeCast_self]
  exact Ideal.ofBits_zero_f32
theorem pay2_apply (b : Fin 4) (d : Fin 4096) : (k0_pay2 (F := Ideal)) (ix2 b d) = 0 := by
  unfold k0_pay2
  rw [shapeCast_self]
  exact Ideal.ofBits_zero_f32

/-! ## A step's block inside the arrays

Along the sequence axis block t starts at position 128 t; the other axes are not cut. -/

/-- Where step t's blocks sit: the token block at block index (0, t, 0), the weight block at (0, t). -/
theorem tok_index : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem wt_index : ∀ t : Fin cfg0.N, win0_1.index t 0 = 0 ∧ win0_1.index t 1 = t.val :=
  (by decide +kernel : ∀ t : Fin grid0.N, win0_1.index t 0 = 0 ∧ win0_1.index t 1 = t.val)

/-- Token r of step t is token 128 t + r of the array. -/
theorem tokens_apply (c : Dev nD) (t : Fin cfg0.N) (b : Fin 4) (r : Fin 128) (d : Fin 4096) (s : Fin 4096)
    (hs : s.val = 128 * t.val + r.val) :
    tokens V c t (ix3 b r d) = tokenArr V c (ix3 b s d) := by
  obtain ⟨h0, h1, h2⟩ := tok_index t
  unfold tokens iblk
  rw [View.read_apply]
  show V c main_arg0 _ = V c main_arg0 _
  congr 1
  funext a
  apply Fin.ext
  match a with
  | ⟨0, _⟩ => show win0_0.index t 0 * 4 + 1 * b.val = b.val; rw [h0]; omega
  | ⟨1, _⟩ => show win0_0.index t 1 * 128 + 1 * r.val = s.val; rw [h1, hs]; omega
  | ⟨2, _⟩ => show win0_0.index t 2 * 4096 + 1 * d.val = d.val; rw [h2]; omega

/-- and its weight is weight 128 t + r of the array. -/
theorem weights_apply (c : Dev nD) (t : Fin cfg0.N) (b : Fin 4) (r : Fin 128) (s : Fin 4096)
    (hs : s.val = 128 * t.val + r.val) :
    weights V c t (ix2 b r) = weightArr V c (ix2 b s) := by
  obtain ⟨h0, h1⟩ := wt_index t
  unfold weights iblk
  rw [View.read_apply]
  show V c main_v1 _ = V c main_v1 _
  congr 1
  funext a
  apply Fin.ext
  match a with
  | ⟨0, _⟩ => show win0_1.index t 0 * 4 + 1 * b.val = b.val; rw [h0]; omega
  | ⟨1, _⟩ => show win0_1.index t 1 * 128 + 1 * r.val = s.val; rw [h1, hs]; omega

/-! ## The running arrays after step n, by induction on the step -/

/-- The weighted token at flat sequence position κ of row b, feature d (zero past the sequence's end, a position no sum
    below reaches), and whether it is nonzero. -/
def termS (c : Dev nD) (b : Fin 4) (d : Fin 4096) (κ : ℕ) : EReal :=
  if h : κ < 4096 then at3 (tokenArr V c) b ⟨κ, h⟩ d * at2 (weightArr V c) b ⟨κ, h⟩ else 0
def termC (c : Dev nD) (b : Fin 4) (d : Fin 4096) (κ : ℕ) : EReal :=
  if h : κ < 4096 then nonzero (at3 (tokenArr V c) b ⟨κ, h⟩ d * at2 (weightArr V c) b ⟨κ, h⟩) else 0

/-- Offset r of step t's block is flat position 128 t + r. -/
theorem step_term (c : Dev nD) (t : Fin cfg0.N) (b : Fin 4) (d : Fin 4096) (r : Fin 128) :
    tokens V c t (ix3 b r d) * weights V c t (ix2 b r) = termS V c b d (128 * t.val + r.val) := by
  have hN : cfg0.N = 32 := N_0
  have hlt : 128 * t.val + r.val < 4096 := by have := t.isLt; have := r.isLt; omega
  unfold termS
  rw [dif_pos hlt, tokens_apply V c t b r d ⟨_, hlt⟩ rfl, weights_apply V c t b r ⟨_, hlt⟩ rfl]
  rfl

theorem step_termC (c : Dev nD) (t : Fin cfg0.N) (b : Fin 4) (d : Fin 4096) (r : Fin 128) :
    nonzero (tokens V c t (ix3 b r d) * weights V c t (ix2 b r)) = termC V c b d (128 * t.val + r.val) := by
  have hN : cfg0.N = 32 := N_0
  have hlt : 128 * t.val + r.val < 4096 := by have := t.isLt; have := r.isLt; omega
  unfold termC
  rw [dif_pos hlt, tokens_apply V c t b r d ⟨_, hlt⟩ rfl, weights_apply V c t b r ⟨_, hlt⟩ rfl]
  rfl

/-- After step n the running sum is, entry by entry, the sum of the weighted tokens of blocks 0 … n. -/
theorem acc_sum (c : Dev nD) (b : Fin 4) (d : Fin 4096) : ∀ (n : ℕ) (h : n < cfg0.N),
    (accAt V c n h).1 (ix2 b d) = ∑ s ∈ Finset.range (n + 1), ∑ r : Fin 128, termS V c b d (128 * s + r.val)
  | 0, h => by
    rw [accAt_zero]
    dsimp only
    refine (pay4_apply (tokens V c ⟨0, h⟩) (weights V c ⟨0, h⟩) (k0_pay1 (F := Ideal)) b d).trans ?_
    rw [pay1_apply, zero_add, Finset.sum_range_one]
    exact Finset.sum_congr rfl fun r _ => step_term V c ⟨0, h⟩ b d r
  | n + 1, h => by
    rw [accAt_succ]
    dsimp only
    refine (pay4_apply (tokens V c ⟨n + 1, h⟩) (weights V c ⟨n + 1, h⟩) (accAt V c n (Nat.lt_of_succ_lt h)).1 b d).trans ?_
    rw [acc_sum c b d n (Nat.lt_of_succ_lt h), Finset.sum_range_succ _ (n + 1)]
    congr 1
    exact Finset.sum_congr rfl fun r _ => step_term V c ⟨n + 1, h⟩ b d r

/-- and the running count the number of their nonzero entries. -/
theorem acc_count (c : Dev nD) (b : Fin 4) (d : Fin 4096) : ∀ (n : ℕ) (h : n < cfg0.N),
    (accAt V c n h).2 (ix2 b d) = ∑ s ∈ Finset.range (n + 1), ∑ r : Fin 128, termC V c b d (128 * s + r.val)
  | 0, h => by
    rw [accAt_zero]
    dsimp only
    refine (pay5_apply (tokens V c ⟨0, h⟩) (weights V c ⟨0, h⟩) (k0_pay2 (F := Ideal)) b d).trans ?_
    rw [pay2_apply, zero_add, Finset.sum_range_one]
    exact Finset.sum_congr rfl fun r _ => step_termC V c ⟨0, h⟩ b d r
  | n + 1, h => by
    rw [accAt_succ]
    dsimp only
    refine (pay5_apply (tokens V c ⟨n + 1, h⟩) (weights V c ⟨n + 1, h⟩) (accAt V c n (Nat.lt_of_succ_lt h)).2 b d).trans ?_
    rw [acc_count c b d n (Nat.lt_of_succ_lt h), Finset.sum_range_succ _ (n + 1)]
    congr 1
    exact Finset.sum_congr rfl fun r _ => step_termC V c ⟨n + 1, h⟩ b d r

/-- The two results as arrays: the token sum and the nonzero count, entry by entry. -/
abbrev sumG (c : Dev nD) : S4x4096.Idx → EReal :=
  fun i => tokenSum (at3 (tokenArr V c)) (at2 (weightArr V c)) (i 0) (i 1)
abbrev countG (c : Dev nD) : S4x4096.Idx → EReal :=
  fun i => nonzeroCount (at3 (tokenArr V c)) (at2 (weightArr V c)) (i 0) (i 1)

/-- Step 31 has seen all 32 blocks of 128 tokens: regrouped, its sum is the sum over the 4096 tokens. -/
theorem acc_last_sum (c : Dev nD) (h : 31 < cfg0.N) : (accAt V c 31 h).1 = sumG V c := by
  funext i
  obtain ⟨b, d, rfl⟩ : ∃ (b : Fin 4) (d : Fin 4096), i = ix2 b d := ⟨i 0, i 1, eq_ix2 i⟩
  rw [acc_sum V c b d 31 h, Cert.BlockSum.sum_blocks 32 128 (termS V c b d)]
  show ∑ κ : Fin 4096, termS V c b d κ.val = ∑ s : Fin 4096, at3 (tokenArr V c) b s d * at2 (weightArr V c) b s
  refine Finset.sum_congr rfl fun κ _ => ?_
  unfold termS
  rw [dif_pos κ.isLt]

theorem acc_last_count (c : Dev nD) (h : 31 < cfg0.N) : (accAt V c 31 h).2 = countG V c := by
  funext i
  obtain ⟨b, d, rfl⟩ : ∃ (b : Fin 4) (d : Fin 4096), i = ix2 b d := ⟨i 0, i 1, eq_ix2 i⟩
  rw [acc_count V c b d 31 h, Cert.BlockSum.sum_blocks 32 128 (termC V c b d)]
  show ∑ κ : Fin 4096, termC V c b d κ.val = ∑ s : Fin 4096, nonzero (at3 (tokenArr V c) b s d * at2 (weightArr V c) b s)
  refine Finset.sum_congr rfl fun κ _ => ?_
  unfold termC
  rw [dif_pos κ.isLt]

/-! ## The write-back

Only step 31 writes the result arrays back, each through a block that is the whole array at offset zero; so what the
arrays hold after the region is what step 31 left in the staging buffers. -/

/-- The result windows' one block is the whole array: its block index is zero on both axes and it is not cut. -/
theorem res_index : ∀ t : Fin cfg0.N, (win0_2.index t 0 = 0 ∧ win0_2.index t 1 = 0) ∧ (win0_3.index t 0 = 0 ∧ win0_3.index t 1 = 0) :=
  (by decide +kernel : ∀ t : Fin grid0.N, (win0_2.index t 0 = 0 ∧ win0_2.index t 1 = 0) ∧ (win0_3.index t 0 = 0 ∧ win0_3.index t 1 = 0))
theorem res_xsize : ∀ t : Fin cfg0.N, (win0_2.xsize (grid0.coords t) 0 = 4 ∧ win0_2.xsize (grid0.coords t) 1 = 4096)
      ∧ (win0_3.xsize (grid0.coords t) 0 = 4 ∧ win0_3.xsize (grid0.coords t) 1 = 4096) :=
  (by decide +kernel : ∀ t : Fin grid0.N, (win0_2.xsize (grid0.coords t) 0 = 4 ∧ win0_2.xsize (grid0.coords t) 1 = 4096)
      ∧ (win0_3.xsize (grid0.coords t) 0 = 4 ∧ win0_3.xsize (grid0.coords t) 1 = 4096))

/-- The last step. -/
def tLast : Fin cfg0.N := ⟨31, by rw [show cfg0.N = 32 from N_0]; decide⟩

/-- The one write-back of the first result window, at step 31, writes the token sum: its block read through zero
    offsets is the array. -/
theorem flushed_sum (c : Dev nD) (t : Fin cfg0.N) (hf : (cfg0.win 2).flush t = true) :
    (dat V c).flushed 2 t = ((cfg0.win 2).blk t).view.read (Elt Ideal) (sumG V c) := by
  have hN : cfg0.N = 32 := N_0
  have h31 : t.val = 31 := by have := (flush0_2 t).mp hf; have := t.isLt; omega
  obtain rfl : t = tLast := Fin.ext h31
  show (cfg0.win 2).cut (grid0.coords tLast) ((dat V c).after 2 tLast) = _
  rw [after_2, show (accAt V c tLast.val tLast.isLt).1 = sumG V c from acc_last_sum V c tLast.isLt]
  have hz' : (fun a => win0_2.index tLast a * main_v2_0.ty.shape.size a) = fun _ => 0 := funext fun a => by
    match a with
    | ⟨0, _⟩ => show win0_2.index tLast 0 * 4 = 0; rw [(res_index tLast).1.1]
    | ⟨1, _⟩ => show win0_2.index tLast 1 * 4096 = 0; rw [(res_index tLast).1.2]
  exact (Memref.read_access_unit_zero (Elt Ideal) main_v2_0 hz' (fun a => by rw [congrFun hz' a]; simp) (sumG V c)).symm

theorem flushed_count (c : Dev nD) (t : Fin cfg0.N) (hf : (cfg0.win 3).flush t = true) :
    (dat V c).flushed 3 t = ((cfg0.win 3).blk t).view.read (Elt Ideal) (countG V c) := by
  have hN : cfg0.N = 32 := N_0
  have h31 : t.val = 31 := by have := (flush0_3 t).mp hf; have := t.isLt; omega
  obtain rfl : t = tLast := Fin.ext h31
  show (cfg0.win 3).cut (grid0.coords tLast) ((dat V c).after 3 tLast) = _
  rw [after_3, show (accAt V c tLast.val tLast.isLt).2 = countG V c from acc_last_count V c tLast.isLt]
  have hz' : (fun a => win0_3.index tLast a * main_v2_1.ty.shape.size a) = fun _ => 0 := funext fun a => by
    match a with
    | ⟨0, _⟩ => show win0_3.index tLast 0 * 4 = 0; rw [(res_index tLast).2.1]
    | ⟨1, _⟩ => show win0_3.index tLast 1 * 4096 = 0; rw [(res_index tLast).2.2]
  exact (Memref.read_access_unit_zero (Elt Ideal) main_v2_1 hz' (fun a => by rw [congrFun hz' a]; simp) (countG V c)).symm

/-- After the region the first result array holds the token sum of the arrays the region was entered with. -/
theorem sum_final (c : Dev nD) :
    (dat V c).arrAt 2 cfg0.N = (fun i : S4x4096.Idx => tokenSum (at3 (tokenArr V c)) (at2 (weightArr V c)) (i 0) (i 1)) :=
  (dat V c).arrAt_eq_of_cover 2 (sumG V c) (flushed_sum V c) fun i =>
    ⟨tLast, (flush0_2 tLast).mpr rfl, by
      show i ∈ ((View.whole main_v2_0).slice (win0_2.rect tLast)).set
      rw [View.set_slice_whole, Rect.mem_set_unit]
      intro a
      have h0 : (i 0 : Nat) < 4 := (i 0).isLt
      have h1 : (i 1 : Nat) < 4096 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [(res_index tLast).1.1, (res_xsize tLast).1.1]; omega
      | ⟨1, _⟩ => show win0_2.index tLast 1 * win0_2.size 1 ≤ (i 1 : Nat) ∧ (i 1 : Nat) < win0_2.index tLast 1 * win0_2.size 1 + win0_2.xsize (grid0.coords tLast) 1
                  rw [(res_index tLast).1.2, (res_xsize tLast).1.2]; omega⟩

/-- and the second the nonzero count. -/
theorem count_final (c : Dev nD) :
    (dat V c).arrAt 3 cfg0.N = (fun i : S4x4096.Idx => nonzeroCount (at3 (tokenArr V c)) (at2 (weightArr V c)) (i 0) (i 1)) :=
  (dat V c).arrAt_eq_of_cover 3 (countG V c) (flushed_count V c) fun i =>
    ⟨tLast, (flush0_3 tLast).mpr rfl, by
      show i ∈ ((View.whole main_v2_1).slice (win0_3.rect tLast)).set
      rw [View.set_slice_whole, Rect.mem_set_unit]
      intro a
      have h0 : (i 0 : Nat) < 4 := (i 0).isLt
      have h1 : (i 1 : Nat) < 4096 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [(res_index tLast).2.1, (res_xsize tLast).2.1]; omega
      | ⟨1, _⟩ => show win0_3.index tLast 1 * win0_3.size 1 ≤ (i 1 : Nat) ∧ (i 1 : Nat) < win0_3.index tLast 1 * win0_3.size 1 + win0_3.xsize (grid0.coords tLast) 1
                  rw [(res_index tLast).2.2, (res_xsize tLast).2.2]; omega⟩

end Cert.KernelIdeal.Reduce

end
-- ==== Proof.KernelIdeal.RowReads.lean ====
/-
  Rows and columns of a matrix read at coordinates, on the extended reals.

  A sum along the rows of an n × m matrix, read at row r, is the sum over the m entries of that row, and a maximum
  along the rows is the fold of max over them, started from the value the accumulator's word denotes. A vector of
  length n laid out as an n × 1 column has the vector's entry r in row r, and such a column repeated along each row
  of an n × m matrix puts the column's entry r everywhere in row r. The transcendental operations act entry by entry.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Finalize

open Idealize.ShloMosaic Idealize.ShloMosaic.ValueIdx

variable {n m : ℕ}

/-- Row r's index with the column d put back on the reduced axis is the entry (r, d). -/
theorem lift_row (h : (⟨2, ![n, m]⟩ : Shape).Reduces [1] ⟨1, ![n]⟩) (r : Fin n) (d : Fin m) :
    h.lift (ix1 r) d = ix2 r d := by
  funext c
  match c with
  | ⟨0, _⟩ => rfl
  | ⟨1, _⟩ => rfl

/-- A sum along the rows, at row r: the sum of the row's entries. -/
theorem rowSum_apply (src : FVec Ideal ⟨2, ![n, m]⟩ .f32) (h : (⟨2, ![n, m]⟩ : Shape).Reduces [1] ⟨1, ![n]⟩)
    (hφ : FKind.Formats .f32) (hacc : (0x00000000#32 : BitVec 32) = FKind.add.neutral .f32 hφ) (r : Fin n) :
    multiReduction .add [1] ⟨1, ![n]⟩ src 0x00000000#32 h hφ hacc (ix1 r) = ∑ d : Fin m, src (ix2 r d) := by
  refine (Ideal.multiReduction_add_single src _ h hφ hacc (ix1 r)).trans ?_
  exact Finset.sum_congr rfl fun d _ => congrArg src (lift_row h r d)

/-- A maximum along the rows, at row r: the fold of max over the row's entries, from the accumulator's value. -/
theorem rowMax_apply (src : FVec Ideal ⟨2, ![n, m]⟩ .f32) (acc : BitVec 32) (h : (⟨2, ![n, m]⟩ : Shape).Reduces [1] ⟨1, ![n]⟩)
    (hφ : FKind.Formats .f32) (hacc : acc = FKind.maximumf.neutral .f32 hφ) (r : Fin n) :
    multiReduction .maximumf [1] ⟨1, ![n]⟩ src acc h hφ hacc (ix1 r)
      = (Finset.univ : Finset (Fin m)).fold max (Ideal.ofBits .f32 acc) (fun k => src (ix2 r k)) := by
  refine (Ideal.multiReduction_maximumf_single src acc h hφ hacc (ix1 r)).trans ?_
  exact congrArg (Finset.univ.fold max (Ideal.ofBits .f32 acc)) (funext fun k => congrArg src (lift_row h r k))

/-- The row sum again, with the accumulator's side condition stated as the body states it: the zero word equals
    itself (the word a sum starts from is the zero word). -/
theorem rowSum_rw (src : FVec Ideal ⟨2, ![n, m]⟩ .f32) (h : (⟨2, ![n, m]⟩ : Shape).Reduces [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ d : Fin m, src (ix2 r d) :=
  rowSum_apply src h hφ hacc r

/-- The row maximum started from the word of minus infinity, its side condition stated as the body states it: that
    word equals itself (the word a maximum starts from is minus infinity's). -/
theorem rowMax_rw (src : FVec Ideal ⟨2, ![n, m]⟩ .f32) (h : (⟨2, ![n, m]⟩ : Shape).Reduces [1] ⟨1, ![n]⟩)
    (hφ : FKind.Formats .f32) (hacc : (0xFF800000#32 : BitVec 32) = 0xFF800000#32) (r : Fin n) :
    multiReduction .maximumf [1] ⟨1, ![n]⟩ src 0xFF800000#32 h hφ hacc (ix1 r)
      = (Finset.univ : Finset (Fin m)).fold max (Ideal.ofBits .f32 0xFF800000#32) (fun k => src (ix2 r k)) :=
  rowMax_apply src 0xFF800000#32 h hφ hacc r

/-- A vector laid out as a column: row r of the column is the vector's entry r. -/
theorem colCast_apply {α : Type} (v : (⟨1, ![n]⟩ : Shape).Idx → α) (h : (⟨1, ![n]⟩ : Shape).ShapeCasts ⟨2, ![n, 1]⟩)
    (r : Fin n) (u : Fin 1) : shapeCast ⟨2, ![n, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A column repeated along each row: every entry of row r is the column's entry r. -/
theorem colBcast_apply {α : Type} (v : (⟨2, ![n, 1]⟩ : Shape).Idx → α) (h : (⟨2, ![n, 1]⟩ : Shape).Broadcasts ⟨2, ![n, m]⟩)
    (r : Fin n) (d : Fin m) : broadcastTo ⟨2, ![n, m]⟩ v h (ix2 r d) = v (ix2 r (0 : Fin 1)) := by
  refine broadcastTo_apply v h (ix2 r d) (ix2 r (0 : Fin 1)) fun ax => ?_
  match ax with
  | ⟨0, _⟩ =>
    show r.val = if n = 1 then 0 else r.val
    split
    · have := r.isLt; omega
    · rfl
  | ⟨1, _⟩ =>
    show (0 : ℕ) = if (1 : ℕ) = 1 then 0 else d.val
    rw [if_pos rfl]

/-- The inverse square root of a vector, entry by entry. -/
theorem rsqrt_apply {s : Shape} (a : FVec Ideal s .f32) (i : s.Idx) : rsqrt a i = Ideal.rsqrt (a i) := rfl
/-- The exponential of a vector, entry by entry. -/
theorem exp_apply {s : Shape} (a : FVec Ideal s .f32) (i : s.Idx) : exp a i = Ideal.exp (a i) := rfl
/-- A scalar constant is the extended real its word denotes. -/
theorem scalar_ofBits (w : BitVec 32) : (Scalar.ofBits (F := Ideal) .f32 w) = Ideal.ofBits .f32 w := rfl

end Cert.KernelIdeal.Finalize

end
-- ==== Proof.KernelIdeal.InputNorm.lean ====
/-
  The normalised average of the router tail, read at an entry.

  From the token sum and the nonzero count the body forms their quotient, the row's averaged input; takes each row's
  mean (the row sum over the word of 4096) off it; takes the mean of the squares of what is left, the row's variance;
  and scales the centred row by the inverse root of the variance plus the small constant, then applies the affine map
  per feature. Read at row b and feature d, each step is the specification's: the row sums are sums over the 4096
  features, the mean and the inverse root are columns repeated along their rows, the affine map's two vectors are rows
  repeated down the matrix.
-/
import proofs.«158634_j71889162600594_1_alg».proof.Proof.Gen.KernelIdeal.Skeleton
import proofs.«158634_j71889162600594_1_alg».proof.Proof.Spec
import proofs.«158634_j71889162600594_1_alg».proof.Proof.KernelIdeal.RowReads

set_option maxRecDepth 16384

noncomputable section

open scoped BigOperators

namespace Cert.KernelIdeal.Finalize

open Idealize.ShloMosaic Idealize.ShloMosaic.ValueIdx
open Cert.KernelIdeal Cert.KernelIdeal.Gen Cert.Routing

/-- The normalised average at (b, d) is the specification's normalisation of the average of sum and count. -/
theorem inputNorm_apply (x0 x1 : Vec Ideal S4x4096 .f32) (x2 x3 : Vec Ideal S4096 .f32) (b : Fin 4) (d : Fin 4096) :
    k1_pay2 (F := Ideal) x0 x1 x2 x3 (ix2 b d) = layerNorm (average (at2 x0) (at2 x1)) (at1 x2) (at1 x3) b d := by
  unfold k1_pay2
  simp only [rowSum_rw (n := 4) (m := 4096), addf_apply, mulf_apply, subf_apply, divf_apply, rsqrt_apply, broadcast_apply,
    shapeCast_self, colBcast_apply, colCast_apply, broadcastTo_1b_ab_apply, shapeCast_a_1a_apply, Ideal.ofBits_def]
  rfl

end Cert.KernelIdeal.Finalize

end
-- ==== Proof.KernelIdeal.WeightStats.lean ====
/-
  The statistics of the router's weight rows, read at a row.

  The body keeps three columns of length 8 for the weight normalisation: each row's mean (its sum over the 4096
  features, over the word of 4096), the sum of the squares of each centred row, and the word of 4096 itself. Read at
  row k they are the specification's row mean, the sum its variance divides, and the feature count.
-/
import proofs.«158634_j71889162600594_1_alg».proof.Proof.Gen.KernelIdeal.Skeleton
import proofs.«158634_j71889162600594_1_alg».proof.Proof.Spec
import proofs.«158634_j71889162600594_1_alg».proof.Proof.KernelIdeal.RowReads

set_option maxRecDepth 16384

noncomputable section

open scoped BigOperators

namespace Cert.KernelIdeal.Finalize

open Idealize.ShloMosaic Idealize.ShloMosaic.ValueIdx
open Cert.KernelIdeal Cert.KernelIdeal.Gen Cert.Routing

/-- The mean column at row k is the mean of weight row k. -/
theorem weightMean_apply (x6 : Vec Ideal S8x4096 .f32) (k : Fin 8) (u : Fin 1) :
    k1_pay3 (F := Ideal) x6 (ix2 k u) = rowMean (at2 x6) k := by
  unfold k1_pay3
  simp only [rowSum_rw (n := 8) (m := 4096), divf_apply, broadcast_apply, colCast_apply, Ideal.ofBits_def]
  rfl

/-- The squares column at row k is the sum of the squares of the centred weight row k. -/
theorem weightSquares_apply (x6 : Vec Ideal S8x4096 .f32) (k : Fin 8) (u : Fin 1) :
    k1_pay4 (F := Ideal) x6 (ix2 k u) = ∑ d : Fin 4096, centred (at2 x6) k d * centred (at2 x6) k d := by
  unfold k1_pay4
  simp only [rowSum_rw (n := 8) (m := 4096), colCast_apply, mulf_apply, subf_apply, colBcast_apply, weightMean_apply]
  rfl

/-- The count column is the feature count in every row. -/
theorem featureCount_apply (k : Fin 8) (u : Fin 1) : k1_pay5 (F := Ideal) (ix2 k u) = featureCount := by
  unfold k1_pay5
  rfl

end Cert.KernelIdeal.Finalize

end
-- ==== Proof.KernelIdeal.Product.lean ====
/-
  The matrix product of the router tail, read at an entry.

  The body multiplies a 4 × 4096 matrix by an 8 × 4096 one, contracting the second axis of both, into an accumulator
  that starts at zero. On the extended reals the entry (b, k) of the result is the sum over the 4096 features d of
  the entry (b, d) of the first times the entry (k, d) of the second: the product's operand indices at a result index
  and a contraction coordinate are those two entries, and the contraction index is its one coordinate.
-/
import proofs.«158634_j71889162600594_1_alg».proof.Proof.Gen.KernelIdeal
import Idealize.ShloMosaic.Lib.ValueIdx
import Idealize.ShloMosaic.PureOps.Ideal.Laws

noncomputable section

open scoped BigOperators

namespace Cert.KernelIdeal.Finalize

open Idealize.ShloMosaic Idealize.ShloMosaic.ValueIdx
open Cert.KernelIdeal Cert.KernelIdeal.Gen

/-- The left operand's row is the result's row. -/
theorem prod_lhs_0 (i : S4x8.Idx) (q : dot_S4x4096_S8x4096_S4x8_1_1_0_0_n_n.contr.Idx) :
    (dot_S4x4096_S8x4096_S4x8_1_1_0_0_n_n.lhsIdx i q 0).val = (i 0).val := by
  unfold DotDims.lhsIdx
  rw [dif_neg (show ¬(0 : Fin S4x4096.rank) ∈ dot_S4x4096_S8x4096_S4x8_1_1_0_0_n_n.lhsBatch by decide), dif_pos (show (0 : Fin S4x4096.rank) ∈ dot_S4x4096_S8x4096_S4x8_1_1_0_0_n_n.lhsNonContracting by decide)]
  rfl
/-- The left operand's column is the contraction coordinate. -/
theorem prod_lhs_1 (i : S4x8.Idx) (q : dot_S4x4096_S8x4096_S4x8_1_1_0_0_n_n.contr.Idx) :
    (dot_S4x4096_S8x4096_S4x8_1_1_0_0_n_n.lhsIdx i q 1).val = (q ⟨0, by decide⟩).val :=
  dot_S4x4096_S8x4096_S4x8_1_1_0_0_n_n.lhsIdx_val_of_single rfl i q
/-- The right operand's row is the result's column. -/
theorem prod_rhs_0 (i : S4x8.Idx) (q : dot_S4x4096_S8x4096_S4x8_1_1_0_0_n_n.contr.Idx) :
    (dot_S4x4096_S8x4096_S4x8_1_1_0_0_n_n.rhsIdx i q 0).val = (i 1).val := by
  unfold DotDims.rhsIdx
  rw [dif_neg (show ¬(0 : Fin S8x4096.rank) ∈ dot_S4x4096_S8x4096_S4x8_1_1_0_0_n_n.rhsBatch by decide), dif_pos (show (0 : Fin S8x4096.rank) ∈ dot_S4x4096_S8x4096_S4x8_1_1_0_0_n_n.rhsNonContracting by decide)]
  rfl
/-- The right operand's column is the contraction coordinate. -/
theorem prod_rhs_1 (i : S4x8.Idx) (q : dot_S4x4096_S8x4096_S4x8_1_1_0_0_n_n.contr.Idx) :
    (dot_S4x4096_S8x4096_S4x8_1_1_0_0_n_n.rhsIdx i q 1).val = (q ⟨0, by decide⟩).val :=
  dot_S4x4096_S8x4096_S4x8_1_1_0_0_n_n.rhsIdx_val_of_single rfl i q

/-- The product into the zero accumulator, at entry (b, k): the sum over the features of the two rows' products. -/
theorem product_apply (H : FVec Ideal S4x4096 .f32) (W : FVec Ideal S8x4096 .f32) (b : Fin 4) (k : Fin 8) :
    matmul dot_S4x4096_S8x4096_S4x8_1_1_0_0_n_n (some .fp32) H W (constant (F := Ideal) S4x8 .f32 0x00000000#32) (ix2 b k)
      = ∑ d : Fin 4096, H (ix2 b d) * W (ix2 k d) := by
  simp only [matmul]
  rw [Ideal.matmul_constant_zero_apply, ← Equiv.sum_comp (contrEquiv1 dot_S4x4096_S8x4096_S4x8_1_1_0_0_n_n 4096 rfl rfl).symm]
  refine Finset.sum_congr rfl fun d _ => ?_
  have hd := contrEquiv1_symm_val dot_S4x4096_S8x4096_S4x8_1_1_0_0_n_n 4096 rfl rfl d
  have el : dot_S4x4096_S8x4096_S4x8_1_1_0_0_n_n.lhsIdx (ix2 b k) ((contrEquiv1 dot_S4x4096_S8x4096_S4x8_1_1_0_0_n_n 4096 rfl rfl).symm d) = ix2 b d := funext fun a => Fin.ext (by
    match a with
    | ⟨0, _⟩ => exact prod_lhs_0 _ _
    | ⟨1, _⟩ => exact (prod_lhs_1 _ _).trans hd)
  have er : dot_S4x4096_S8x4096_S4x8_1_1_0_0_n_n.rhsIdx (ix2 b k) ((contrEquiv1 dot_S4x4096_S8x4096_S4x8_1_1_0_0_n_n 4096 rfl rfl).symm d) = ix2 k d := funext fun a => Fin.ext (by
    match a with
    | ⟨0, _⟩ => exact prod_rhs_0 _ _
    | ⟨1, _⟩ => exact (prod_rhs_1 _ _).trans hd)
  rw [el, er]

end Cert.KernelIdeal.Finalize

end
-- ==== Proof.KernelIdeal.SoftmaxTail.lean ====
/-
  From the two normalised matrices to the routing distribution, read at an entry.

  The last stretch of the body finishes the weight normalisation from the three columns it was handed (each weight
  row's mean, the sum of its centred squares, the feature count): it centres the row, scales it by the inverse root of
  squares over count plus the small constant, and applies the affine map per feature. It multiplies the normalised
  input by the normalised weights, contracting the features, adds the bias per skill and divides by the temperature:
  the logits. It takes each row's maximum — the fold of max from minus infinity over the 8 skills, then once more
  against minus infinity —, subtracts it, exponentiates, and divides by the row's sum of exponentials. Read at row b and
  skill k this is the specification's softmax of its logits, whatever the handed columns hold.
-/
import proofs.«158634_j71889162600594_1_alg».proof.Proof.Gen.KernelIdeal.Skeleton
import proofs.«158634_j71889162600594_1_alg».proof.Proof.Spec
import proofs.«158634_j71889162600594_1_alg».proof.Proof.KernelIdeal.RowReads
import proofs.«158634_j71889162600594_1_alg».proof.Proof.KernelIdeal.Product

set_option maxRecDepth 16384

noncomputable section

open scoped BigOperators

namespace Cert.KernelIdeal.Finalize

open Idealize.ShloMosaic Idealize.ShloMosaic.ValueIdx
open Cert.KernelIdeal Cert.KernelIdeal.Gen Cert.Routing

/-- A weight matrix normalised from handed statistics: row k centred by the mean column's entry k, scaled by the
    inverse root of (squares column over count column, plus the small constant) at k, then the affine map (w, β). -/
def normRow (R : (⟨2, ![8, 4096]⟩ : Shape).Idx → EReal) (μ q c : (⟨2, ![8, 1]⟩ : Shape).Idx → EReal)
    (w β : (⟨1, ![4096]⟩ : Shape).Idx → EReal) (k : Fin 8) (d : Fin 4096) : EReal :=
  (R (ix2 k d) - μ (ix2 k (0 : Fin 1))) * Ideal.rsqrt (Ideal.div (q (ix2 k (0 : Fin 1))) (c (ix2 k (0 : Fin 1))) + varEps)
    * w (ix1 d) + β (ix1 d)

/-- The tail at (b, k): the softmax of the logits of the normalised input H against the weights normalised from the
    handed statistics. -/
theorem tail_apply (H : FVec Ideal S4x4096 .f32) (R : Vec Ideal S8x4096 .f32) (μ q c : FVec Ideal S8x1 .f32)
    (w β : Vec Ideal S4096 .f32) (fb : Vec Ideal S8 .f32) (b : Fin 4) (k : Fin 8) :
    k1_pay1 (F := Ideal) H R μ q c w β fb (ix2 b k) = softmax (logit (at2 H) (normRow R μ q c w β) (at1 fb)) b k := by
  unfold k1_pay1
  simp only [rowSum_rw (n := 4) (m := 8), rowMax_rw (n := 4) (m := 8), product_apply, addf_apply, mulf_apply, subf_apply,
    divf_apply, maximumf_apply, rsqrt_apply, exp_apply, broadcast_apply, colBcast_apply, colCast_apply,
    broadcastTo_1b_ab_apply, shapeCast_a_1a_apply, Ideal.ofBits_def]
  rfl

end Cert.KernelIdeal.Finalize

end
-- ==== Proof.KernelIdeal.FinalizeValue.lean ====
/-
  What the router tail leaves, read as mathematics (on the extended reals).

  The body's one store is, entry (b, k), the softmax over k of the logits of row b: the product of the normalised
  average of row b with the normalised weight row k, plus the bias, over the temperature. Each piece of the body's
  arithmetic — a row sum, a broadcast of a column down a row, the matrix product contracted over the 4096 features —
  read at an index is the corresponding piece of the specification.

  The region has one step, at which every window's one block is its whole array (each block index is zero on each
  axis, so a block's element sits at zero times the block's extent plus its own coordinate). So the step's input
  blocks are the arrays the region was entered with, what the step writes back is the whole routing distribution,
  and that one write-back covers the output array.
-/
import proofs.«158634_j71889162600594_1_alg».proof.Proof.KernelIdeal.FinalizeData
import proofs.«158634_j71889162600594_1_alg».proof.Proof.Spec
import proofs.«158634_j71889162600594_1_alg».proof.Proof.KernelIdeal.InputNorm
import proofs.«158634_j71889162600594_1_alg».proof.Proof.KernelIdeal.WeightStats
import proofs.«158634_j71889162600594_1_alg».proof.Proof.KernelIdeal.SoftmaxTail
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Finalize

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Routing

/-! ## The body's store is the routing distribution -/

/-- The offsets of a whole matrix, and of a whole vector, are zero on every axis. -/
theorem zeroOff2 : (![0, 0] : Fin 2 → Nat) = fun _ => 0 := funext fun a => by
  match a with
  | ⟨0, _⟩ => rfl
  | ⟨1, _⟩ => rfl
theorem zeroOff1 : (![0] : Fin 1 → Nat) = fun _ => 0 := funext fun a => by
  match a with
  | ⟨0, _⟩ => rfl

/-- The normalised average, as a function of row and feature, is the specification's. -/
theorem inputNorm_eq (x0 x1 : Vec Ideal S4x4096 .f32) (x2 x3 : Vec Ideal S4096 .f32) :
    at2 (k1_pay2 (F := Ideal) x0 x1 x2 x3) = layerNorm (average (at2 x0) (at2 x1)) (at1 x2) (at1 x3) :=
  funext fun b => funext fun d => inputNorm_apply x0 x1 x2 x3 b d

/-- The weights normalised from the body's own three columns are the specification's normalised weight rows: the mean
    column is the row mean, and squares over count is the row variance. -/
theorem weightNorm_eq (x6 : Vec Ideal S8x4096 .f32) (x4 x5 : Vec Ideal S4096 .f32) :
    normRow x6 (k1_pay3 (F := Ideal) x6) (k1_pay4 (F := Ideal) x6) (k1_pay5 (F := Ideal)) x4 x5
      = layerNorm (at2 x6) (at1 x4) (at1 x5) := by
  funext k d
  unfold normRow
  rw [weightMean_apply, weightSquares_apply, featureCount_apply]
  rfl

/-- The body's store, from its eight inputs, is the routing distribution of the specification. -/
theorem routed_eq (x0 x1 : Vec Ideal S4x4096 .f32) (x2 x3 x4 x5 : Vec Ideal S4096 .f32) (x6 : Vec Ideal S8x4096 .f32) (x7 : Vec Ideal S8 .f32) :
    routed (F := Ideal) x0 x1 x2 x3 x4 x5 x6 x7
      = (fun i : S4x8.Idx => routeOf (at2 x0) (at2 x1) (at1 x2) (at1 x3) (at1 x4) (at1 x5) (at2 x6) (at1 x7) (i 0) (i 1)) := by
  unfold routed
  rw [View.canon_unit_zero zeroOff2]
  simp only [View.ld_unit_zero (S := S4x4096) zeroOff2, View.ld_unit_zero (S := S4096) zeroOff1,
    View.ld_unit_zero (S := S8x4096) zeroOff2, View.ld_unit_zero (S := S8) zeroOff1]
  funext i
  obtain ⟨b, k, rfl⟩ : ∃ (b : Fin 4) (k : Fin 8), i = ix2 b k := ⟨i 0, i 1, eq_ix2 i⟩
  refine (tail_apply (k1_pay2 (F := Ideal) x0 x1 x2 x3) x6 (k1_pay3 (F := Ideal) x6) (k1_pay4 (F := Ideal) x6)
    (k1_pay5 (F := Ideal)) x4 x5 x7 b k).trans ?_
  rw [inputNorm_eq, weightNorm_eq]
  rfl

/-! ## The region's one step writes the whole output -/

variable (V : (c : Dev nD) → (b : Ref sig .tc) → Buf (Elt Ideal) ((c : Thread nD τ).loc b))

/-- The eight arrays the region is entered with, at their literal types. -/
abbrev sumArr (c : Dev nD) : Vec Ideal S4x4096 .f32 := V c main_v2_0
abbrev cntArr (c : Dev nD) : Vec Ideal S4x4096 .f32 := V c main_v2_1
abbrev inW (c : Dev nD) : Vec Ideal S4096 .f32 := V c main_arg3
abbrev inB (c : Dev nD) : Vec Ideal S4096 .f32 := V c main_arg4
abbrev wtW (c : Dev nD) : Vec Ideal S4096 .f32 := V c main_arg5
abbrev wtB (c : Dev nD) : Vec Ideal S4096 .f32 := V c main_arg6
abbrev rows (c : Dev nD) : Vec Ideal S8x4096 .f32 := V c main_arg7
abbrev bias (c : Dev nD) : Vec Ideal S8 .f32 := V c main_arg8

/-- The routing distribution of the arrays the region is entered with. -/
abbrev routing (c : Dev nD) : Vec Ideal S4x8 .f32 :=
  fun i : S4x8.Idx => routeOf (at2 (sumArr V c)) (at2 (cntArr V c)) (at1 (inW V c)) (at1 (inB V c)) (at1 (wtW V c)) (at1 (wtB V c))
    (at2 (rows V c)) (at1 (bias V c)) (i 0) (i 1)

/-- At the region's one step every window's block index is zero on every axis (decided over the grid). -/
theorem blockIndex_zero : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 1) = 0 ∧ win1_3.index t (0 : Fin 1) = 0
    ∧ win1_4.index t (0 : Fin 1) = 0 ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = 0 ∧ win1_8.index t (1 : Fin 2) = 0 :=
  (by decide +kernel : ∀ t : Fin grid1.N, _)

/-- The token sum's block at the step is the whole array. -/
theorem blk_0 (c : Dev nD) (t : Fin cfg1.N) : (iblk V c 0 t : Vec Ideal S4x4096 .f32) = sumArr V c := by
  obtain ⟨e0, e1, -⟩ := blockIndex_zero t
  funext y
  show V c main_v2_0 (((cfg1.win 0).blk t).view.emb y) = V c main_v2_0 y
  refine congrArg (V c main_v2_0) (funext fun a => Fin.ext ?_)
  match a with
  | ⟨0, _⟩ => show win1_0.index t (0 : Fin 2) * 4 + 1 * (y 0).val = (y 0).val; omega
  | ⟨1, _⟩ => show win1_0.index t (1 : Fin 2) * 4096 + 1 * (y 1).val = (y 1).val; omega

/-- The nonzero count's block at the step is the whole array. -/
theorem blk_1 (c : Dev nD) (t : Fin cfg1.N) : (iblk V c 1 t : Vec Ideal S4x4096 .f32) = cntArr V c := by
  obtain ⟨-, -, e0, e1, -⟩ := blockIndex_zero t
  funext y
  show V c main_v2_1 (((cfg1.win 1).blk t).view.emb y) = V c main_v2_1 y
  refine congrArg (V c main_v2_1) (funext fun a => Fin.ext ?_)
  match a with
  | ⟨0, _⟩ => show win1_1.index t (0 : Fin 2) * 4 + 1 * (y 0).val = (y 0).val; omega
  | ⟨1, _⟩ => show win1_1.index t (1 : Fin 2) * 4096 + 1 * (y 1).val = (y 1).val; omega

/-- The input map's scale: its block at the step is the whole vector. -/
theorem blk_2 (c : Dev nD) (t : Fin cfg1.N) : (iblk V c 2 t : Vec Ideal S4096 .f32) = inW V c := by
  obtain ⟨-, -, -, -, e0, -⟩ := blockIndex_zero t
  funext y
  show V c main_arg3 (((cfg1.win 2).blk t).view.emb y) = V c main_arg3 y
  refine congrArg (V c main_arg3) (funext fun a => Fin.ext ?_)
  match a with
  | ⟨0, _⟩ => show win1_2.index t (0 : Fin 1) * 4096 + 1 * (y 0).val = (y 0).val; omega

/-- The input map's shift: its block at the step is the whole vector. -/
theorem blk_3 (c : Dev nD) (t : Fin cfg1.N) : (iblk V c 3 t : Vec Ideal S4096 .f32) = inB V c := by
  obtain ⟨-, -, -, -, -, e0, -⟩ := blockIndex_zero t
  funext y
  show V c main_arg4 (((cfg1.win 3).blk t).view.emb y) = V c main_arg4 y
  refine congrArg (V c main_arg4) (funext fun a => Fin.ext ?_)
  match a with
  | ⟨0, _⟩ => show win1_3.index t (0 : Fin 1) * 4096 + 1 * (y 0).val = (y 0).val; omega

/-- The weight map's scale: its block at the step is the whole vector. -/
theorem blk_4 (c : Dev nD) (t : Fin cfg1.N) : (iblk V c 4 t : Vec Ideal S4096 .f32) = wtW V c := by
  obtain ⟨-, -, -, -, -, -, e0, -⟩ := blockIndex_zero t
  funext y
  show V c main_arg5 (((cfg1.win 4).blk t).view.emb y) = V c main_arg5 y
  refine congrArg (V c main_arg5) (funext fun a => Fin.ext ?_)
  match a with
  | ⟨0, _⟩ => show win1_4.index t (0 : Fin 1) * 4096 + 1 * (y 0).val = (y 0).val; omega

/-- The weight map's shift: its block at the step is the whole vector. -/
theorem blk_5 (c : Dev nD) (t : Fin cfg1.N) : (iblk V c 5 t : Vec Ideal S4096 .f32) = wtB V c := by
  obtain ⟨-, -, -, -, -, -, -, e0, -⟩ := blockIndex_zero t
  funext y
  show V c main_arg6 (((cfg1.win 5).blk t).view.emb y) = V c main_arg6 y
  refine congrArg (V c main_arg6) (funext fun a => Fin.ext ?_)
  match a with
  | ⟨0, _⟩ => show win1_5.index t (0 : Fin 1) * 4096 + 1 * (y 0).val = (y 0).val; omega

/-- The weight rows' block at the step is the whole matrix. -/
theorem blk_6 (c : Dev nD) (t : Fin cfg1.N) : (iblk V c 6 t : Vec Ideal S8x4096 .f32) = rows V c := by
  obtain ⟨-, -, -, -, -, -, -, -, e0, e1, -⟩ := blockIndex_zero t
  funext y
  show V c main_arg7 (((cfg1.win 6).blk t).view.emb y) = V c main_arg7 y
  refine congrArg (V c main_arg7) (funext fun a => Fin.ext ?_)
  match a with
  | ⟨0, _⟩ => show win1_6.index t (0 : Fin 2) * 8 + 1 * (y 0).val = (y 0).val; omega
  | ⟨1, _⟩ => show win1_6.index t (1 : Fin 2) * 4096 + 1 * (y 1).val = (y 1).val; omega

/-- The biases' block at the step is the whole vector. -/
theorem blk_7 (c : Dev nD) (t : Fin cfg1.N) : (iblk V c 7 t : Vec Ideal S8 .f32) = bias V c := by
  obtain ⟨-, -, -, -, -, -, -, -, -, -, e0, -⟩ := blockIndex_zero t
  funext y
  show V c main_arg8 (((cfg1.win 7).blk t).view.emb y) = V c main_arg8 y
  refine congrArg (V c main_arg8) (funext fun a => Fin.ext ?_)
  match a with
  | ⟨0, _⟩ => show win1_7.index t (0 : Fin 1) * 8 + 1 * (y 0).val = (y 0).val; omega

/-- What the step writes back to the output array is the routing distribution of the entry arrays, read through the
    output's block — which is the whole array. -/
theorem flushed_eq (c : Dev nD) (t : Fin cfg1.N) :
    (dat V c).flushed 8 t = ((cfg1.win 8).blk t).view.read (Elt Ideal) (routing V c) := by
  show (cfg1.win 8).cut (grid1.coords t) ((dat V c).after 8 t) = _
  rw [after_8, blk_0 V c t, blk_1 V c t, blk_2 V c t, blk_3 V c t, blk_4 V c t, blk_5 V c t, blk_6 V c t, blk_7 V c t,
    routed_eq]
  obtain ⟨-, -, -, -, -, -, -, -, -, -, -, e0, e1⟩ := blockIndex_zero t
  funext j
  show routing V c j = routing V c (((cfg1.win 8).blk t).view.emb j)
  refine congrArg (routing V c) (funext fun a => Fin.ext ?_)
  match a with
  | ⟨0, _⟩ => show (j 0).val = win1_8.index t (0 : Fin 2) * 4 + 1 * (j 0).val; omega
  | ⟨1, _⟩ => show (j 1).val = win1_8.index t (1 : Fin 2) * 8 + 1 * (j 1).val; omega

/-- An index of the output array is in the step's block iff each coordinate is in the block's range on its axis. -/
theorem mem_outBlock (t : Fin cfg1.N) (i : S4x8.Idx) :
    i ∈ ((cfg1.win 8).blk t).view.set ↔ ∀ a : Fin 2, win1_8.index t a * S4x8.size a ≤ (i a).val ∧ (i a).val < win1_8.index t a * S4x8.size a + S4x8.size a := by
  show i ∈ ((View.whole main_v3).slice (win1_8.rect t)).set ↔ _
  rw [View.set_slice_whole, Rect.mem_set_unit]
  exact Iff.rfl

/-- Every index of the output array is in the block the one step writes back. -/
theorem out_cover (i : S4x8.Idx) : ∃ t : Fin cfg1.N, (cfg1.win 8).flush t = true ∧ i ∈ ((cfg1.win 8).blk t).view.set := by
  refine ⟨t1_0, flush1_8 t1_0, ?_⟩
  rw [mem_outBlock]
  obtain ⟨-, -, -, -, -, -, -, -, -, -, -, e0, e1⟩ := blockIndex_zero t1_0
  have h0 : (i 0).val < 4 := (i 0).isLt
  have h1 : (i 1).val < 8 := (i 1).isLt
  intro a
  match a with
  | ⟨0, _⟩ => show win1_8.index t1_0 (0 : Fin 2) * 4 ≤ (i 0).val ∧ (i 0).val < win1_8.index t1_0 (0 : Fin 2) * 4 + 4; omega
  | ⟨1, _⟩ => show win1_8.index t1_0 (1 : Fin 2) * 8 ≤ (i 1).val ∧ (i 1).val < win1_8.index t1_0 (1 : Fin 2) * 8 + 8; omega

/-- After the region the output array holds the routing distribution of the arrays the region was entered with: each
    window's one block is its whole array, and the one step writes the output back whole. -/
theorem out_final (c : Dev nD) :
    (dat V c).arrAt 8 cfg1.N
      = (fun i : S4x8.Idx => routeOf (at2 (sumArr V c)) (at2 (cntArr V c)) (at1 (inW V c)) (at1 (inB V c)) (at1 (wtW V c)) (at1 (wtB V c))
          (at2 (rows V c)) (at1 (bias V c)) (i 0) (i 1)) :=
  (dat V c).arrAt_eq_of_cover 8 (routing V c) (fun t _ => flushed_eq V c t) out_cover

end Cert.KernelIdeal.Finalize

end
-- ==== Proof.KernelIdeal.ResultValue.lean ====
/-
  The program's two results, read as mathematics (on the extended reals).

  The first result is the tail's 4 × 8 array laid out as [4, 1, 8]; the tail's array is the routing distribution of the
  token sum and nonzero count the reduction left and of six argument arrays no region or host operation has touched; and
  the reduction's two arrays are the token sum and nonzero count of the token argument and of the token weights the first
  two host operations computed from the two mask arguments. Chaining these equations, the first result at (b, 0, k) is
  the whole router of the arguments at (b, k). The second result is a zero of shape [1].
-/
import proofs.«158634_j71889162600594_1_alg».proof.Proof.KernelIdeal.Run
import proofs.«158634_j71889162600594_1_alg».proof.Proof.KernelIdeal.ReduceValue
import proofs.«158634_j71889162600594_1_alg».proof.Proof.KernelIdeal.FinalizeValue
import Idealize.ShloMosaic.Lib.StableHlo.Run
import Idealize.ShloMosaic.Lib.Pipeline.Value

set_option maxRecDepth 16384

noncomputable section

open scoped BigOperators

namespace Cert.KernelIdeal.Program

open Idealize.ShloMosaic Idealize.ShloMosaic.TcCoe Idealize.ShloMosaic.ValueIdx Idealize.ShloMosaic.StableHlo
open Idealize.SL Idealize.SL.Sem
open Cert.KernelIdeal Cert.KernelIdeal.Gen Cert.Routing

/-- The token weights of two integer mask arrays: their product, read as a number (what the first two host operations
    compute), at any float instance. -/
def weightsOf {F : FTy → Type} [FloatOps F] (a b : (⟨S4x4096, .i32⟩ : BufTy).Contents (Elt F)) : (⟨S4x4096, .f32⟩ : BufTy).Contents (Elt F) :=
  (sitofp .f32 : (⟨S4x4096, .i32⟩ : BufTy).Contents (Elt F) → (⟨S4x4096, .f32⟩ : BufTy).Contents (Elt F))
    ((muli : (⟨S4x4096, .i32⟩ : BufTy).Contents (Elt F) → (⟨S4x4096, .i32⟩ : BufTy).Contents (Elt F) → (⟨S4x4096, .i32⟩ : BufTy).Contents (Elt F)) a b)

variable (m : (ℓ : Loc nD τ sig) → Buf (Elt Ideal) ℓ) (ρ : Dev nD → PrngReg)

/-- The arguments at their literal types. -/
abbrev argTokens (c : Dev nD) : Vec Ideal S4x4096x4096 .f32 := m ((c : Thread nD τ).loc main_arg0)
abbrev argInW (c : Dev nD) : Vec Ideal S4096 .f32 := m ((c : Thread nD τ).loc main_arg3)
abbrev argInB (c : Dev nD) : Vec Ideal S4096 .f32 := m ((c : Thread nD τ).loc main_arg4)
abbrev argWtW (c : Dev nD) : Vec Ideal S4096 .f32 := m ((c : Thread nD τ).loc main_arg5)
abbrev argWtB (c : Dev nD) : Vec Ideal S4096 .f32 := m ((c : Thread nD τ).loc main_arg6)
abbrev argRows (c : Dev nD) : Vec Ideal S8x4096 .f32 := m ((c : Thread nD τ).loc main_arg7)
abbrev argBias (c : Dev nD) : Vec Ideal S8 .f32 := m ((c : Thread nD τ).loc main_arg8)
/-- The token weights: the product of the two mask arguments, read as a number (the first two host operations). -/
abbrev tokenWeights (c : Dev nD) : Vec Ideal S4x4096 .f32 :=
  weightsOf (F := Ideal) (m ((c : Thread nD τ).loc main_arg1)) (m ((c : Thread nD τ).loc main_arg2))

/-! ## What the reduction is entered with -/

theorem enter0_tokens (c : Dev nD) : Reduce.tokenArr (V1 m ρ) c = argTokens m c :=
  (W1_of m ρ c main_arg0 (by decide)).trans rfl

theorem enter0_weights (c : Dev nD) : Reduce.weightArr (V1 m ρ) c = tokenWeights m c := by
  show StableHlo.after hostOps0 (W0 m ρ c) (Proc.devRef .tc main_v1) = _
  after_results <;> rfl

/-! ## What the tail is entered with -/

theorem enter1_sum (c : Dev nD) :
    Finalize.sumArr (V2 m ρ) c = (fun i : S4x4096.Idx => tokenSum (at3 (argTokens m c)) (at2 (tokenWeights m c)) (i 0) (i 1)) := by
  refine ((W2_arr m ρ c 2).trans (Reduce.sum_final (V1 m ρ) c)).trans ?_
  rw [enter0_tokens, enter0_weights]

theorem enter1_count (c : Dev nD) :
    Finalize.cntArr (V2 m ρ) c = (fun i : S4x4096.Idx => nonzeroCount (at3 (argTokens m c)) (at2 (tokenWeights m c)) (i 0) (i 1)) := by
  refine ((W2_arr m ρ c 3).trans (Reduce.count_final (V1 m ρ) c)).trans ?_
  rw [enter0_tokens, enter0_weights]

theorem enter1_inW (c : Dev nD) : Finalize.inW (V2 m ρ) c = argInW m c :=
  (W2_of_ne m ρ c main_arg3 (by decide)).trans ((W1_of m ρ c main_arg3 (by decide)).trans rfl)
theorem enter1_inB (c : Dev nD) : Finalize.inB (V2 m ρ) c = argInB m c :=
  (W2_of_ne m ρ c main_arg4 (by decide)).trans ((W1_of m ρ c main_arg4 (by decide)).trans rfl)
theorem enter1_wtW (c : Dev nD) : Finalize.wtW (V2 m ρ) c = argWtW m c :=
  (W2_of_ne m ρ c main_arg5 (by decide)).trans ((W1_of m ρ c main_arg5 (by decide)).trans rfl)
theorem enter1_wtB (c : Dev nD) : Finalize.wtB (V2 m ρ) c = argWtB m c :=
  (W2_of_ne m ρ c main_arg6 (by decide)).trans ((W1_of m ρ c main_arg6 (by decide)).trans rfl)
theorem enter1_rows (c : Dev nD) : Finalize.rows (V2 m ρ) c = argRows m c :=
  (W2_of_ne m ρ c main_arg7 (by decide)).trans ((W1_of m ρ c main_arg7 (by decide)).trans rfl)
theorem enter1_bias (c : Dev nD) : Finalize.bias (V2 m ρ) c = argBias m c :=
  (W2_of_ne m ρ c main_arg8 (by decide)).trans ((W1_of m ρ c main_arg8 (by decide)).trans rfl)

/-- What the tail leaves: the routing distribution of the arguments. -/
theorem tail_out (c : Dev nD) :
    (V3 m ρ c main_v3 : Vec Ideal S4x8 .f32)
      = (fun i : S4x8.Idx => route (at3 (argTokens m c)) (at2 (tokenWeights m c)) (at1 (argInW m c)) (at1 (argInB m c))
          (at1 (argWtW m c)) (at1 (argWtB m c)) (at2 (argRows m c)) (at1 (argBias m c)) (i 0) (i 1)) := by
  refine ((W3_arr m ρ c 8).trans (Finalize.out_final (V2 m ρ) c)).trans ?_
  rw [enter1_sum, enter1_count, enter1_inW, enter1_inB, enter1_wtW, enter1_wtB, enter1_rows, enter1_bias]
  rfl

/-! ## The two results at the return -/

/-- The first result: the whole router, laid out [4, 1, 8]. -/
theorem result0 (c : Dev nD) :
    (W4 m ρ c (Proc.devRef .tc main_v4) : Vec Ideal S4x1x8 .f32)
      = (fun i : S4x1x8.Idx => route (at3 (argTokens m c)) (at2 (tokenWeights m c)) (at1 (argInW m c)) (at1 (argInB m c))
          (at1 (argWtW m c)) (at1 (argWtB m c)) (at2 (argRows m c)) (at1 (argBias m c)) (i 0) (i 2)) := by
  have h : (W4 m ρ c (Proc.devRef .tc main_v4) : Vec Ideal S4x1x8 .f32)
      = broadcastInDim S4x1x8 ![0, 2] bcast_S4x8_S4x1x8_0_2 (V3 m ρ c main_v3 : Vec Ideal S4x8 .f32) := by
    show StableHlo.after hostOps2 (W3 m ρ c) (Proc.devRef .tc main_v4) = _
    after_results <;> rfl
  rw [h, tail_out]
  funext i
  obtain ⟨b, z, k, rfl⟩ : ∃ (b : Fin 4) (z : Fin 1) (k : Fin 8), i = ix3 b z k := ⟨i 0, i 1, i 2, eq_ix3 i⟩
  refine (broadcastInDim_apply (s := S4x8) (t := S4x1x8) ![0, 2] bcast_S4x8_S4x1x8_0_2 _ (ix3 b z k) (ix2 b k) ?_).trans rfl
  intro a
  match a with
  | ⟨0, _⟩ => rfl
  | ⟨1, _⟩ => rfl

/-- The second result: a zero of shape [1]. -/
theorem result1 (c : Dev nD) :
    (W4 m ρ c (Proc.devRef .tc main_v5) : Vec Ideal S1 .f32)
      = broadcastInDim S1 ![] bcast_S_S1 (constant (F := Ideal) S_ .f32 0x00000000#32) := by
  show StableHlo.after hostOps2 (W3 m ρ c) (Proc.devRef .tc main_v5) = _
  after_results <;> rfl

end Cert.KernelIdeal.Program

end
-- ==== Proof.RefReduce.lean ====
/-
  The reference's token sum and nonzero count, read as mathematics (on the extended reals).

  The reference multiplies every token by its weight (the weight array broadcast along the feature axis), sums the
  products over the sequence axis from zero, and sums over the same axis the one-or-zero reading of "the product is not
  zero". Read at an entry (b, d) these are the specification's token sum and nonzero count.
-/
import proofs.«158634_j71889162600594_1_alg».proof.Proof.Gen.ReferenceIdeal.Read
import proofs.«158634_j71889162600594_1_alg».proof.Proof.Spec
import Idealize.ShloMosaic.Lib.ValueIdx
import Idealize.ShloMosaic.Lib.ValueLayout
import Idealize.ShloMosaic.Lib.IdealHost

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo
open Cert.Routing

/-- The token weights as the reference computes them: the product of the two integer masks, as a number (the
    reference's second stage). -/
abbrev weightOf (x1 x2 : (⟨S4x4096, .i32⟩ : BufTy).Contents (Elt Ideal)) : (⟨S4x4096, .f32⟩ : BufTy).Contents (Elt Ideal) :=
  val_main_v1 (F := Ideal) x1 x2

/-! ## Where the two sums read their operand

Both sums run over the sequence axis: the entry (b, d) of the result collects, for every token s, the entry (b, s, d)
of the summed array. -/

/-- The s-th summand of the token sum's entry (b, d) is the product array's entry (b, s, d). -/
theorem sumSource (b : Fin 4) (d s : Fin 4096) : idx_main_v9 (ix2 b d) s = ix3 b s d :=
  funext fun a => by match a with | ⟨0, _⟩ => rfl | ⟨1, _⟩ => rfl | ⟨2, _⟩ => rfl

/-- The s-th summand of the count's entry (b, d) is the indicator array's entry (b, s, d). -/
theorem countSource (b : Fin 4) (d s : Fin 4096) : idx_main_v8 (ix2 b d) s = ix3 b s d :=
  funext fun a => by match a with | ⟨0, _⟩ => rfl | ⟨1, _⟩ => rfl | ⟨2, _⟩ => rfl

/-! ## The weighted token at an entry -/

/-- The weight array stretched along the feature axis (first to a unit axis, then to all 4096 features) holds, at
    (b, s, d), the weight of token s of row b: the feature coordinate is dropped. -/
theorem stretchedWeight (x1 x2 : (⟨S4x4096, .i32⟩ : BufTy).Contents (Elt Ideal)) (b : Fin 4) (s d : Fin 4096) :
    val_main_v3 (F := Ideal) x1 x2 (ix3 b s d) = weightOf x1 x2 (ix2 b s) := by
  rw [val_main_v3_apply, val_main_v2_apply]
  exact congrArg (val_main_v1 (F := Ideal) x1 x2)
    (funext fun a => by match a with | ⟨0, _⟩ => rfl | ⟨1, _⟩ => rfl)

/-- The product array at (b, s, d) is the token's feature times the token's weight. -/
theorem weighted_at (x0 : (⟨S4x4096x4096, .f32⟩ : BufTy).Contents (Elt Ideal)) (x1 x2 : (⟨S4x4096, .i32⟩ : BufTy).Contents (Elt Ideal))
    (b : Fin 4) (s d : Fin 4096) :
    val_main_v4 (F := Ideal) x0 x1 x2 (ix3 b s d) = at3 x0 b s d * at2 (weightOf x1 x2) b s := by
  rw [val_main_v4_apply, stretchedWeight]
  rfl

/-! ## The indicator of a nonzero entry -/

/-- Comparing a number with the zero word for "not equal" and reading the one-bit answer as a number gives one when
    the number is not zero and zero when it is. -/
theorem indicator_word (v : EReal) :
    FloatOps.uitofp (F := Ideal) .f32 (FloatOps.cmpf (F := Ideal) (φ := .f32) .une v (FloatOps.ofBits (F := Ideal) .f32 0x00000000#32))
      = nonzero v := by
  rw [Ideal.ofBits_def, Ideal.ofBits_zero_f32, Ideal.cmpf_def]
  show (((BitVec.ofBool (decide (v ≠ 0))).toNat : ℝ) : EReal) = if v ≠ 0 then 1 else 0
  by_cases h : v = 0
  · rw [if_neg (not_not.mpr h)]
    simp [h]
  · rw [if_pos h]
    simp [h]

/-- The indicator array at (b, s, d) is the indicator of the weighted token there. -/
theorem indicator_at (x0 : (⟨S4x4096x4096, .f32⟩ : BufTy).Contents (Elt Ideal)) (x1 x2 : (⟨S4x4096, .i32⟩ : BufTy).Contents (Elt Ideal))
    (b : Fin 4) (s d : Fin 4096) :
    val_main_v7 (F := Ideal) x0 x1 x2 (ix3 b s d) = nonzero (at3 x0 b s d * at2 (weightOf x1 x2) b s) := by
  rw [val_main_v7_apply, val_main_v6_apply, val_main_v5_apply, val_main_cst_apply, weighted_at]
  exact indicator_word _

/-! ## The two sums -/

/-- The reference's sum over the sequence axis is the token sum. -/
theorem ref_sum (x0 : (⟨S4x4096x4096, .f32⟩ : BufTy).Contents (Elt Ideal)) (x1 x2 : (⟨S4x4096, .i32⟩ : BufTy).Contents (Elt Ideal)) :
    val_main_v9 (F := Ideal) x0 x1 x2 = (fun i : S4x4096.Idx => tokenSum (at3 x0) (at2 (weightOf x1 x2)) (i 0) (i 1)) := by
  funext i
  obtain ⟨b, d, rfl⟩ : ∃ (b : Fin 4) (d : Fin 4096), i = ix2 b d := ⟨i 0, i 1, eq_ix2 i⟩
  show _ = tokenSum (at3 x0) (at2 (weightOf x1 x2)) b d
  refine (val_main_v9_apply x0 x1 x2 (ix2 b d)).trans ?_
  rw [val_main_cst_1_apply, Ideal.ofBits_def, Ideal.ofBits_zero_f32, zero_add]
  unfold tokenSum
  refine Finset.sum_congr rfl fun s _ => ?_
  rw [sumSource]
  exact weighted_at x0 x1 x2 b s d

/-- The reference's count over the sequence axis is the nonzero count. -/
theorem ref_count (x0 : (⟨S4x4096x4096, .f32⟩ : BufTy).Contents (Elt Ideal)) (x1 x2 : (⟨S4x4096, .i32⟩ : BufTy).Contents (Elt Ideal)) :
    val_main_v8 (F := Ideal) x0 x1 x2 = (fun i : S4x4096.Idx => nonzeroCount (at3 x0) (at2 (weightOf x1 x2)) (i 0) (i 1)) := by
  funext i
  obtain ⟨b, d, rfl⟩ : ∃ (b : Fin 4) (d : Fin 4096), i = ix2 b d := ⟨i 0, i 1, eq_ix2 i⟩
  show _ = nonzeroCount (at3 x0) (at2 (weightOf x1 x2)) b d
  refine (val_main_v8_apply x0 x1 x2 (ix2 b d)).trans ?_
  rw [val_main_cst_0_apply, Ideal.ofBits_def, Ideal.ofBits_zero_f32, zero_add]
  unfold nonzeroCount
  refine Finset.sum_congr rfl fun s _ => ?_
  rw [countSource]
  exact indicator_at x0 x1 x2 b s d

end Cert.ReferenceIdeal.RefValue

end
-- ==== Proof.RefTail.lean ====
/-
  The reference's routing distribution, read as mathematics (on the extended reals).

  From its token sum and nonzero count the reference averages, normalises the averaged rows (laid out [4, 1, 4096]) and
  the weight rows, contracts the two over the features, adds the bias, divides by the temperature and takes the softmax
  over the skills. Read at an entry (b, 0, k) this is the specification's routing distribution at (b, k).

  Every stage is read at explicit coordinates: a row quantity of the [4, 1, 4096] layout sits at (b, 0, 0), a row
  quantity of the [8, 4096] weights at (k, 0); a sum over the feature axis starts from the zero word, which is the
  number zero; the other float words are the specification's constants and are never evaluated.
-/
import proofs.«158634_j71889162600594_1_alg».proof.Proof.RefReduce
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo
open Cert.Routing

/-- Two indices of rank one are equal when their coordinate is. -/
local macro "coords1" : tactic => `(tactic| exact funext fun a => Fin.ext (by match a with | ⟨0, _⟩ => rfl))
/-- Two indices of rank two are equal when their coordinates are. -/
local macro "coords2" : tactic => `(tactic| exact funext fun a => Fin.ext (by match a with | ⟨0, _⟩ => rfl | ⟨1, _⟩ => rfl))
/-- Two indices of rank three are equal when their coordinates are. -/
local macro "coords3" : tactic =>
  `(tactic| exact funext fun a => Fin.ext (by match a with | ⟨0, _⟩ => rfl | ⟨1, _⟩ => rfl | ⟨2, _⟩ => rfl))

section Stages

variable (x0 : (⟨S4x4096x4096, .f32⟩ : BufTy).Contents (Elt Ideal)) (x1 x2 : (⟨S4x4096, .i32⟩ : BufTy).Contents (Elt Ideal))
  (x3 x4 x5 x6 : (⟨S4096, .f32⟩ : BufTy).Contents (Elt Ideal)) (x7 : (⟨S8x4096, .f32⟩ : BufTy).Contents (Elt Ideal))
  (x8 : (⟨S8, .f32⟩ : BufTy).Contents (Elt Ideal))

/-! ## The averaged input and its normalisation, on the layout [4, 1, 4096] -/

/-- The averaged input: the token sum over the nonzero count. -/
abbrev avgIn : Fin 4 → Fin 4096 → EReal :=
  average (tokenSum (at3 x0) (at2 (weightOf x1 x2))) (nonzeroCount (at3 x0) (at2 (weightOf x1 x2)))

/-- The quotient of sum and count, re-laid as [4, 1, 4096], is the averaged input at (b, d). -/
theorem avg_at (b : Fin 4) (d : Fin 4096) :
    val_main_v11 (F := Ideal) x0 x1 x2 (ix3 b (0 : Fin 1) d) = avgIn x0 x1 x2 b d := by
  rw [val_main_v11_apply, val_main_v10_apply, ref_sum, ref_count,
    show idx_main_v11 (ix3 b (0 : Fin 1) d) = ix2 b d from by coords2]
  rfl

/-- The row sum over the features divided by the feature count is the row mean. -/
theorem mean_at (b : Fin 4) :
    val_main_v15 (F := Ideal) x0 x1 x2 (ix3 b (0 : Fin 1) (0 : Fin 1)) = rowMean (avgIn x0 x1 x2) b := by
  rw [val_main_v15_apply, val_main_v13_apply, val_main_v12_apply, val_main_v14_apply, val_main_cst_3_apply,
    val_main_cst_2_apply]
  simp only [Ideal.hostDivf_def, Ideal.ofBits_def, Ideal.ofBits_zero_f32, zero_add]
  unfold rowMean featureCount
  refine congrArg (Ideal.div · _) (Finset.sum_congr rfl fun d _ => ?_)
  rw [show idx_main_v12 (idx_main_v13 (ix3 b (0 : Fin 1) (0 : Fin 1))) d = ix3 b (0 : Fin 1) d from by coords3]
  exact avg_at x0 x1 x2 b d

/-- The row with its broadcast mean taken off is the centred row (the stage the squares are taken of). -/
theorem centred_at (b : Fin 4) (d : Fin 4096) :
    val_main_v17 (F := Ideal) x0 x1 x2 (ix3 b (0 : Fin 1) d) = centred (avgIn x0 x1 x2) b d := by
  rw [val_main_v17_apply, val_main_v16_apply, avg_at,
    show idx_main_v16 (ix3 b (0 : Fin 1) d) = ix3 b (0 : Fin 1) (0 : Fin 1) from by coords3, mean_at]
  rfl

/-- The same centred row, as the stage the normalised row is built from computes it again. -/
theorem centred_at' (b : Fin 4) (d : Fin 4096) :
    val_main_v24 (F := Ideal) x0 x1 x2 (ix3 b (0 : Fin 1) d) = centred (avgIn x0 x1 x2) b d := by
  rw [val_main_v24_apply, val_main_v23_apply, avg_at,
    show idx_main_v23 (ix3 b (0 : Fin 1) d) = ix3 b (0 : Fin 1) (0 : Fin 1) from by coords3, mean_at]
  rfl

/-- The sum of the squared centred row divided by the feature count is the row variance. -/
theorem var_at (b : Fin 4) :
    val_main_v22 (F := Ideal) x0 x1 x2 (ix3 b (0 : Fin 1) (0 : Fin 1)) = rowVar (avgIn x0 x1 x2) b := by
  rw [val_main_v22_apply, val_main_v20_apply, val_main_v19_apply, val_main_v21_apply, val_main_cst_5_apply,
    val_main_cst_4_apply]
  simp only [Ideal.hostDivf_def, Ideal.ofBits_def, Ideal.ofBits_zero_f32, zero_add]
  unfold rowVar rowMean featureCount
  refine congrArg (Ideal.div · _) (Finset.sum_congr rfl fun d _ => ?_)
  rw [show idx_main_v19 (idx_main_v20 (ix3 b (0 : Fin 1) (0 : Fin 1))) d = ix3 b (0 : Fin 1) d from by coords3,
    val_main_v18_apply, centred_at]
  rfl

/-- The inverse root of the variance plus the small constant. -/
theorem scale_at (b : Fin 4) :
    val_main_v27 (F := Ideal) x0 x1 x2 (ix3 b (0 : Fin 1) (0 : Fin 1))
      = Ideal.rsqrt (rowVar (avgIn x0 x1 x2) b + varEps) := by
  rw [val_main_v27_apply, val_main_v26_apply, var_at, val_main_v25_apply, val_main_cst_6_apply]
  rfl

/-- The normalised input row: centred, scaled, then the affine map of the two feature vectors. -/
theorem normIn_at (b : Fin 4) (d : Fin 4096) :
    val_main_v35 (F := Ideal) x0 x1 x2 x3 x4 (ix3 b (0 : Fin 1) d)
      = layerNorm (avgIn x0 x1 x2) (at1 x3) (at1 x4) b d := by
  rw [val_main_v35_apply, val_main_v32_apply, val_main_v29_apply, centred_at', val_main_v28_apply,
    show idx_main_v28 (ix3 b (0 : Fin 1) d) = ix3 b (0 : Fin 1) (0 : Fin 1) from by coords3, scale_at,
    val_main_v31_apply, val_main_v30_apply, val_main_v34_apply, val_main_v33_apply,
    show idx_main_v30 (idx_main_v31 (ix3 b (0 : Fin 1) d)) = ix1 d from by coords1,
    show idx_main_v33 (idx_main_v34 (ix3 b (0 : Fin 1) d)) = ix1 d from by coords1]
  rfl

/-! ## The normalised weight rows, on the layout [8, 4096] -/

/-- A weight row's sum over the features divided by the feature count is its mean. -/
theorem wmean_at (k : Fin 8) :
    val_main_v39 (F := Ideal) x7 (ix2 k (0 : Fin 1)) = rowMean (at2 x7) k := by
  rw [val_main_v39_apply, val_main_v37_apply, val_main_v36_apply, val_main_v38_apply, val_main_cst_8_apply,
    val_main_cst_7_apply]
  simp only [Ideal.hostDivf_def, Ideal.ofBits_def, Ideal.ofBits_zero_f32, zero_add]
  unfold rowMean featureCount
  refine congrArg (Ideal.div · _) (Finset.sum_congr rfl fun d _ => ?_)
  rw [show idx_main_v36 (idx_main_v37 (ix2 k (0 : Fin 1))) d = ix2 k d from by coords2]
  rfl

/-- The weight row with its broadcast mean taken off is the centred row (the stage the squares are taken of). -/
theorem wcentred_at (k : Fin 8) (d : Fin 4096) :
    val_main_v41 (F := Ideal) x7 (ix2 k d) = centred (at2 x7) k d := by
  rw [val_main_v41_apply, val_main_v40_apply,
    show idx_main_v40 (ix2 k d) = ix2 k (0 : Fin 1) from by coords2, wmean_at]
  rfl

/-- The same centred weight row, as the stage the normalised row is built from computes it again. -/
theorem wcentred_at' (k : Fin 8) (d : Fin 4096) :
    val_main_v48 (F := Ideal) x7 (ix2 k d) = centred (at2 x7) k d := by
  rw [val_main_v48_apply, val_main_v47_apply,
    show idx_main_v47 (ix2 k d) = ix2 k (0 : Fin 1) from by coords2, wmean_at]
  rfl

/-- The sum of the squared centred weight row divided by the feature count is its variance. -/
theorem wvar_at (k : Fin 8) :
    val_main_v46 (F := Ideal) x7 (ix2 k (0 : Fin 1)) = rowVar (at2 x7) k := by
  rw [val_main_v46_apply, val_main_v44_apply, val_main_v43_apply, val_main_v45_apply, val_main_cst_10_apply,
    val_main_cst_9_apply]
  simp only [Ideal.hostDivf_def, Ideal.ofBits_def, Ideal.ofBits_zero_f32, zero_add]
  unfold rowVar rowMean featureCount
  refine congrArg (Ideal.div · _) (Finset.sum_congr rfl fun d _ => ?_)
  rw [show idx_main_v43 (idx_main_v44 (ix2 k (0 : Fin 1))) d = ix2 k d from by coords2,
    val_main_v42_apply, wcentred_at]
  rfl

/-- The inverse root of a weight row's variance plus the small constant. -/
theorem wscale_at (k : Fin 8) :
    val_main_v51 (F := Ideal) x7 (ix2 k (0 : Fin 1)) = Ideal.rsqrt (rowVar (at2 x7) k + varEps) := by
  rw [val_main_v51_apply, val_main_v50_apply, wvar_at, val_main_v49_apply, val_main_cst_11_apply]
  rfl

/-- The normalised weight row: centred, scaled, then the affine map of the two feature vectors. -/
theorem normW_at (k : Fin 8) (d : Fin 4096) :
    val_main_v59 (F := Ideal) x5 x6 x7 (ix2 k d) = layerNorm (at2 x7) (at1 x5) (at1 x6) k d := by
  rw [val_main_v59_apply, val_main_v56_apply, val_main_v53_apply, wcentred_at', val_main_v52_apply,
    show idx_main_v52 (ix2 k d) = ix2 k (0 : Fin 1) from by coords2, wscale_at,
    val_main_v55_apply, val_main_v54_apply, val_main_v58_apply, val_main_v57_apply,
    show idx_main_v54 (idx_main_v55 (ix2 k d)) = ix1 d from by coords1,
    show idx_main_v57 (idx_main_v58 (ix2 k d)) = ix1 d from by coords1]
  rfl

/-! ## The logits, their row maximum and the softmax, on the layout [4, 1, 8] -/

/-- The logits of the specification, from the inputs. -/
abbrev logits : Fin 4 → Fin 8 → EReal :=
  logit (layerNorm (avgIn x0 x1 x2) (at1 x3) (at1 x4)) (layerNorm (at2 x7) (at1 x5) (at1 x6)) (at1 x8)

/-- The contraction of a normalised input row with a normalised weight row over the features, plus the skill's bias,
    over the temperature, is the logit at (b, k). -/
theorem logit_at (b : Fin 4) (k : Fin 8) :
    val_main_v65 (F := Ideal) x0 x1 x2 x3 x4 x5 x6 x7 x8 (ix3 b (0 : Fin 1) k) = logits x0 x1 x2 x3 x4 x5 x6 x7 x8 b k := by
  rw [val_main_v65_apply, val_main_v63_apply, val_main_v60_apply, val_main_v62_apply, val_main_v61_apply,
    val_main_v64_apply, val_main_cst_12_apply,
    show idx_main_v61 (idx_main_v62 (ix3 b (0 : Fin 1) k)) = ix1 k from by coords1]
  simp only [Ideal.hostDivf_def, Ideal.addf_def, Ideal.ofBits_def]
  unfold logits logit temperature
  refine congrArg (Ideal.div · _) (congrArg (· + _) (Finset.sum_congr rfl fun d _ => ?_))
  rw [show lidx_main_v60 (ix3 b (0 : Fin 1) k) d = ix3 b (0 : Fin 1) d from by coords3,
    show ridx_main_v60 (ix3 b (0 : Fin 1) k) d = ix2 k d from by coords2, normIn_at, normW_at]

/-- The maximum over the skill axis, started from minus infinity, is the fold of the maximum over the eight logits
    of the row. -/
theorem fold_at (b : Fin 4) :
    val_main_v66 (F := Ideal) x0 x1 x2 x3 x4 x5 x6 x7 x8 (ix2 b (0 : Fin 1))
      = (Finset.univ : Finset (Fin 8)).fold max negInf (fun k => logits x0 x1 x2 x3 x4 x5 x6 x7 x8 b k) := by
  have hred : S4x1x8.Reduces [2] S4x1 := by decide
  unfold val_main_v66
  refine (Host.reduce_eq_fold_single (FloatOps.maximumf (F := Ideal) (φ := .f32)) _ _ reducesTo_S4x1x8_S4x1_d2 hred h_S_
    (ix2 b (0 : Fin 1))).trans ?_
  rw [val_main_cst_13_apply]
  refine Finset.fold_congr (fun (k : Fin 8) _ => ?_)
  show val_main_v65 (F := Ideal) x0 x1 x2 x3 x4 x5 x6 x7 x8 (hred.lift (ix2 b (0 : Fin 1)) k) = _
  rw [show hred.lift (ix2 b (0 : Fin 1)) k = ix3 b (0 : Fin 1) k from by coords3]
  exact logit_at x0 x1 x2 x3 x4 x5 x6 x7 x8 b k

/-- Taken once more against minus infinity, it is the row maximum. -/
theorem max_at (b : Fin 4) :
    val_main_v68 (F := Ideal) x0 x1 x2 x3 x4 x5 x6 x7 x8 (ix2 b (0 : Fin 1))
      = rowMax (logits x0 x1 x2 x3 x4 x5 x6 x7 x8) b := by
  rw [val_main_v68_apply, val_main_v67_apply, val_main_cst_14_apply, fold_at]
  rfl

/-- The exponential of a logit shifted by its row's maximum. -/
theorem exp_at (b : Fin 4) (k : Fin 8) :
    val_main_v72 (F := Ideal) x0 x1 x2 x3 x4 x5 x6 x7 x8 (ix3 b (0 : Fin 1) k)
      = Ideal.exp (logits x0 x1 x2 x3 x4 x5 x6 x7 x8 b k - rowMax (logits x0 x1 x2 x3 x4 x5 x6 x7 x8) b) := by
  rw [val_main_v72_apply, val_main_v71_apply, logit_at, val_main_v70_apply, val_main_v69_apply,
    show idx_main_v69 (idx_main_v70 (ix3 b (0 : Fin 1) k)) = ix2 b (0 : Fin 1) from by coords2, max_at]
  rfl

/-- The exponential over the row's sum of exponentials is the softmax at (b, k). -/
theorem softmax_at (b : Fin 4) (k : Fin 8) :
    val_main_v76 (F := Ideal) x0 x1 x2 x3 x4 x5 x6 x7 x8 (ix3 b (0 : Fin 1) k)
      = softmax (logits x0 x1 x2 x3 x4 x5 x6 x7 x8) b k := by
  rw [val_main_v76_apply, exp_at, val_main_v75_apply, val_main_v74_apply,
    show idx_main_v74 (idx_main_v75 (ix3 b (0 : Fin 1) k)) = ix2 b (0 : Fin 1) from by coords2,
    val_main_v73_apply, val_main_cst_15_apply]
  simp only [Ideal.hostDivf_def, Ideal.ofBits_def, Ideal.ofBits_zero_f32, zero_add]
  unfold softmax
  refine congrArg (Ideal.div _ ·) (Finset.sum_congr rfl fun k' _ => ?_)
  rw [show idx_main_v73 (ix2 b (0 : Fin 1)) k' = ix3 b (0 : Fin 1) k' from by coords3]
  exact exp_at x0 x1 x2 x3 x4 x5 x6 x7 x8 b k'

end Stages

/-- The reference's first result is the specification's routing distribution. -/
theorem ref_route (x0 : (⟨S4x4096x4096, .f32⟩ : BufTy).Contents (Elt Ideal)) (x1 x2 : (⟨S4x4096, .i32⟩ : BufTy).Contents (Elt Ideal))
    (x3 x4 x5 x6 : (⟨S4096, .f32⟩ : BufTy).Contents (Elt Ideal)) (x7 : (⟨S8x4096, .f32⟩ : BufTy).Contents (Elt Ideal))
    (x8 : (⟨S8, .f32⟩ : BufTy).Contents (Elt Ideal)) :
    val_main_v76 (F := Ideal) x0 x1 x2 x3 x4 x5 x6 x7 x8
      = (fun i : S4x1x8.Idx => route (at3 x0) (at2 (weightOf x1 x2)) (at1 x3) (at1 x4) (at1 x5) (at1 x6) (at2 x7) (at1 x8) (i 0) (i 2)) := by
  funext i
  obtain ⟨b, z, k, rfl⟩ : ∃ (b : Fin 4) (z : Fin 1) (k : Fin 8), i = ix3 b z k := ⟨i 0, i 1, i 2, eq_ix3 i⟩
  obtain rfl : z = 0 := Fin.eq_zero z
  exact softmax_at x0 x1 x2 x3 x4 x5 x6 x7 x8 b k

end Cert.ReferenceIdeal.RefValue

end
-- ==== Proof.lean ====
/-
  The certificate of the router kernel against its reference.

  Both programs compute, on the extended reals, one function of the nine arguments: the token array is weighted by the
  product of the two integer token masks and summed over the sequence (and its nonzero weighted entries counted), the
  quotient is normalised along the feature axis, so are the eight router weight rows, the two are contracted over the
  features, a bias is added, and a softmax over the eight skills is taken; the second result is a zero. The kernel
  takes the sum and the count in 32 steps of 128 tokens, carried in two scratch arrays, and the rest in one step of a
  second kernel on arrays laid out [4, 4096]; the reference takes the sums whole, on arrays laid out [4, 1, 4096]. The
  two ways agree by regrouping a sum over 4096 positions into 32 block sums — a law of any commutative additive monoid,
  so no input need be finite for it — and by reading each operation at an index; nothing else.

  The frames: each program runs to the end, faulting nowhere, and leaves its arguments as launched. For the kernel,
  at the word level and at the idealized level alike, @main is four segments (host operations, the token reduction, the
  router tail, host operations) whose buffer contents chain from the launch to the return; for the reference it is
  its run with the results dropped. The idealized kernel is the kernel's own text read at the extended reals: the
  idealization rewrote nothing, so there is nothing to preserve.
-/
import proofs.«158634_j71889162600594_1_alg».proof.Defs
import proofs.«158634_j71889162600594_1_alg».proof.Proof.Gen.Kernel
import proofs.«158634_j71889162600594_1_alg».proof.Proof.Gen.KernelIdeal
import proofs.«158634_j71889162600594_1_alg».proof.Proof.Gen.ReferenceIdeal
import proofs.«158634_j71889162600594_1_alg».proof.Proof.Gen.Pre_finite_inputs
import proofs.«158634_j71889162600594_1_alg».proof.Proof.Kernel.ReduceBody
import proofs.«158634_j71889162600594_1_alg».proof.Proof.Kernel.FinalizeBody
import proofs.«158634_j71889162600594_1_alg».proof.Proof.Kernel.Run
import proofs.«158634_j71889162600594_1_alg».proof.Proof.KernelIdeal.ReduceBody
import proofs.«158634_j71889162600594_1_alg».proof.Proof.KernelIdeal.FinalizeBody
import proofs.«158634_j71889162600594_1_alg».proof.Proof.KernelIdeal.ResultValue
import proofs.«158634_j71889162600594_1_alg».proof.Proof.Gen.ReferenceIdeal.Run
import proofs.«158634_j71889162600594_1_alg».proof.Proof.Gen.ReferenceIdeal.Read
import proofs.«158634_j71889162600594_1_alg».proof.Proof.RefTail
import Idealize.ShloMosaic.Adequacy
import Idealize.ShloMosaic.Init

set_option maxRecDepth 16384

noncomputable section

namespace Cert.Proof

open Idealize.ShloMosaic Idealize.ShloMosaic.TcCoe Idealize.SL.Sem

/-! ## The frames -/

theorem frame_k : @Cert.frame_Kernel Cert.Kernel.Gen.facts Cert.Pre_finite_inputs.Gen.facts := fun m ρ _ =>
  Cert.Kernel.Program.frame (F := Bits) m ρ (fun V c => Cert.Kernel.Reduce.body_obligation V c)
    (fun V c => Cert.Kernel.Finalize.body_obligation V c)

theorem frame_ki : @Cert.frame_KernelIdeal Cert.KernelIdeal.Gen.facts Cert.Pre_finite_inputs.Gen.facts := fun m ρ _ =>
  Cert.KernelIdeal.Program.frame (F := Ideal) m ρ (fun V c => Cert.KernelIdeal.Reduce.body_obligation V c)
    (fun V c => Cert.KernelIdeal.Finalize.body_obligation V c)

theorem frame_ri : @Cert.frame_ReferenceIdeal Cert.ReferenceIdeal.Gen.facts Cert.Pre_finite_inputs.Gen.facts := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-! ## The two programs' results are one function of the arguments -/

open Cert.Routing in
/-- The reference's first result, from its arguments: the whole router. -/
theorem ref_result0 (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v76 (F := Ideal) m' c
      = (fun i : Cert.ReferenceIdeal.S4x1x8.Idx => route
          (at3 (m' ((c.tc : Thread Cert.ReferenceIdeal.nD Cert.ReferenceIdeal.τ).loc Cert.ReferenceIdeal.main_arg0)))
          (at2 (Cert.ReferenceIdeal.RefValue.weightOf
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))))
          (at1 (m' ((c.tc : Thread Cert.ReferenceIdeal.nD Cert.ReferenceIdeal.τ).loc Cert.ReferenceIdeal.main_arg3)))
          (at1 (m' ((c.tc : Thread Cert.ReferenceIdeal.nD Cert.ReferenceIdeal.τ).loc Cert.ReferenceIdeal.main_arg4)))
          (at1 (m' ((c.tc : Thread Cert.ReferenceIdeal.nD Cert.ReferenceIdeal.τ).loc Cert.ReferenceIdeal.main_arg5)))
          (at1 (m' ((c.tc : Thread Cert.ReferenceIdeal.nD Cert.ReferenceIdeal.τ).loc Cert.ReferenceIdeal.main_arg6)))
          (at2 (m' ((c.tc : Thread Cert.ReferenceIdeal.nD Cert.ReferenceIdeal.τ).loc Cert.ReferenceIdeal.main_arg7)))
          (at1 (m' ((c.tc : Thread Cert.ReferenceIdeal.nD Cert.ReferenceIdeal.τ).loc Cert.ReferenceIdeal.main_arg8))) (i 0) (i 2)) :=
  (Cert.ReferenceIdeal.Read.val_main_v76_eq (F := Ideal) m' c).trans (Cert.ReferenceIdeal.RefValue.ref_route _ _ _ _ _ _ _ _ _)

/-- From memories that agree on the arguments both programs run to the end with equal results, element by element, as
    extended reals: each result is the specification's function of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Program.W4 m ρ c (Proc.devRef .tc Cert.KernelIdeal.main_v4),
    fun c => Cert.KernelIdeal.Program.W4 m ρ c (Proc.devRef .tc Cert.KernelIdeal.main_v5), ?_, ?_⟩
  · refine (θ_run Cert.KernelIdeal.defs _ _).mono (fun r h c =>
      ⟨h c _ (Cert.KernelIdeal.Program.mem_uc Cert.KernelIdeal.main_v4 (by decide)),
       h c _ (Cert.KernelIdeal.Program.mem_uc Cert.KernelIdeal.main_v5 (by decide)),
       (h c _ (Cert.KernelIdeal.Program.mem_uc Cert.KernelIdeal.main_arg0 (by decide))).trans (Cert.KernelIdeal.Program.W4_main_arg0 m ρ c),
       (h c _ (Cert.KernelIdeal.Program.mem_uc Cert.KernelIdeal.main_arg1 (by decide))).trans (Cert.KernelIdeal.Program.W4_main_arg1 m ρ c),
       (h c _ (Cert.KernelIdeal.Program.mem_uc Cert.KernelIdeal.main_arg2 (by decide))).trans (Cert.KernelIdeal.Program.W4_main_arg2 m ρ c),
       (h c _ (Cert.KernelIdeal.Program.mem_uc Cert.KernelIdeal.main_arg3 (by decide))).trans (Cert.KernelIdeal.Program.W4_main_arg3 m ρ c),
       (h c _ (Cert.KernelIdeal.Program.mem_uc Cert.KernelIdeal.main_arg4 (by decide))).trans (Cert.KernelIdeal.Program.W4_main_arg4 m ρ c),
       (h c _ (Cert.KernelIdeal.Program.mem_uc Cert.KernelIdeal.main_arg5 (by decide))).trans (Cert.KernelIdeal.Program.W4_main_arg5 m ρ c),
       (h c _ (Cert.KernelIdeal.Program.mem_uc Cert.KernelIdeal.main_arg6 (by decide))).trans (Cert.KernelIdeal.Program.W4_main_arg6 m ρ c),
       (h c _ (Cert.KernelIdeal.Program.mem_uc Cert.KernelIdeal.main_arg7 (by decide))).trans (Cert.KernelIdeal.Program.W4_main_arg7 m ρ c),
       (h c _ (Cert.KernelIdeal.Program.mem_uc Cert.KernelIdeal.main_arg8 (by decide))).trans (Cert.KernelIdeal.Program.W4_main_arg8 m ρ c)⟩)
      (Cert.KernelIdeal.Program.run_named (F := Ideal) m ρ (fun V c => Cert.KernelIdeal.Reduce.body_obligation V c)
        (fun V c => Cert.KernelIdeal.Finalize.body_obligation V c))
  · refine (θ_run Cert.ReferenceIdeal.defs _ _).mono (fun r h c => ⟨(h c).1.trans ?_, (h c).2.1.trans ?_, (h c).2.2⟩)
      (Cert.ReferenceIdeal.Value.run (F := Ideal) m' ρ')
    · rw [ref_result0 m' c, (hagree c).1, (hagree c).2.1, (hagree c).2.2.1, (hagree c).2.2.2.1, (hagree c).2.2.2.2.1,
        (hagree c).2.2.2.2.2.1, (hagree c).2.2.2.2.2.2.1, (hagree c).2.2.2.2.2.2.2.1, (hagree c).2.2.2.2.2.2.2.2]
      exact (Cert.KernelIdeal.Program.result0 m ρ c).symm
    · exact (Cert.KernelIdeal.Program.result1 m ρ c).symm

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
